-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S512x11008 : Shape := ⟨2, ![512, 11008]⟩
abbrev S32x1376 : Shape := ⟨2, ![32, 1376]⟩
abbrev S32x11008 : Shape := ⟨2, ![32, 11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x11008 : S_.BroadcastsInDim S32x11008 (![] : Fin 0 → Fin S32x11008.rank)
  reducesTo_S32x11008_S_d0_1 : S32x11008.ReducesTo [0, 1] S_

variable [Facts]

def fn {F : FTy → Type} [FloatOps F] (main_arg0 : FVec F S4x2048x4096 .f32) (main_arg1 : IVec S512x11008 32) (main_arg2 : IVec S32x1376 32) (main_arg3 : FVec F S32x11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  main_v8
-- ==== Kernel.lean ====
abbrev S4x2048x4096 : Shape := ⟨3, ![4, 2048, 4096]⟩
abbrev S512x11008 : Shape := ⟨2, ![512, 11008]⟩
abbrev S32x1376 : Shape := ⟨2, ![32, 1376]⟩
abbrev S32x11008 : Shape := ⟨2, ![32, 11008]⟩
abbrev S8 : Shape := ⟨1, ![8]⟩
abbrev S_ : Shape := ⟨0, ![]⟩
abbrev S32x1376x1 : Shape := ⟨3, ![32, 1376, 1]⟩
abbrev S1x1x8 : Shape := ⟨3, ![1, 1, 8]⟩
abbrev S32x1376x8 : Shape := ⟨3, ![32, 1376, 8]⟩
abbrev S512x11264 : Shape := ⟨2, ![512, 11264]⟩
abbrev S32x11264 : Shape := ⟨2, ![32, 11264]⟩
abbrev S8192x4096 : Shape := ⟨2, ![8192, 4096]⟩
abbrev S8192x11264 : Shape := ⟨2, ![8192, 11264]⟩
abbrev S512x4096 : Shape := ⟨2, ![512, 4096]⟩
abbrev S512x1408 : Shape := ⟨2, ![512, 1408]⟩
abbrev S32x1408 : Shape := ⟨2, ![32, 1408]⟩
abbrev S4096x1408 : Shape := ⟨2, ![4096, 1408]⟩
abbrev S1x8 : Shape := ⟨2, ![1, 8]⟩
abbrev S16x1408 : Shape := ⟨2, ![16, 1408]⟩
abbrev S16x1x1408 : Shape := ⟨3, ![16, 1, 1408]⟩
abbrev S1x8x1 : Shape := ⟨3, ![1, 8, 1]⟩
abbrev S16x8x1408 : Shape := ⟨3, ![16, 8, 1408]⟩
abbrev S128x1408 : Shape := ⟨2, ![128, 1408]⟩
abbrev S1x1408 : Shape := ⟨2, ![1, 1408]⟩
abbrev S512x128 : Shape := ⟨2, ![512, 128]⟩
abbrev S8192x11008 : Shape := ⟨2, ![8192, 11008]⟩
abbrev S4x2048x11008 : Shape := ⟨3, ![4, 2048, 11008]⟩

abbrev nBuf : Space → Nat
  | .hbm => 31
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S32x1376x1, .i32⟩
  | .hbm, ⟨9, _⟩ => ⟨S1x1x8, .i32⟩
  | .hbm, ⟨10, _⟩ => ⟨S32x1376x8, .i32⟩
  | .hbm, ⟨11, _⟩ => ⟨S32x1376x8, .i32⟩
  | .hbm, ⟨12, _⟩ => ⟨S32x1376x8, .i32⟩
  | .hbm, ⟨13, _⟩ => ⟨S_, .i32⟩
  | .hbm, ⟨14, _⟩ => ⟨S32x1376x8, .i32⟩
  | .hbm, ⟨15, _⟩ => ⟨S32x1376x8, .i32⟩
  | .hbm, ⟨16, _⟩ => ⟨S32x11008, .i32⟩
  | .hbm, ⟨17, _⟩ => ⟨S_, .i32⟩
  | .hbm, ⟨18, _⟩ => ⟨S_, .i32⟩
  | .hbm, ⟨19, _⟩ => ⟨S512x11264, .i32⟩
  | .hbm, ⟨20, _⟩ => ⟨S_, .i32⟩
  | .hbm, ⟨21, _⟩ => ⟨S_, .i32⟩
  | .hbm, ⟨22, _⟩ => ⟨S32x11264, .i32⟩
  | .hbm, ⟨23, _⟩ => ⟨S_, .i32⟩
  | .hbm, ⟨24, _⟩ => ⟨S_, .f32⟩
  | .hbm, ⟨25, _⟩ => ⟨S32x11264, .f32⟩
  | .hbm, ⟨26, _⟩ => ⟨S8192x4096, .f32⟩
  | .hbm, ⟨27, _⟩ => ⟨S8192x4096, .bf16⟩
  | .hbm, ⟨28, _⟩ => ⟨S8192x11264, .f32⟩
  | .hbm, ⟨29, _⟩ => ⟨S8192x11008, .f32⟩
  | .hbm, ⟨30, _⟩ => ⟨S4x2048x11008, .f32⟩
  | .local _ .vmem, ⟨0, _⟩ => ⟨S512x4096, .bf16⟩
  | .local _ .vmem, ⟨1, _⟩ => ⟨S512x4096, .bf16⟩
  | .local _ .vmem, ⟨2, _⟩ => ⟨S512x1408, .i32⟩
  | .local _ .vmem, ⟨3, _⟩ => ⟨S512x1408, .i32⟩
  | .local _ .vmem, ⟨4, _⟩ => ⟨S32x1408, .i32⟩
  | .local _ .vmem, ⟨5, _⟩ => ⟨S32x1408, .i32⟩
  | .local _ .vmem, ⟨6, _⟩ => ⟨S32x1408, .f32⟩
  | .local _ .vmem, ⟨7, _⟩ => ⟨S32x1408, .f32⟩
  | .local _ .vmem, ⟨8, _⟩ => ⟨S512x1408, .f32⟩
  | .local _ .vmem, ⟨9, _⟩ => ⟨S512x1408, .f32⟩
  | .local _ .vmem, ⟨10, _⟩ => ⟨S4096x1408, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_call0_v0 : Ref sig .tc := ⟨.hbm, 18, rfl⟩
abbrev main_v11 : Ref sig .tc := ⟨.hbm, 19, rfl⟩
abbrev main_c_2 : Ref sig .tc := ⟨.hbm, 20, rfl⟩
abbrev main_call1_v0 : Ref sig .tc := ⟨.hbm, 21, rfl⟩
abbrev main_v12 : Ref sig .tc := ⟨.hbm, 22, rfl⟩
abbrev main_c_3 : Ref sig .tc := ⟨.hbm, 23, rfl⟩
abbrev main_call2_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x1408 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S8 : S_.BroadcastsInDim S8 (![] : Fin 0 → Fin S8.rank)
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  pads_S512x11008_S512x11264_000_02560 : S512x11008.Pads (![0, 0] : Fin 2 → Nat) ![0, 256] ![0, 0] S512x11264
  h_S_ : 0 < S_.numel
  pads_S32x11008_S32x11264_000_02560 : S32x11008.Pads (![0, 0] : Fin 2 → Nat) ![0, 256] ![0, 0] S32x11264
  shapeCasts_S4x2048x4096_S8192x4096 : S4x2048x4096.ShapeCasts S8192x4096
  bitsLt_bf16_f32 : FTy.bits .bf16 < FTy.bits .f32
  iota_S1x8_d1_w32 : S1x8.Iotas .tc 32 [1]
  shapeCasts_S1x8_S8 : S1x8.ShapeCasts S8
  inb_S512x1408_S16x1408_0_0 : ∀ a, (![0, 0] : Fin 2 → Nat) a + S16x1408.size a ≤ S512x1408.size a
  h_S16x1408 : 0 < S16x1408.numel
  shapeCasts_S16x1408_S16x1408 : S16x1408.ShapeCasts S16x1408
  shapeCasts_S16x1408_S16x1x1408 : S16x1408.ShapeCasts S16x1x1408
  shapeCasts_S8_S1x8x1 : S8.ShapeCasts S1x8x1
  broadcasts_S16x1x1408_S16x8x1408 : S16x1x1408.Broadcasts S16x8x1408
  broadcasts_S1x8x1_S16x8x1408 : S1x8x1.Broadcasts S16x8x1408
  shapeCasts_S16x8x1408_S128x1408 : S16x8x1408.ShapeCasts S128x1408
  inb_S32x1408_S1x1408_0_0 : ∀ a, (![0, 0] : Fin 2 → Nat) a + S1x1408.size a ≤ S32x1408.size a
  h_S1x1408 : 0 < S1x1408.numel
  shapeCasts_S1x1408_S1x1408 : S1x1408.ShapeCasts S1x1408
  broadcasts_S1x1408_S128x1408 : S1x1408.Broadcasts S128x1408
  inb_S4096x1408_S128x1408_0_0 : ∀ a, (![0, 0] : Fin 2 → Nat) a + S128x1408.size a ≤ S4096x1408.size a
  h_S128x1408 : 0 < S128x1408.numel
  shapeCasts_S128x1408_S128x1408 : S128x1408.ShapeCasts S128x1408
  packedbf16_S4096x1408_S128x1408_0_0 : (Rect.unit (s := S4096x1408) ![0, 0] S128x1408.size inb_S4096x1408_S128x1408_0_0).PackedRows (EltTy.packing .bf16)
  inb_S512x4096_S512x128_0_0 : ∀ a, (![0, 0] : Fin 2 → Nat) a + S512x128.size a ≤ S512x4096.size a
  h_S512x128 : 0 < S512x128.numel
  shapeCasts_S512x128_S512x128 : S512x128.ShapeCasts S512x128
  inb_S512x1408_S16x1408_16_0 : ∀ a, (![16, 0] : Fin 2 → Nat) a + S16x1408.size a ≤ S512x1408.size a
  inb_S32x1408_S1x1408_1_0 : ∀ a, (![1, 0] : Fin 2 → Nat) a + S1x1408.size a ≤ S32x1408.size a
  inb_S4096x1408_S128x1408_128_0 : ∀ a, (![128, 0] : Fin 2 → Nat) a + S128x1408.size a ≤ S4096x1408.size a
  packedbf16_S4096x1408_S128x1408_128_0 : (Rect.unit (s := S4096x1408) ![128, 0] S128x1408.size inb_S4096x1408_S128x1408_128_0).PackedRows (EltTy.packing .bf16)
  inb_S512x4096_S512x128_0_128 : ∀ a, (![0, 128] : Fin 2 → Nat) a + S512x128.size a ≤ S512x4096.size a
  inb_S512x1408_S16x1408_32_0 : ∀ a, (![32, 0] : Fin 2 → Nat) a + S16x1408.size a ≤ S512x1408.size a
  inb_S32x1408_S1x1408_2_0 : ∀ a, (![2, 0] : Fin 2 → Nat) a + S1x1408.size a ≤ S32x1408.size a
  inb_S4096x1408_S128x1408_256_0 : ∀ a, (![256, 0] : Fin 2 → Nat) a + S128x1408.size a ≤ S4096x1408.size a
  packedbf16_S4096x1408_S128x1408_256_0 : (Rect.unit (s := S4096x1408) ![256, 0] S128x1408.size inb_S4096x1408_S128x1408_256_0).PackedRows (EltTy.packing .bf16)
  inb_S512x4096_S512x128_0_256 : ∀ a, (![0, 256] : Fin 2 → Nat) a + S512x128.size a ≤ S512x4096.size a
  inb_S512x1408_S16x1408_48_0 : ∀ a, (![48, 0] : Fin 2 → Nat) a + S16x1408.size a ≤ S512x1408.size a
  inb_S32x1408_S1x1408_3_0 : ∀ a, (![3, 0] : Fin 2 → Nat) a + S1x1408.size a ≤ S32x1408.size a
  inb_S4096x1408_S128x1408_384_0 : ∀ a, (![384, 0] : Fin 2 → Nat) a + S128x1408.size a ≤ S4096x1408.size a
  packedbf16_S4096x1408_S128x1408_384_0 : (Rect.unit (s := S4096x1408) ![384, 0] S128x1408.size inb_S4096x1408_S128x1408_384_0).PackedRows (EltTy.packing .bf16)
  inb_S512x4096_S512x128_0_384 : ∀ a, (![0, 384] : Fin 2 → Nat) a + S512x128.size a ≤ S512x4096.size a
  inb_S512x1408_S16x1408_64_0 : ∀ a, (![64, 0] : Fin 2 → Nat) a + S16x1408.size a ≤ S512x1408.size a
  inb_S32x1408_S1x1408_4_0 : ∀ a, (![4, 0] : Fin 2 → Nat) a + S1x1408.size a ≤ S32x1408.size a
  inb_S4096x1408_S128x1408_512_0 : ∀ a, (![512, 0] : Fin 2 → Nat) a + S128x1408.size a ≤ S4096x1408.size a
  packedbf16_S4096x1408_S128x1408_512_0 : (Rect.unit (s := S4096x1408) ![512, 0] S128x1408.size inb_S4096x1408_S128x1408_512_0).PackedRows (EltTy.packing .bf16)
  inb_S512x4096_S512x128_0_512 : ∀ a, (![0, 512] : Fin 2 → Nat) a + S512x128.size a ≤ S512x4096.size a
  inb_S512x1408_S16x1408_80_0 : ∀ a, (![80, 0] : Fin 2 → Nat) a + S16x1408.size a ≤ S512x1408.size a
  inb_S32x1408_S1x1408_5_0 : ∀ a, (![5, 0] : Fin 2 → Nat) a + S1x1408.size a ≤ S32x1408.size a
  inb_S4096x1408_S128x1408_640_0 : ∀ a, (![640, 0] : Fin 2 → Nat) a + S128x1408.size a ≤ S4096x1408.size a
  packedbf16_S4096x1408_S128x1408_640_0 : (Rect.unit (s := S4096x1408) ![640, 0] S128x1408.size inb_S4096x1408_S128x1408_640_0).PackedRows (EltTy.packing .bf16)
  inb_S512x4096_S512x128_0_640 : ∀ a, (![0, 640] : Fin 2 → Nat) a + S512x128.size a ≤ S512x4096.size a
  inb_S512x1408_S16x1408_96_0 : ∀ a, (![96, 0] : Fin 2 → Nat) a + S16x1408.size a ≤ S512x1408.size a
  inb_S32x1408_S1x1408_6_0 : ∀ a, (![6, 0] : Fin 2 → Nat) a + S1x1408.size a ≤ S32x1408.size a
  inb_S4096x1408_S128x1408_768_0 : ∀ a, (![768, 0] : Fin 2 → Nat) a + S128x1408.size a ≤ S4096x1408.size a
  packedbf16_S4096x1408_S128x1408_768_0 : (Rect.unit (s := S4096x1408) ![768, 0] S128x1408.size inb_S4096x1408_S128x1408_768_0).PackedRows (EltTy.packing .bf16)
  inb_S512x4096_S512x128_0_768 : ∀ a, (![0, 768] : Fin 2 → Nat) a + S512x128.size a ≤ S512x4096.size a
  inb_S512x1408_S16x1408_112_0 : ∀ a, (![112, 0] : Fin 2 → Nat) a + S16x1408.size a ≤ S512x1408.size a
  inb_S32x1408_S1x1408_7_0 : ∀ a, (![7, 0] : Fin 2 → Nat) a + S1x1408.size a ≤ S32x1408.size a
  inb_S4096x1408_S128x1408_896_0 : ∀ a, (![896, 0] : Fin 2 → Nat) a + S128x1408.size a ≤ S4096x1408.size a
  packedbf16_S4096x1408_S128x1408_896_0 : (Rect.unit (s := S4096x1408) ![896, 0] S128x1408.size inb_S4096x1408_S128x1408_896_0).PackedRows (EltTy.packing .bf16)
  inb_S512x4096_S512x128_0_896 : ∀ a, (![0, 896] : Fin 2 → Nat) a + S512x128.size a ≤ S512x4096.size a
  inb_S512x1408_S16x1408_128_0 : ∀ a, (![128, 0] : Fin 2 → Nat) a + S16x1408.size a ≤ S512x1408.size a
  inb_S32x1408_S1x1408_8_0 : ∀ a, (![8, 0] : Fin 2 → Nat) a + S1x1408.size a ≤ S32x1408.size a
  inb_S4096x1408_S128x1408_1024_0 : ∀ a, (![1024, 0] : Fin 2 → Nat) a + S128x1408.size a ≤ S4096x1408.size a
  packedbf16_S4096x1408_S128x1408_1024_0 : (Rect.unit (s := S4096x1408) ![1024, 0] S128x1408.size inb_S4096x1408_S128x1408_1024_0).PackedRows (EltTy.packing .bf16)
  inb_S512x4096_S512x128_0_1024 : ∀ a, (![0, 1024] : Fin 2 → Nat) a + S512x128.size a ≤ S512x4096.size a
  inb_S512x1408_S16x1408_144_0 : ∀ a, (![144, 0] : Fin 2 → Nat) a + S16x1408.size a ≤ S512x1408.size a
  inb_S32x1408_S1x1408_9_0 : ∀ a, (![9, 0] : Fin 2 → Nat) a + S1x1408.size a ≤ S32x1408.size a
  inb_S4096x1408_S128x1408_1152_0 : ∀ a, (![1152, 0] : Fin 2 → Nat) a + S128x1408.size a ≤ S4096x1408.size a
  packedbf16_S4096x1408_S128x1408_1152_0 : (Rect.unit (s := S4096x1408) ![1152, 0] S128x1408.size inb_S4096x1408_S128x1408_1152_0).PackedRows (EltTy.packing .bf16)
  inb_S512x4096_S512x128_0_1152 : ∀ a, (![0, 1152] : Fin 2 → Nat) a + S512x128.size a ≤ S512x4096.size a
  inb_S512x1408_S16x1408_160_0 : ∀ a, (![160, 0] : Fin 2 → Nat) a + S16x1408.size a ≤ S512x1408.size a
  inb_S32x1408_S1x1408_10_0 : ∀ a, (![10, 0] : Fin 2 → Nat) a + S1x1408.size a ≤ S32x1408.size a
  inb_S4096x1408_S128x1408_1280_0 : ∀ a, (![1280, 0] : Fin 2 → Nat) a + S128x1408.size a ≤ S4096x1408.size a
  packedbf16_S4096x1408_S128x1408_1280_0 : (Rect.unit (s := S4096x1408) ![1280, 0] S128x1408.size inb_S4096x1408_S128x1408_1280_0).PackedRows (EltTy.packing .bf16)
  inb_S512x4096_S512x128_0_1280 : ∀ a, (![0, 1280] : Fin 2 → Nat) a + S512x128.size a ≤ S512x4096.size a
  inb_S512x1408_S16x1408_176_0 : ∀ a, (![176, 0] : Fin 2 → Nat) a + S16x1408.size a ≤ S512x1408.size a
  inb_S32x1408_S1x1408_11_0 : ∀ a, (![11, 0] : Fin 2 → Nat) a + S1x1408.size a ≤ S32x1408.size a
  inb_S4096x1408_S128x1408_1408_0 : ∀ a, (![1408, 0] : Fin 2 → Nat) a + S128x1408.size a ≤ S4096x1408.size a
  packedbf16_S4096x1408_S128x1408_1408_0 : (Rect.unit (s := S4096x1408) ![1408, 0] S128x1408.size inb_S4096x1408_S128x1408_1408_0).PackedRows (EltTy.packing .bf16)
  inb_S512x4096_S512x128_0_1408 : ∀ a, (![0, 1408] : Fin 2 → Nat) a + S512x128.size a ≤ S512x4096.size a
  inb_S512x1408_S16x1408_192_0 : ∀ a, (![192, 0] : Fin 2 → Nat) a + S16x1408.size a ≤ S512x1408.size a
  inb_S32x1408_S1x1408_12_0 : ∀ a, (![12, 0] : Fin 2 → Nat) a + S1x1408.size a ≤ S32x1408.size a
  inb_S4096x1408_S128x1408_1536_0 : ∀ a, (![1536, 0] : Fin 2 → Nat) a + S128x1408.size a ≤ S4096x1408.size a
  packedbf16_S4096x1408_S128x1408_1536_0 : (Rect.unit (s := S4096x1408) ![1536, 0] S128x1408.size inb_S4096x1408_S128x1408_1536_0).PackedRows (EltTy.packing .bf16)
  inb_S512x4096_S512x128_0_1536 : ∀ a, (![0, 1536] : Fin 2 → Nat) a + S512x128.size a ≤ S512x4096.size a
  inb_S512x1408_S16x1408_208_0 : ∀ a, (![208, 0] : Fin 2 → Nat) a + S16x1408.size a ≤ S512x1408.size a
  inb_S32x1408_S1x1408_13_0 : ∀ a, (![13, 0] : Fin 2 → Nat) a + S1x1408.size a ≤ S32x1408.size a
  inb_S4096x1408_S128x1408_1664_0 : ∀ a, (![1664, 0] : Fin 2 → Nat) a + S128x1408.size a ≤ S4096x1408.size a
  packedbf16_S4096x1408_S128x1408_1664_0 : (Rect.unit (s := S4096x1408) ![1664, 0] S128x1408.size inb_S4096x1408_S128x1408_1664_0).PackedRows (EltTy.packing .bf16)
  inb_S512x4096_S512x128_0_1664 : ∀ a, (![0, 1664] : Fin 2 → Nat) a + S512x128.size a ≤ S512x4096.size a
  inb_S512x1408_S16x1408_224_0 : ∀ a, (![224, 0] : Fin 2 → Nat) a + S16x1408.size a ≤ S512x1408.size a
  inb_S32x1408_S1x1408_14_0 : ∀ a, (![14, 0] : Fin 2 → Nat) a + S1x1408.size a ≤ S32x1408.size a
  inb_S4096x1408_S128x1408_1792_0 : ∀ a, (![1792, 0] : Fin 2 → Nat) a + S128x1408.size a ≤ S4096x1408.size a
  packedbf16_S4096x1408_S128x1408_1792_0 : (Rect.unit (s := S4096x1408) ![1792, 0] S128x1408.size inb_S4096x1408_S128x1408_1792_0).PackedRows (EltTy.packing .bf16)
  inb_S512x4096_S512x128_0_1792 : ∀ a, (![0, 1792] : Fin 2 → Nat) a + S512x128.size a ≤ S512x4096.size a
  inb_S512x1408_S16x1408_240_0 : ∀ a, (![240, 0] : Fin 2 → Nat) a + S16x1408.size a ≤ S512x1408.size a
  inb_S32x1408_S1x1408_15_0 : ∀ a, (![15, 0] : Fin 2 → Nat) a + S1x1408.size a ≤ S32x1408.size a
  inb_S4096x1408_S128x1408_1920_0 : ∀ a, (![1920, 0] : Fin 2 → Nat) a + S128x1408.size a ≤ S4096x1408.size a
  packedbf16_S4096x1408_S128x1408_1920_0 : (Rect.unit (s := S4096x1408) ![1920, 0] S128x1408.size inb_S4096x1408_S128x1408_1920_0).PackedRows (EltTy.packing .bf16)
  inb_S512x4096_S512x128_0_1920 : ∀ a, (![0, 1920] : Fin 2 → Nat) a + S512x128.size a ≤ S512x4096.size a
  inb_S512x1408_S16x1408_256_0 : ∀ a, (![256, 0] : Fin 2 → Nat) a + S16x1408.size a ≤ S512x1408.size a
  inb_S32x1408_S1x1408_16_0 : ∀ a, (![16, 0] : Fin 2 → Nat) a + S1x1408.size a ≤ S32x1408.size a
  inb_S4096x1408_S128x1408_2048_0 : ∀ a, (![2048, 0] : Fin 2 → Nat) a + S128x1408.size a ≤ S4096x1408.size a
  packedbf16_S4096x1408_S128x1408_2048_0 : (Rect.unit (s := S4096x1408) ![2048, 0] S128x1408.size inb_S4096x1408_S128x1408_2048_0).PackedRows (EltTy.packing .bf16)
  inb_S512x4096_S512x128_0_2048 : ∀ a, (![0, 2048] : Fin 2 → Nat) a + S512x128.size a ≤ S512x4096.size a
  inb_S512x1408_S16x1408_272_0 : ∀ a, (![272, 0] : Fin 2 → Nat) a + S16x1408.size a ≤ S512x1408.size a
  inb_S32x1408_S1x1408_17_0 : ∀ a, (![17, 0] : Fin 2 → Nat) a + S1x1408.size a ≤ S32x1408.size a
  inb_S4096x1408_S128x1408_2176_0 : ∀ a, (![2176, 0] : Fin 2 → Nat) a + S128x1408.size a ≤ S4096x1408.size a
  packedbf16_S4096x1408_S128x1408_2176_0 : (Rect.unit (s := S4096x1408) ![2176, 0] S128x1408.size inb_S4096x1408_S128x1408_2176_0).PackedRows (EltTy.packing .bf16)
  inb_S512x4096_S512x128_0_2176 : ∀ a, (![0, 2176] : Fin 2 → Nat) a + S512x128.size a ≤ S512x4096.size a
  inb_S512x1408_S16x1408_288_0 : ∀ a, (![288, 0] : Fin 2 → Nat) a + S16x1408.size a ≤ S512x1408.size a
  inb_S32x1408_S1x1408_18_0 : ∀ a, (![18, 0] : Fin 2 → Nat) a + S1x1408.size a ≤ S32x1408.size a
  inb_S4096x1408_S128x1408_2304_0 : ∀ a, (![2304, 0] : Fin 2 → Nat) a + S128x1408.size a ≤ S4096x1408.size a
  packedbf16_S4096x1408_S128x1408_2304_0 : (Rect.unit (s := S4096x1408) ![2304, 0] S128x1408.size inb_S4096x1408_S128x1408_2304_0).PackedRows (EltTy.packing .bf16)
  inb_S512x4096_S512x128_0_2304 : ∀ a, (![0, 2304] : Fin 2 → Nat) a + S512x128.size a ≤ S512x4096.size a
  inb_S512x1408_S16x1408_304_0 : ∀ a, (![304, 0] : Fin 2 → Nat) a + S16x1408.size a ≤ S512x1408.size a
  inb_S32x1408_S1x1408_19_0 : ∀ a, (![19, 0] : Fin 2 → Nat) a + S1x1408.size a ≤ S32x1408.size a
  inb_S4096x1408_S128x1408_2432_0 : ∀ a, (![2432, 0] : Fin 2 → Nat) a + S128x1408.size a ≤ S4096x1408.size a
  packedbf16_S4096x1408_S128x1408_2432_0 : (Rect.unit (s := S4096x1408) ![2432, 0] S128x1408.size inb_S4096x1408_S128x1408_2432_0).PackedRows (EltTy.packing .bf16)
  inb_S512x4096_S512x128_0_2432 : ∀ a, (![0, 2432] : Fin 2 → Nat) a + S512x128.size a ≤ S512x4096.size a
  inb_S512x1408_S16x1408_320_0 : ∀ a, (![320, 0] : Fin 2 → Nat) a + S16x1408.size a ≤ S512x1408.size a
  inb_S32x1408_S1x1408_20_0 : ∀ a, (![20, 0] : Fin 2 → Nat) a + S1x1408.size a ≤ S32x1408.size a
  inb_S4096x1408_S128x1408_2560_0 : ∀ a, (![2560, 0] : Fin 2 → Nat) a + S128x1408.size a ≤ S4096x1408.size a
  packedbf16_S4096x1408_S128x1408_2560_0 : (Rect.unit (s := S4096x1408) ![2560, 0] S128x1408.size inb_S4096x1408_S128x1408_2560_0).PackedRows (EltTy.packing .bf16)
  inb_S512x4096_S512x128_0_2560 : ∀ a, (![0, 2560] : Fin 2 → Nat) a + S512x128.size a ≤ S512x4096.size a
  inb_S512x1408_S16x1408_336_0 : ∀ a, (![336, 0] : Fin 2 → Nat) a + S16x1408.size a ≤ S512x1408.size a
  inb_S32x1408_S1x1408_21_0 : ∀ a, (![21, 0] : Fin 2 → Nat) a + S1x1408.size a ≤ S32x1408.size a
  inb_S4096x1408_S128x1408_2688_0 : ∀ a, (![2688, 0] : Fin 2 → Nat) a + S128x1408.size a ≤ S4096x1408.size a
  packedbf16_S4096x1408_S128x1408_2688_0 : (Rect.unit (s := S4096x1408) ![2688, 0] S128x1408.size inb_S4096x1408_S128x1408_2688_0).PackedRows (EltTy.packing .bf16)
  inb_S512x4096_S512x128_0_2688 : ∀ a, (![0, 2688] : Fin 2 → Nat) a + S512x128.size a ≤ S512x4096.size a
  inb_S512x1408_S16x1408_352_0 : ∀ a, (![352, 0] : Fin 2 → Nat) a + S16x1408.size a ≤ S512x1408.size a
  inb_S32x1408_S1x1408_22_0 : ∀ a, (![22, 0] : Fin 2 → Nat) a + S1x1408.size a ≤ S32x1408.size a
  inb_S4096x1408_S128x1408_2816_0 : ∀ a, (![2816, 0] : Fin 2 → Nat) a + S128x1408.size a ≤ S4096x1408.size a
  packedbf16_S4096x1408_S128x1408_2816_0 : (Rect.unit (s := S4096x1408) ![2816, 0] S128x1408.size inb_S4096x1408_S128x1408_2816_0).PackedRows (EltTy.packing .bf16)
  inb_S512x4096_S512x128_0_2816 : ∀ a, (![0, 2816] : Fin 2 → Nat) a + S512x128.size a ≤ S512x4096.size a
  inb_S512x1408_S16x1408_368_0 : ∀ a, (![368, 0] : Fin 2 → Nat) a + S16x1408.size a ≤ S512x1408.size a
  inb_S32x1408_S1x1408_23_0 : ∀ a, (![23, 0] : Fin 2 → Nat) a + S1x1408.size a ≤ S32x1408.size a
  inb_S4096x1408_S128x1408_2944_0 : ∀ a, (![2944, 0] : Fin 2 → Nat) a + S128x1408.size a ≤ S4096x1408.size a
  packedbf16_S4096x1408_S128x1408_2944_0 : (Rect.unit (s := S4096x1408) ![2944, 0] S128x1408.size inb_S4096x1408_S128x1408_2944_0).PackedRows (EltTy.packing .bf16)
  inb_S512x4096_S512x128_0_2944 : ∀ a, (![0, 2944] : Fin 2 → Nat) a + S512x128.size a ≤ S512x4096.size a
  inb_S512x1408_S16x1408_384_0 : ∀ a, (![384, 0] : Fin 2 → Nat) a + S16x1408.size a ≤ S512x1408.size a
  inb_S32x1408_S1x1408_24_0 : ∀ a, (![24, 0] : Fin 2 → Nat) a + S1x1408.size a ≤ S32x1408.size a
  inb_S4096x1408_S128x1408_3072_0 : ∀ a, (![3072, 0] : Fin 2 → Nat) a + S128x1408.size a ≤ S4096x1408.size a
  packedbf16_S4096x1408_S128x1408_3072_0 : (Rect.unit (s := S4096x1408) ![3072, 0] S128x1408.size inb_S4096x1408_S128x1408_3072_0).PackedRows (EltTy.packing .bf16)
  inb_S512x4096_S512x128_0_3072 : ∀ a, (![0, 3072] : Fin 2 → Nat) a + S512x128.size a ≤ S512x4096.size a
  inb_S512x1408_S16x1408_400_0 : ∀ a, (![400, 0] : Fin 2 → Nat) a + S16x1408.size a ≤ S512x1408.size a
  inb_S32x1408_S1x1408_25_0 : ∀ a, (![25, 0] : Fin 2 → Nat) a + S1x1408.size a ≤ S32x1408.size a
  inb_S4096x1408_S128x1408_3200_0 : ∀ a, (![3200, 0] : Fin 2 → Nat) a + S128x1408.size a ≤ S4096x1408.size a
  packedbf16_S4096x1408_S128x1408_3200_0 : (Rect.unit (s := S4096x1408) ![3200, 0] S128x1408.size inb_S4096x1408_S128x1408_3200_0).PackedRows (EltTy.packing .bf16)
  inb_S512x4096_S512x128_0_3200 : ∀ a, (![0, 3200] : Fin 2 → Nat) a + S512x128.size a ≤ S512x4096.size a
  inb_S512x1408_S16x1408_416_0 : ∀ a, (![416, 0] : Fin 2 → Nat) a + S16x1408.size a ≤ S512x1408.size a
  inb_S32x1408_S1x1408_26_0 : ∀ a, (![26, 0] : Fin 2 → Nat) a + S1x1408.size a ≤ S32x1408.size a
  inb_S4096x1408_S128x1408_3328_0 : ∀ a, (![3328, 0] : Fin 2 → Nat) a + S128x1408.size a ≤ S4096x1408.size a
  packedbf16_S4096x1408_S128x1408_3328_0 : (Rect.unit (s := S4096x1408) ![3328, 0] S128x1408.size inb_S4096x1408_S128x1408_3328_0).PackedRows (EltTy.packing .bf16)
  inb_S512x4096_S512x128_0_3328 : ∀ a, (![0, 3328] : Fin 2 → Nat) a + S512x128.size a ≤ S512x4096.size a
  inb_S512x1408_S16x1408_432_0 : ∀ a, (![432, 0] : Fin 2 → Nat) a + S16x1408.size a ≤ S512x1408.size a
  inb_S32x1408_S1x1408_27_0 : ∀ a, (![27, 0] : Fin 2 → Nat) a + S1x1408.size a ≤ S32x1408.size a
  inb_S4096x1408_S128x1408_3456_0 : ∀ a, (![3456, 0] : Fin 2 → Nat) a + S128x1408.size a ≤ S4096x1408.size a
  packedbf16_S4096x1408_S128x1408_3456_0 : (Rect.unit (s := S4096x1408) ![3456, 0] S128x1408.size inb_S4096x1408_S128x1408_3456_0).PackedRows (EltTy.packing .bf16)
  inb_S512x4096_S512x128_0_3456 : ∀ a, (![0, 3456] : Fin 2 → Nat) a + S512x128.size a ≤ S512x4096.size a
  inb_S512x1408_S16x1408_448_0 : ∀ a, (![448, 0] : Fin 2 → Nat) a + S16x1408.size a ≤ S512x1408.size a
  inb_S32x1408_S1x1408_28_0 : ∀ a, (![28, 0] : Fin 2 → Nat) a + S1x1408.size a ≤ S32x1408.size a
  inb_S4096x1408_S128x1408_3584_0 : ∀ a, (![3584, 0] : Fin 2 → Nat) a + S128x1408.size a ≤ S4096x1408.size a
  packedbf16_S4096x1408_S128x1408_3584_0 : (Rect.unit (s := S4096x1408) ![3584, 0] S128x1408.size inb_S4096x1408_S128x1408_3584_0).PackedRows (EltTy.packing .bf16)
  inb_S512x4096_S512x128_0_3584 : ∀ a, (![0, 3584] : Fin 2 → Nat) a + S512x128.size a ≤ S512x4096.size a
  inb_S512x1408_S16x1408_464_0 : ∀ a, (![464, 0] : Fin 2 → Nat) a + S16x1408.size a ≤ S512x1408.size a
  inb_S32x1408_S1x1408_29_0 : ∀ a, (![29, 0] : Fin 2 → Nat) a + S1x1408.size a ≤ S32x1408.size a
  inb_S4096x1408_S128x1408_3712_0 : ∀ a, (![3712, 0] : Fin 2 → Nat) a + S128x1408.size a ≤ S4096x1408.size a
  packedbf16_S4096x1408_S128x1408_3712_0 : (Rect.unit (s := S4096x1408) ![3712, 0] S128x1408.size inb_S4096x1408_S128x1408_3712_0).PackedRows (EltTy.packing .bf16)
  inb_S512x4096_S512x128_0_3712 : ∀ a, (![0, 3712] : Fin 2 → Nat) a + S512x128.size a ≤ S512x4096.size a
  inb_S512x1408_S16x1408_480_0 : ∀ a, (![480, 0] : Fin 2 → Nat) a + S16x1408.size a ≤ S512x1408.size a
  inb_S32x1408_S1x1408_30_0 : ∀ a, (![30, 0] : Fin 2 → Nat) a + S1x1408.size a ≤ S32x1408.size a
  inb_S4096x1408_S128x1408_3840_0 : ∀ a, (![3840, 0] : Fin 2 → Nat) a + S128x1408.size a ≤ S4096x1408.size a
  packedbf16_S4096x1408_S128x1408_3840_0 : (Rect.unit (s := S4096x1408) ![3840, 0] S128x1408.size inb_S4096x1408_S128x1408_3840_0).PackedRows (EltTy.packing .bf16)
  inb_S512x4096_S512x128_0_3840 : ∀ a, (![0, 3840] : Fin 2 → Nat) a + S512x128.size a ≤ S512x4096.size a
  inb_S512x1408_S16x1408_496_0 : ∀ a, (![496, 0] : Fin 2 → Nat) a + S16x1408.size a ≤ S512x1408.size a
  inb_S32x1408_S1x1408_31_0 : ∀ a, (![31, 0] : Fin 2 → Nat) a + S1x1408.size a ≤ S32x1408.size a
  inb_S4096x1408_S128x1408_3968_0 : ∀ a, (![3968, 0] : Fin 2 → Nat) a + S128x1408.size a ≤ S4096x1408.size a
  packedbf16_S4096x1408_S128x1408_3968_0 : (Rect.unit (s := S4096x1408) ![3968, 0] S128x1408.size inb_S4096x1408_S128x1408_3968_0).PackedRows (EltTy.packing .bf16)
  inb_S512x4096_S512x128_0_3968 : ∀ a, (![0, 3968] : Fin 2 → Nat) a + S512x128.size a ≤ S512x4096.size a
  inb_S512x1408_S512x1408_0_0 : ∀ a, (![0, 0] : Fin 2 → Nat) a + S512x1408.size a ≤ S512x1408.size a
  h_S512x1408 : 0 < S512x1408.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1408_S4096x1408_0_0 : ∀ a, (![0, 0] : Fin 2 → Nat) a + S4096x1408.size a ≤ S4096x1408.size a
  h_S4096x1408 : 0 < S4096x1408.numel
  slices_S8192x11264_S8192x11008_0_0 : S8192x11264.Slices ![0, 0] S8192x11008
  shapeCasts_S8192x11008_S4x2048x11008 : S8192x11008.ShapeCasts S4x2048x11008
  dot_S512x128_S128x1408_S512x1408_1_0_0_1_n_n_wf : DotDims.WF S512x128 S128x1408 S512x1408 [1] [0] [0] [1] [] []
  dot_S512x4096_S4096x1408_S512x1408_1_0_0_1_n_n_wf : DotDims.WF S512x4096 S4096x1408 S512x1408 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1408.size a ≤ S512x11264.size a
  hwx0_1 : ∀ i : grid0.Coords, EltTy.bits .i32 = 32 ∨ (Rect.block (s := S512x11264) S512x1408.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1408.size a ≤ S32x11264.size a
  hwx0_2 : ∀ i : grid0.Coords, EltTy.bits .i32 = 32 ∨ (Rect.block (s := S32x11264) S32x1408.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1408.size a ≤ S32x11264.size a
  hwx0_3 : ∀ i : grid0.Coords, EltTy.bits .f32 = 32 ∨ (Rect.block (s := S32x11264) S32x1408.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1408.size a ≤ S8192x11264.size a
  hwx0_4 : ∀ i : grid0.Coords, EltTy.bits .f32 = 32 ∨ (Rect.block (s := S8192x11264) S512x1408.size (cc0_transform_4 i) (hinb0_4 i)).WholeWords (EltTy.packing .f32)

variable [Facts₀]

def dot_S512x128_S128x1408_S512x1408_1_0_0_1_n_n : DotDims S512x128 S128x1408 S512x1408 where
  lhsContracting := [1]
  rhsContracting := [0]
  lhsNonContracting := [0]
  rhsNonContracting := [1]
  lhsBatch := []
  rhsBatch := []
  wf := dot_S512x128_S128x1408_S512x1408_1_0_0_1_n_n_wf
def dot_S512x4096_S4096x1408_S512x1408_1_0_0_1_n_n : DotDims S512x4096 S4096x1408 S512x1408 where
  lhsContracting := [1]
  rhsContracting := [0]
  lhsNonContracting := [0]
  rhsNonContracting := [1]
  lhsBatch := []
  rhsBatch := []
  wf := dot_S512x4096_S4096x1408_S512x1408_1_0_0_1_n_n_wf

abbrev win0_0 : Pipeline.Window sig grid0 :=
  Pipeline.Window.ofSpec (Memref.whole main_v15) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S512x1408.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S32x1408.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S32x1408.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S512x1408.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S512x11008 : Shape := ⟨2, ![512, 11008]⟩
abbrev S32x1376 : Shape := ⟨2, ![32, 1376]⟩
abbrev S32x11008 : Shape := ⟨2, ![32, 11008]⟩
abbrev S8 : Shape := ⟨1, ![8]⟩
abbrev S_ : Shape := ⟨0, ![]⟩
abbrev S512x1x11008 : Shape := ⟨3, ![512, 1, 11008]⟩
abbrev S1x8x1 : Shape := ⟨3, ![1, 8, 1]⟩
abbrev S512x8x11008 : Shape := ⟨3, ![512, 8, 11008]⟩
abbrev S4096x11008 : Shape := ⟨2, ![4096, 11008]⟩
abbrev S32x1376x1 : Shape := ⟨3, ![32, 1376, 1]⟩
abbrev S1x1x8 : Shape := ⟨3, ![1, 1, 8]⟩
abbrev S32x1376x8 : Shape := ⟨3, ![32, 1376, 8]⟩
abbrev S32x128x11008 : Shape := ⟨3, ![32, 128, 11008]⟩
abbrev S4x2048x11008 : Shape := ⟨3, ![4, 2048, 11008]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S512x1x11008, .i32⟩
  | .hbm, ⟨9, _⟩ => ⟨S1x8x1, .i32⟩
  | .hbm, ⟨10, _⟩ => ⟨S512x8x11008, .i32⟩
  | .hbm, ⟨11, _⟩ => ⟨S512x8x11008, .i32⟩
  | .hbm, ⟨12, _⟩ => ⟨S512x8x11008, .i32⟩
  | .hbm, ⟨13, _⟩ => ⟨S_, .i32⟩
  | .hbm, ⟨14, _⟩ => ⟨S512x8x11008, .i32⟩
  | .hbm, ⟨15, _⟩ => ⟨S512x8x11008, .i32⟩
  | .hbm, ⟨16, _⟩ => ⟨S4096x11008, .i32⟩
  | .hbm, ⟨17, _⟩ => ⟨S4096x11008, .f32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S32x1376x1, .i32⟩
  | .hbm, ⟨23, _⟩ => ⟨S1x1x8, .i32⟩
  | .hbm, ⟨24, _⟩ => ⟨S32x1376x8, .i32⟩
  | .hbm, ⟨25, _⟩ => ⟨S32x1376x8, .i32⟩
  | .hbm, ⟨26, _⟩ => ⟨S32x1376x8, .i32⟩
  | .hbm, ⟨27, _⟩ => ⟨S_, .i32⟩
  | .hbm, ⟨28, _⟩ => ⟨S32x1376x8, .i32⟩
  | .hbm, ⟨29, _⟩ => ⟨S32x1376x8, .i32⟩
  | .hbm, ⟨30, _⟩ => ⟨S32x11008, .i32⟩
  | .hbm, ⟨31, _⟩ => ⟨S32x11008, .f32⟩
  | .hbm, ⟨32, _⟩ => ⟨S32x128x11008, .f32⟩
  | .hbm, ⟨33, _⟩ => ⟨S4096x11008, .f32⟩
  | .hbm, ⟨34, _⟩ => ⟨S32x128x11008, .f32⟩
  | .hbm, ⟨35, _⟩ => ⟨S4096x11008, .f32⟩
  | .hbm, ⟨36, _⟩ => ⟨S4096x11008, .f32⟩
  | .hbm, ⟨37, _⟩ => ⟨S4096x11008, .f32⟩
  | .hbm, ⟨38, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x11008_S512x1x11008_0_2 : S512x11008.BroadcastsInDim S512x1x11008 (![0, 2] : Fin 2 → Fin S512x1x11008.rank)
  bcast_S8_S1x8x1_1 : S8.BroadcastsInDim S1x8x1 (![1] : Fin 1 → Fin S1x8x1.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S4096x11008 : S512x8x11008.ShapeCasts S4096x11008
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S32x11008_S32x128x11008_0_2 : S32x11008.BroadcastsInDim S32x128x11008 (![0, 2] : Fin 2 → Fin S32x128x11008.rank)
  shapeCasts_S32x128x11008_S4096x11008 : S32x128x11008.ShapeCasts S4096x11008
  dot_S4x2048x4096_S4096x11008_S4x2048x11008_2_0_01_1_n_n_wf : DotDims.WF S4x2048x4096 S4096x11008 S4x2048x11008 [2] [0] [0, 1] [1] [] []

variable [Facts₀]

def dot_S4x2048x4096_S4096x11008_S4x2048x11008_2_0_01_1_n_n : DotDims S4x2048x4096 S4096x11008 S4x2048x11008 where
  lhsContracting := [2]
  rhsContracting := [0]
  lhsNonContracting := [0, 1]
  rhsNonContracting := [1]
  lhsBatch := []
  rhsBatch := []
  wf := dot_S4x2048x4096_S4096x11008_S4x2048x11008_2_0_01_1_n_n_wf

class Facts : Prop extends Facts₀ where

variable [Facts]
-- ==== Proof.Bits.Cases.lean ====
/-
  The grid is 8 column tiles by 16 row tiles, the row tile innermost: point t is column tile t / 16 and row
  tile t % 16. The body has two branches, on the row-tile coordinate alone: at row tile 0 it dequantises the
  column tile's packed weights into the scratch, 128 rows at a time, and accumulates the product chunk by
  chunk; at every other row tile it multiplies the row block by the scratch as the first row tile left it.
  Here: the two conditions in closed form over the 128 points, that the output window is stored at every
  point, and the names of the staging memrefs and of the scratch.
-/
import proofs.«415117_j28973849379104_3_alg».proof.Proof.Gen.Kernel.Frame
import proofs.«415117_j28973849379104_3_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The filling branch is taken exactly at the first row tile of each column tile. -/
theorem fill_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The reusing branch is taken exactly at the other row tiles. -/
theorem reuse_iff : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- No window is idle anywhere: the inputs never are, and one of the two branches stores the output at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-- Each window's current staging memref at point `t`, as the pipeline passes it to the body, and its wholeness. -/
abbrev ms0 (t : Fin cfg0.N) : Memref sig .tc .vmem S512x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1408 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x1408 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x1408 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1408 .f32 := win0_4.stage (cfg0.slots t 4)
abbrev hs4 (t : Fin cfg0.N) : (ms4 t).IsWhole := hstage0_4 ((cfg0.slots t 4).cast nbuf0_4)

/-- The scratch that holds a column tile's dequantised weights: a whole buffer of the kernel's own. -/
abbrev wbM : Memref sig .tc .vmem S4096x1408 .bf16 := Memref.whole cc0_scratch0
/-- The scratch and one staging buffer of the output as views: what they hold is stated through them. -/
abbrev wbV : View sig .tc .vmem S4096x1408 .bf16 := wbM.view
abbrev outV : View sig .tc .vmem S512x1408 .f32 := (Memref.whole cc0_stg4_0 : Memref sig .tc .vmem S512x1408 .f32).view

/-- The region's invariant with the scratch as a memref owned at some contents. -/
theorem PhiA_eq (c : Dev nD) :
    (Pipeline.ΦA spec0 c : sProp 𝕄)
      = iprop(iprop((∃ d, owns (c : Thread nD τ) wbM fullShare d)) ∗ (∃ r, prngReg c r)) := by
  unfold Pipeline.ΦA; rw [scopedRest0_eq]; simp only [wbM, owns_whole]; try rfl

end Cert.Kernel.Hand

end
-- ==== Proof.Bits.RunFill.lean ====
/-
  The body at the first row tile of a column tile. Whatever the scratch and the output's staging buffer held,
  the body runs to the end: it loads the packed weights sixteen rows at a time, a row of zero points and a row
  of scales per group, stores each group's 128 dequantised rows into the scratch, loads the matching 128
  columns of the row block, and stores the accumulated product into the output's buffer. What the two written
  buffers end with is recorded as the list of stored rectangles with their values (latest first), which the
  symbolic run finds; the inputs' buffers are handed back as they were.
-/
import proofs.«415117_j28973849379104_3_alg».proof.Proof.Bits.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- The stored pieces of the output's buffer and of the scratch at a filling point, with the body's run. -/
noncomputable def runFill (c : Dev nD) (i : grid0.Coords) (arg2 : Memref sig .tc .vmem S512x4096 .bf16) (harg2 : arg2.IsWhole) (arg3 : Memref sig .tc .vmem S512x1408 .i32) (harg3 : arg3.IsWhole) (arg4 : Memref sig .tc .vmem S32x1408 .i32) (harg4 : arg4.IsWhole) (arg5 : Memref sig .tc .vmem S32x1408 .f32) (harg5 : arg5.IsWhole) (arg6 : Memref sig .tc .vmem S512x1408 .f32) (harg6 : arg6.IsWhole) (arg7 : Memref sig .tc .vmem S4096x1408 .bf16) (harg7 : arg7.IsWhole)
    (hc0 : k0_cond1 i = 1#1) (hc1 : ¬ k0_cond2 i = 1#1)
    (x0 : Vec F S512x4096 .bf16) (x1 : Vec F S512x1408 .i32) (x2 : Vec F S32x1408 .i32) (x3 : Vec F S32x1408 .f32) :
    Σ' (L4 : List (View.Piece (Elt F) S512x1408 .f32)), { LS : List (View.Piece (Elt F) S4096x1408 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__quant_matmul_kernel i arg2 harg2 arg3 harg3 arg4 harg4 arg5 harg5 arg6 harg6 arg7 harg7) K } := by
  refine ⟨?_, ?_, fun E K => ?run⟩
  case run =>
    simp only [cc0__quant_matmul_kernel_eq_skeleton]; unfold cc0__quant_matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Hand

end
-- ==== Proof.Bits.RunReuse.lean ====
/-
  The body at any other row tile. The scratch holds what the column tile's first row tile left; the body loads
  the whole row block and the whole scratch, and stores their product into the output's buffer, whatever that
  held. The inputs' buffers and the scratch are handed back as they were; the one stored piece of the output's
  buffer is found by the symbolic run.
-/
import proofs.«415117_j28973849379104_3_alg».proof.Proof.Bits.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The stored piece of the output's buffer at a reusing point, with the body's run. -/
noncomputable def runReuse (c : Dev nD) (i : grid0.Coords) (arg2 : Memref sig .tc .vmem S512x4096 .bf16) (harg2 : arg2.IsWhole) (arg3 : Memref sig .tc .vmem S512x1408 .i32) (harg3 : arg3.IsWhole) (arg4 : Memref sig .tc .vmem S32x1408 .i32) (harg4 : arg4.IsWhole) (arg5 : Memref sig .tc .vmem S32x1408 .f32) (harg5 : arg5.IsWhole) (arg6 : Memref sig .tc .vmem S512x1408 .f32) (harg6 : arg6.IsWhole) (arg7 : Memref sig .tc .vmem S4096x1408 .bf16) (harg7 : arg7.IsWhole)
    (hc0 : ¬ k0_cond1 i = 1#1) (hc1 : k0_cond2 i = 1#1)
    (x0 : Vec F S512x4096 .bf16) (xs : Vec F S4096x1408 .bf16) :
    { L4 : List (View.Piece (Elt F) S512x1408 .f32) //
      ∀ (x1 : Vec F S512x1408 .i32) (x2 : Vec F S32x1408 .i32) (x3 : Vec F S32x1408 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare xs) -∗ K ⟨⟩))
          ⊢ wp frame (wpE (defs₀ (F := F)) Variants.none c none) E (cc0__quant_matmul_kernel i arg2 harg2 arg3 harg3 arg4 harg4 arg5 harg5 arg6 harg6 arg7 harg7) K } := by
  refine ⟨?_, fun x1 x2 x3 E K => ?run⟩
  case run =>
    simp only [cc0__quant_matmul_kernel_eq_skeleton]; unfold cc0__quant_matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS

end Cert.Kernel.Hand

end
-- ==== Proof.Bits.Frame.lean ====
/-
  The frame of the program, at any float instance, from the two case runs.
  After point n the output's staging buffer and the scratch hold (outsAt): at a filling point (n a multiple of
  16) what the filling run's stored pieces read back to, a function of the point's four input blocks; at any
  other point the product piece of the reusing run, a function of the row block and of what the scratch held
  after point n - 1, the scratch itself unchanged. The region's invariant before a point is the class's own
  before the first point (the scratch at anything) and afterwards the scratch at what the point before left.
  With this proof data the body obligation holds at every point (the two runs, chosen by n % 16), the launch
  theorem gives the run of @main, and the frame claim follows by the generated reading of the run's post.
-/
import proofs.«415117_j28973849379104_3_alg».proof.Proof.Bits.RunFill
import proofs.«415117_j28973849379104_3_alg».proof.Proof.Bits.RunReuse

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the runs leave, read back -/

/-- At a filling point the one stored piece of the output's buffer is the whole block. -/
theorem coverOutFill (c : Dev nD) (i : grid0.Coords) (arg2 : Memref sig .tc .vmem S512x4096 .bf16) (harg2 : arg2.IsWhole) (arg3 : Memref sig .tc .vmem S512x1408 .i32) (harg3 : arg3.IsWhole) (arg4 : Memref sig .tc .vmem S32x1408 .i32) (harg4 : arg4.IsWhole) (arg5 : Memref sig .tc .vmem S32x1408 .f32) (harg5 : arg5.IsWhole) (arg6 : Memref sig .tc .vmem S512x1408 .f32) (harg6 : arg6.IsWhole) (arg7 : Memref sig .tc .vmem S4096x1408 .bf16) (harg7 : arg7.IsWhole)
    (hc0 : k0_cond1 i = 1#1) (hc1 : ¬ k0_cond2 i = 1#1)
    (x0 : Vec F S512x4096 .bf16) (x1 : Vec F S512x1408 .i32) (x2 : Vec F S32x1408 .i32) (x3 : Vec F S32x1408 .f32) (y : S512x1408.Idx) :
    ∃ pc ∈ (runFill c i arg2 harg2 arg3 harg3 arg4 harg4 arg5 harg5 arg6 harg6 arg7 harg7 hc0 hc1 x0 x1 x2 x3).1, y ∈ pc.1.set :=
  View.cover_of_tiledL (runFill c i arg2 harg2 arg3 harg3 arg4 harg4 arg5 harg5 arg6 harg6 arg7 harg7 hc0 hc1 x0 x1 x2 x3).1 S512x1408.size (by sl_kernel_rfl) y

/-- At a filling point the thirty-two stored slabs of 128 rows tile the scratch. -/
theorem coverWbFill (c : Dev nD) (i : grid0.Coords) (arg2 : Memref sig .tc .vmem S512x4096 .bf16) (harg2 : arg2.IsWhole) (arg3 : Memref sig .tc .vmem S512x1408 .i32) (harg3 : arg3.IsWhole) (arg4 : Memref sig .tc .vmem S32x1408 .i32) (harg4 : arg4.IsWhole) (arg5 : Memref sig .tc .vmem S32x1408 .f32) (harg5 : arg5.IsWhole) (arg6 : Memref sig .tc .vmem S512x1408 .f32) (harg6 : arg6.IsWhole) (arg7 : Memref sig .tc .vmem S4096x1408 .bf16) (harg7 : arg7.IsWhole)
    (hc0 : k0_cond1 i = 1#1) (hc1 : ¬ k0_cond2 i = 1#1)
    (x0 : Vec F S512x4096 .bf16) (x1 : Vec F S512x1408 .i32) (x2 : Vec F S32x1408 .i32) (x3 : Vec F S32x1408 .f32) (y : S4096x1408.Idx) :
    ∃ pc ∈ (runFill c i arg2 harg2 arg3 harg3 arg4 harg4 arg5 harg5 arg6 harg6 arg7 harg7 hc0 hc1 x0 x1 x2 x3).2.1, y ∈ pc.1.set :=
  View.cover_of_tiledL (runFill c i arg2 harg2 arg3 harg3 arg4 harg4 arg5 harg5 arg6 harg6 arg7 harg7 hc0 hc1 x0 x1 x2 x3).2.1 S128x1408.size (by sl_kernel_rfl) y

/-- What a filling point leaves in the output's staging buffer. -/
def outFill (c : Dev nD) (i : grid0.Coords) (arg2 : Memref sig .tc .vmem S512x4096 .bf16) (harg2 : arg2.IsWhole) (arg3 : Memref sig .tc .vmem S512x1408 .i32) (harg3 : arg3.IsWhole) (arg4 : Memref sig .tc .vmem S32x1408 .i32) (harg4 : arg4.IsWhole) (arg5 : Memref sig .tc .vmem S32x1408 .f32) (harg5 : arg5.IsWhole) (arg6 : Memref sig .tc .vmem S512x1408 .f32) (harg6 : arg6.IsWhole) (arg7 : Memref sig .tc .vmem S4096x1408 .bf16) (harg7 : arg7.IsWhole)
    (hc0 : k0_cond1 i = 1#1) (hc1 : ¬ k0_cond2 i = 1#1)
    (x0 : Vec F S512x4096 .bf16) (x1 : Vec F S512x1408 .i32) (x2 : Vec F S32x1408 .i32) (x3 : Vec F S32x1408 .f32) : Vec F S512x1408 .f32 :=
  outV.read (Elt F) (outV.writes (Elt F) outV.junk (runFill c i arg2 harg2 arg3 harg3 arg4 harg4 arg5 harg5 arg6 harg6 arg7 harg7 hc0 hc1 x0 x1 x2 x3).1)

/-- What a filling point leaves in the scratch. -/
def wbFill (c : Dev nD) (i : grid0.Coords) (arg2 : Memref sig .tc .vmem S512x4096 .bf16) (harg2 : arg2.IsWhole) (arg3 : Memref sig .tc .vmem S512x1408 .i32) (harg3 : arg3.IsWhole) (arg4 : Memref sig .tc .vmem S32x1408 .i32) (harg4 : arg4.IsWhole) (arg5 : Memref sig .tc .vmem S32x1408 .f32) (harg5 : arg5.IsWhole) (arg6 : Memref sig .tc .vmem S512x1408 .f32) (harg6 : arg6.IsWhole) (arg7 : Memref sig .tc .vmem S4096x1408 .bf16) (harg7 : arg7.IsWhole)
    (hc0 : k0_cond1 i = 1#1) (hc1 : ¬ k0_cond2 i = 1#1)
    (x0 : Vec F S512x4096 .bf16) (x1 : Vec F S512x1408 .i32) (x2 : Vec F S32x1408 .i32) (x3 : Vec F S32x1408 .f32) : Vec F S4096x1408 .bf16 :=
  wbV.read (Elt F) (wbV.writes (Elt F) wbV.junk (runFill c i arg2 harg2 arg3 harg3 arg4 harg4 arg5 harg5 arg6 harg6 arg7 harg7 hc0 hc1 x0 x1 x2 x3).2.1)

/-- At a reusing point the one stored piece of the output's buffer is the whole block. -/
theorem coverOutReuse (c : Dev nD) (i : grid0.Coords) (arg2 : Memref sig .tc .vmem S512x4096 .bf16) (harg2 : arg2.IsWhole) (arg3 : Memref sig .tc .vmem S512x1408 .i32) (harg3 : arg3.IsWhole) (arg4 : Memref sig .tc .vmem S32x1408 .i32) (harg4 : arg4.IsWhole) (arg5 : Memref sig .tc .vmem S32x1408 .f32) (harg5 : arg5.IsWhole) (arg6 : Memref sig .tc .vmem S512x1408 .f32) (harg6 : arg6.IsWhole) (arg7 : Memref sig .tc .vmem S4096x1408 .bf16) (harg7 : arg7.IsWhole)
    (hc0 : ¬ k0_cond1 i = 1#1) (hc1 : k0_cond2 i = 1#1)
    (x0 : Vec F S512x4096 .bf16) (xs : Vec F S4096x1408 .bf16) (y : S512x1408.Idx) :
    ∃ pc ∈ (runReuse c i arg2 harg2 arg3 harg3 arg4 harg4 arg5 harg5 arg6 harg6 arg7 harg7 hc0 hc1 x0 xs).1, y ∈ pc.1.set :=
  View.cover_of_tiledL (runReuse c i arg2 harg2 arg3 harg3 arg4 harg4 arg5 harg5 arg6 harg6 arg7 harg7 hc0 hc1 x0 xs).1 S512x1408.size (by sl_kernel_rfl) y

/-- What a reusing point leaves in the output's staging buffer. -/
def outReuse (c : Dev nD) (i : grid0.Coords) (arg2 : Memref sig .tc .vmem S512x4096 .bf16) (harg2 : arg2.IsWhole) (arg3 : Memref sig .tc .vmem S512x1408 .i32) (harg3 : arg3.IsWhole) (arg4 : Memref sig .tc .vmem S32x1408 .i32) (harg4 : arg4.IsWhole) (arg5 : Memref sig .tc .vmem S32x1408 .f32) (harg5 : arg5.IsWhole) (arg6 : Memref sig .tc .vmem S512x1408 .f32) (harg6 : arg6.IsWhole) (arg7 : Memref sig .tc .vmem S4096x1408 .bf16) (harg7 : arg7.IsWhole)
    (hc0 : ¬ k0_cond1 i = 1#1) (hc1 : k0_cond2 i = 1#1)
    (x0 : Vec F S512x4096 .bf16) (xs : Vec F S4096x1408 .bf16) : Vec F S512x1408 .f32 :=
  outV.read (Elt F) (outV.writes (Elt F) outV.junk (runReuse c i arg2 harg2 arg3 harg3 arg4 harg4 arg5 harg5 arg6 harg6 arg7 harg7 hc0 hc1 x0 xs).1)

/-! ## Point by point -/

/-- What the output's staging buffer and the scratch hold after the body at position `n`. -/
def outsAt (c : Dev nD) : (n : ℕ) → n < cfg0.N → Vec F S512x1408 .f32 × Vec F S4096x1408 .bf16
  | 0, hn => (outFill c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) wbM (Memref.isWhole_whole _) ((fill_iff ⟨0, hn⟩).mpr (Nat.zero_mod _)) (fun h => (reuse_iff ⟨0, hn⟩).mp h (Nat.zero_mod _)) (iblk m c 0 ⟨0, hn⟩) (iblk m c 1 ⟨0, hn⟩) (iblk m c 2 ⟨0, hn⟩) (iblk m c 3 ⟨0, hn⟩), wbFill c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) wbM (Memref.isWhole_whole _) ((fill_iff ⟨0, hn⟩).mpr (Nat.zero_mod _)) (fun h => (reuse_iff ⟨0, hn⟩).mp h (Nat.zero_mod _)) (iblk m c 0 ⟨0, hn⟩) (iblk m c 1 ⟨0, hn⟩) (iblk m c 2 ⟨0, hn⟩) (iblk m c 3 ⟨0, hn⟩))
  | n + 1, hn =>
    if h0 : (n + 1) % 16 = 0 then
      (outFill c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) wbM (Memref.isWhole_whole _) ((fill_iff ⟨n + 1, hn⟩).mpr h0) (fun h => (reuse_iff ⟨n + 1, hn⟩).mp h h0) (iblk m c 0 ⟨n + 1, hn⟩) (iblk m c 1 ⟨n + 1, hn⟩) (iblk m c 2 ⟨n + 1, hn⟩) (iblk m c 3 ⟨n + 1, hn⟩), wbFill c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) wbM (Memref.isWhole_whole _) ((fill_iff ⟨n + 1, hn⟩).mpr h0) (fun h => (reuse_iff ⟨n + 1, hn⟩).mp h h0) (iblk m c 0 ⟨n + 1, hn⟩) (iblk m c 1 ⟨n + 1, hn⟩) (iblk m c 2 ⟨n + 1, hn⟩) (iblk m c 3 ⟨n + 1, hn⟩))
    else
      (outReuse c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) wbM (Memref.isWhole_whole _) (fun h => h0 ((fill_iff ⟨n + 1, hn⟩).mp h)) ((reuse_iff ⟨n + 1, hn⟩).mpr h0) (iblk m c 0 ⟨n + 1, hn⟩) (outsAt c n (Nat.lt_of_succ_lt hn)).2, (outsAt c n (Nat.lt_of_succ_lt hn)).2)

/-- At a filling point: the filling run's contents. -/
theorem outsAt_fill (c : Dev nD) (t : Fin cfg0.N) (h0 : t.val % 16 = 0) :
    outsAt m c t.val t.isLt = (outFill c (grid0.coords t) (ms0 t) (hs0 t) (ms1 t) (hs1 t) (ms2 t) (hs2 t) (ms3 t) (hs3 t) (ms4 t) (hs4 t) wbM (Memref.isWhole_whole _) ((fill_iff t).mpr h0) (fun h => (reuse_iff t).mp h h0) (iblk m c 0 t) (iblk m c 1 t) (iblk m c 2 t) (iblk m c 3 t), wbFill c (grid0.coords t) (ms0 t) (hs0 t) (ms1 t) (hs1 t) (ms2 t) (hs2 t) (ms3 t) (hs3 t) (ms4 t) (hs4 t) wbM (Memref.isWhole_whole _) ((fill_iff t).mpr h0) (fun h => (reuse_iff t).mp h h0) (iblk m c 0 t) (iblk m c 1 t) (iblk m c 2 t) (iblk m c 3 t)) := by
  obtain ⟨n, hn⟩ := t
  cases n with
  | zero => exact rfl
  | succ n => exact (dif_pos h0).trans rfl

/-- At a reusing point: the product over what the point before left in the scratch, which stays. -/
theorem outsAt_reuse (c : Dev nD) (t : Fin cfg0.N) (h0 : ¬ t.val % 16 = 0) :
    outsAt m c t.val t.isLt = (outReuse c (grid0.coords t) (ms0 t) (hs0 t) (ms1 t) (hs1 t) (ms2 t) (hs2 t) (ms3 t) (hs3 t) (ms4 t) (hs4 t) wbM (Memref.isWhole_whole _) (fun h => h0 ((fill_iff t).mp h)) ((reuse_iff t).mpr h0) (iblk m c 0 t) (outsAt m c (t.val - 1) (Nat.lt_of_le_of_lt (Nat.sub_le _ _) t.isLt)).2, (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position `n`: before the first point the scratch at anything; afterwards at
    what the point before left in it. The generator register at some state throughout. -/
def PhiS (c : Dev nD) : (n : ℕ) → n ≤ cfg0.N → sProp 𝕄
  | 0, _ => Pipeline.ΦA spec0 c
  | n + 1, hn => iprop(iprop(owns (c : Thread nD τ) wbM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) wbM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) wbM fullShare ((outsAt m c (n - 1) (by omega)).2)) ∗ (∃ r, prngReg c r)) := by
  cases n with
  | zero => exact absurd rfl hz
  | succ n => rfl

/-! ## The proof data -/

/-- The arrays as the region finds them; after the body at point `t` each input's buffer at its block and the
    output's at `outsAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_eq (c : Dev nD) (t : Fin cfg0.N) (w : Fin cfg0.W) (hl : cfg0.idle w (grid0.coords t) = false) :
    (dats m 0 c).leavesExact w t = owns (c : Thread nD τ) ((cfg0.win w).stage (cfg0.slots t w)) fullShare ((dats m 0 c).after w t) := by
  unfold Dat.leavesExact; rw [hl]; try rfl

set_option maxHeartbeats 4800000 in
/-- The body at any point: the inputs' memrefs hold their blocks; the point's position modulo 16 says which run
    applies; the invariant hands the body the scratch (at anything at a filling point, at what the point before
    left at a reusing one) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [leaves_eq m c t 0 (live0 t), leaves_eq m c t 1 (live1 t), leaves_eq m c t 2 (live2 t), leaves_eq m c t 3 (live3 t), leaves_eq m c t 4 (live4 t),
    after0, after1, after2, after3, after4]
  by_cases h0 : t.val % 16 = 0
  · rw [outsAt_fill m c t h0]
    unfold outFill wbFill; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩⟩
      iapply ((runFill c (grid0.coords t) _ _ _ _ _ _ _ _ _ _ _ _ ((fill_iff t).mpr h0) (fun h => (reuse_iff t).mp h h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (coverWbFill c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOutFill c _ _ _ _ _ _ _ _ _ _ _ _ _ _ _ _ _ _ _)
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runFill c (grid0.coords t) _ _ _ _ _ _ _ _ _ _ _ _ ((fill_iff t).mpr h0) (fun h => (reuse_iff t).mp h h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (coverWbFill c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOutFill c _ _ _ _ _ _ _ _ _ _ _ _ _ _ _ _ _ _ _)
  · rw [outsAt_reuse m c t h0]
    unfold outReuse; (try dsimp only)
    have hz : t.val ≠ 0 := fun h => h0 (by rw [h])
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩⟩
    iapply ((runReuse c (grid0.coords t) _ _ _ _ _ _ _ _ _ _ _ _ (fun h => h0 ((fill_iff t).mp h)) ((reuse_iff t).mpr h0) (iblk m c 0 t) _).2 _ _ _ Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOutReuse c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: what the scratch holds is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, and in every final state each array of the pipeline holds
    what the library computes from the proof data and every other unscoped buffer what the lines after the
    region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.Ideal.Cases.lean ====
/-
  The grid is 8 column tiles by 16 row tiles, the row tile innermost: point t is column tile t / 16 and row
  tile t % 16. The body has two branches, on the row-tile coordinate alone: at row tile 0 it dequantises the
  column tile's packed weights into the scratch, 128 rows at a time, and accumulates the product chunk by
  chunk; at every other row tile it multiplies the row block by the scratch as the first row tile left it.
  Here: the two conditions in closed form over the 128 points, that the output window is stored at every
  point, and the names of the staging memrefs and of the scratch.
-/
import proofs.«415117_j28973849379104_3_alg».proof.Proof.Gen.KernelIdeal.Frame
import proofs.«415117_j28973849379104_3_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The filling branch is taken exactly at the first row tile of each column tile. -/
theorem fill_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The reusing branch is taken exactly at the other row tiles. -/
theorem reuse_iff : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- No window is idle anywhere: the inputs never are, and one of the two branches stores the output at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-- Each window's current staging memref at point `t`, as the pipeline passes it to the body, and its wholeness. -/
abbrev ms0 (t : Fin cfg0.N) : Memref sig .tc .vmem S512x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1408 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x1408 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x1408 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1408 .f32 := win0_4.stage (cfg0.slots t 4)
abbrev hs4 (t : Fin cfg0.N) : (ms4 t).IsWhole := hstage0_4 ((cfg0.slots t 4).cast nbuf0_4)

/-- The scratch that holds a column tile's dequantised weights: a whole buffer of the kernel's own. -/
abbrev wbM : Memref sig .tc .vmem S4096x1408 .bf16 := Memref.whole cc0_scratch0
/-- The scratch and one staging buffer of the output as views: what they hold is stated through them. -/
abbrev wbV : View sig .tc .vmem S4096x1408 .bf16 := wbM.view
abbrev outV : View sig .tc .vmem S512x1408 .f32 := (Memref.whole cc0_stg4_0 : Memref sig .tc .vmem S512x1408 .f32).view

/-- The region's invariant with the scratch as a memref owned at some contents. -/
theorem PhiA_eq (c : Dev nD) :
    (Pipeline.ΦA spec0 c : sProp 𝕄)
      = iprop(iprop((∃ d, owns (c : Thread nD τ) wbM fullShare d)) ∗ (∃ r, prngReg c r)) := by
  unfold Pipeline.ΦA; rw [scopedRest0_eq]; simp only [wbM, owns_whole]; try rfl

end Cert.KernelIdeal.Hand

end
-- ==== Proof.Ideal.RunFill.lean ====
/-
  The body at the first row tile of a column tile. Whatever the scratch and the output's staging buffer held,
  the body runs to the end: it loads the packed weights sixteen rows at a time, a row of zero points and a row
  of scales per group, stores each group's 128 dequantised rows into the scratch, loads the matching 128
  columns of the row block, and stores the accumulated product into the output's buffer. What the two written
  buffers end with is recorded as the list of stored rectangles with their values (latest first), which the
  symbolic run finds; the inputs' buffers are handed back as they were.
-/
import proofs.«415117_j28973849379104_3_alg».proof.Proof.Ideal.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The stored pieces of the output's buffer and of the scratch at a filling point, with the body's run. -/
noncomputable def runFill (c : Dev nD) (i : grid0.Coords) (arg2 : Memref sig .tc .vmem S512x4096 .bf16) (harg2 : arg2.IsWhole) (arg3 : Memref sig .tc .vmem S512x1408 .i32) (harg3 : arg3.IsWhole) (arg4 : Memref sig .tc .vmem S32x1408 .i32) (harg4 : arg4.IsWhole) (arg5 : Memref sig .tc .vmem S32x1408 .f32) (harg5 : arg5.IsWhole) (arg6 : Memref sig .tc .vmem S512x1408 .f32) (harg6 : arg6.IsWhole) (arg7 : Memref sig .tc .vmem S4096x1408 .bf16) (harg7 : arg7.IsWhole)
    (hc0 : k0_cond1 i = 1#1) (hc1 : ¬ k0_cond2 i = 1#1)
    (x0 : Vec F S512x4096 .bf16) (x1 : Vec F S512x1408 .i32) (x2 : Vec F S32x1408 .i32) (x3 : Vec F S32x1408 .f32) :
    Σ' (L4 : List (View.Piece (Elt F) S512x1408 .f32)), { LS : List (View.Piece (Elt F) S4096x1408 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__quant_matmul_kernel i arg2 harg2 arg3 harg3 arg4 harg4 arg5 harg5 arg6 harg6 arg7 harg7) K } := by
  refine ⟨?_, ?_, fun E K => ?run⟩
  case run =>
    simp only [cc0__quant_matmul_kernel_eq_skeleton]; unfold cc0__quant_matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Hand

end
-- ==== Proof.Ideal.RunReuse.lean ====
/-
  The body at any other row tile. The scratch holds what the column tile's first row tile left; the body loads
  the whole row block and the whole scratch, and stores their product into the output's buffer, whatever that
  held. The inputs' buffers and the scratch are handed back as they were; the one stored piece of the output's
  buffer is found by the symbolic run.
-/
import proofs.«415117_j28973849379104_3_alg».proof.Proof.Ideal.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The stored piece of the output's buffer at a reusing point, with the body's run. -/
noncomputable def runReuse (c : Dev nD) (i : grid0.Coords) (arg2 : Memref sig .tc .vmem S512x4096 .bf16) (harg2 : arg2.IsWhole) (arg3 : Memref sig .tc .vmem S512x1408 .i32) (harg3 : arg3.IsWhole) (arg4 : Memref sig .tc .vmem S32x1408 .i32) (harg4 : arg4.IsWhole) (arg5 : Memref sig .tc .vmem S32x1408 .f32) (harg5 : arg5.IsWhole) (arg6 : Memref sig .tc .vmem S512x1408 .f32) (harg6 : arg6.IsWhole) (arg7 : Memref sig .tc .vmem S4096x1408 .bf16) (harg7 : arg7.IsWhole)
    (hc0 : ¬ k0_cond1 i = 1#1) (hc1 : k0_cond2 i = 1#1)
    (x0 : Vec F S512x4096 .bf16) (xs : Vec F S4096x1408 .bf16) :
    { L4 : List (View.Piece (Elt F) S512x1408 .f32) //
      ∀ (x1 : Vec F S512x1408 .i32) (x2 : Vec F S32x1408 .i32) (x3 : Vec F S32x1408 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare xs) -∗ K ⟨⟩))
          ⊢ wp frame (wpE (defs₀ (F := F)) Variants.none c none) E (cc0__quant_matmul_kernel i arg2 harg2 arg3 harg3 arg4 harg4 arg5 harg5 arg6 harg6 arg7 harg7) K } := by
  refine ⟨?_, fun x1 x2 x3 E K => ?run⟩
  case run =>
    simp only [cc0__quant_matmul_kernel_eq_skeleton]; unfold cc0__quant_matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS

end Cert.KernelIdeal.Hand

end
-- ==== Proof.Ideal.Frame.lean ====
/-
  The frame of the program, at any float instance, from the two case runs.
  After point n the output's staging buffer and the scratch hold (outsAt): at a filling point (n a multiple of
  16) what the filling run's stored pieces read back to, a function of the point's four input blocks; at any
  other point the product piece of the reusing run, a function of the row block and of what the scratch held
  after point n - 1, the scratch itself unchanged. The region's invariant before a point is the class's own
  before the first point (the scratch at anything) and afterwards the scratch at what the point before left.
  With this proof data the body obligation holds at every point (the two runs, chosen by n % 16), the launch
  theorem gives the run of @main, and the frame claim follows by the generated reading of the run's post.
-/
import proofs.«415117_j28973849379104_3_alg».proof.Proof.Ideal.RunFill
import proofs.«415117_j28973849379104_3_alg».proof.Proof.Ideal.RunReuse

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the runs leave, read back -/

/-- At a filling point the one stored piece of the output's buffer is the whole block. -/
theorem coverOutFill (c : Dev nD) (i : grid0.Coords) (arg2 : Memref sig .tc .vmem S512x4096 .bf16) (harg2 : arg2.IsWhole) (arg3 : Memref sig .tc .vmem S512x1408 .i32) (harg3 : arg3.IsWhole) (arg4 : Memref sig .tc .vmem S32x1408 .i32) (harg4 : arg4.IsWhole) (arg5 : Memref sig .tc .vmem S32x1408 .f32) (harg5 : arg5.IsWhole) (arg6 : Memref sig .tc .vmem S512x1408 .f32) (harg6 : arg6.IsWhole) (arg7 : Memref sig .tc .vmem S4096x1408 .bf16) (harg7 : arg7.IsWhole)
    (hc0 : k0_cond1 i = 1#1) (hc1 : ¬ k0_cond2 i = 1#1)
    (x0 : Vec F S512x4096 .bf16) (x1 : Vec F S512x1408 .i32) (x2 : Vec F S32x1408 .i32) (x3 : Vec F S32x1408 .f32) (y : S512x1408.Idx) :
    ∃ pc ∈ (runFill c i arg2 harg2 arg3 harg3 arg4 harg4 arg5 harg5 arg6 harg6 arg7 harg7 hc0 hc1 x0 x1 x2 x3).1, y ∈ pc.1.set :=
  View.cover_of_tiledL (runFill c i arg2 harg2 arg3 harg3 arg4 harg4 arg5 harg5 arg6 harg6 arg7 harg7 hc0 hc1 x0 x1 x2 x3).1 S512x1408.size (by sl_kernel_rfl) y

/-- At a filling point the thirty-two stored slabs of 128 rows tile the scratch. -/
theorem coverWbFill (c : Dev nD) (i : grid0.Coords) (arg2 : Memref sig .tc .vmem S512x4096 .bf16) (harg2 : arg2.IsWhole) (arg3 : Memref sig .tc .vmem S512x1408 .i32) (harg3 : arg3.IsWhole) (arg4 : Memref sig .tc .vmem S32x1408 .i32) (harg4 : arg4.IsWhole) (arg5 : Memref sig .tc .vmem S32x1408 .f32) (harg5 : arg5.IsWhole) (arg6 : Memref sig .tc .vmem S512x1408 .f32) (harg6 : arg6.IsWhole) (arg7 : Memref sig .tc .vmem S4096x1408 .bf16) (harg7 : arg7.IsWhole)
    (hc0 : k0_cond1 i = 1#1) (hc1 : ¬ k0_cond2 i = 1#1)
    (x0 : Vec F S512x4096 .bf16) (x1 : Vec F S512x1408 .i32) (x2 : Vec F S32x1408 .i32) (x3 : Vec F S32x1408 .f32) (y : S4096x1408.Idx) :
    ∃ pc ∈ (runFill c i arg2 harg2 arg3 harg3 arg4 harg4 arg5 harg5 arg6 harg6 arg7 harg7 hc0 hc1 x0 x1 x2 x3).2.1, y ∈ pc.1.set :=
  View.cover_of_tiledL (runFill c i arg2 harg2 arg3 harg3 arg4 harg4 arg5 harg5 arg6 harg6 arg7 harg7 hc0 hc1 x0 x1 x2 x3).2.1 S128x1408.size (by sl_kernel_rfl) y

/-- What a filling point leaves in the output's staging buffer. -/
def outFill (c : Dev nD) (i : grid0.Coords) (arg2 : Memref sig .tc .vmem S512x4096 .bf16) (harg2 : arg2.IsWhole) (arg3 : Memref sig .tc .vmem S512x1408 .i32) (harg3 : arg3.IsWhole) (arg4 : Memref sig .tc .vmem S32x1408 .i32) (harg4 : arg4.IsWhole) (arg5 : Memref sig .tc .vmem S32x1408 .f32) (harg5 : arg5.IsWhole) (arg6 : Memref sig .tc .vmem S512x1408 .f32) (harg6 : arg6.IsWhole) (arg7 : Memref sig .tc .vmem S4096x1408 .bf16) (harg7 : arg7.IsWhole)
    (hc0 : k0_cond1 i = 1#1) (hc1 : ¬ k0_cond2 i = 1#1)
    (x0 : Vec F S512x4096 .bf16) (x1 : Vec F S512x1408 .i32) (x2 : Vec F S32x1408 .i32) (x3 : Vec F S32x1408 .f32) : Vec F S512x1408 .f32 :=
  outV.read (Elt F) (outV.writes (Elt F) outV.junk (runFill c i arg2 harg2 arg3 harg3 arg4 harg4 arg5 harg5 arg6 harg6 arg7 harg7 hc0 hc1 x0 x1 x2 x3).1)

/-- What a filling point leaves in the scratch. -/
def wbFill (c : Dev nD) (i : grid0.Coords) (arg2 : Memref sig .tc .vmem S512x4096 .bf16) (harg2 : arg2.IsWhole) (arg3 : Memref sig .tc .vmem S512x1408 .i32) (harg3 : arg3.IsWhole) (arg4 : Memref sig .tc .vmem S32x1408 .i32) (harg4 : arg4.IsWhole) (arg5 : Memref sig .tc .vmem S32x1408 .f32) (harg5 : arg5.IsWhole) (arg6 : Memref sig .tc .vmem S512x1408 .f32) (harg6 : arg6.IsWhole) (arg7 : Memref sig .tc .vmem S4096x1408 .bf16) (harg7 : arg7.IsWhole)
    (hc0 : k0_cond1 i = 1#1) (hc1 : ¬ k0_cond2 i = 1#1)
    (x0 : Vec F S512x4096 .bf16) (x1 : Vec F S512x1408 .i32) (x2 : Vec F S32x1408 .i32) (x3 : Vec F S32x1408 .f32) : Vec F S4096x1408 .bf16 :=
  wbV.read (Elt F) (wbV.writes (Elt F) wbV.junk (runFill c i arg2 harg2 arg3 harg3 arg4 harg4 arg5 harg5 arg6 harg6 arg7 harg7 hc0 hc1 x0 x1 x2 x3).2.1)

/-- At a reusing point the one stored piece of the output's buffer is the whole block. -/
theorem coverOutReuse (c : Dev nD) (i : grid0.Coords) (arg2 : Memref sig .tc .vmem S512x4096 .bf16) (harg2 : arg2.IsWhole) (arg3 : Memref sig .tc .vmem S512x1408 .i32) (harg3 : arg3.IsWhole) (arg4 : Memref sig .tc .vmem S32x1408 .i32) (harg4 : arg4.IsWhole) (arg5 : Memref sig .tc .vmem S32x1408 .f32) (harg5 : arg5.IsWhole) (arg6 : Memref sig .tc .vmem S512x1408 .f32) (harg6 : arg6.IsWhole) (arg7 : Memref sig .tc .vmem S4096x1408 .bf16) (harg7 : arg7.IsWhole)
    (hc0 : ¬ k0_cond1 i = 1#1) (hc1 : k0_cond2 i = 1#1)
    (x0 : Vec F S512x4096 .bf16) (xs : Vec F S4096x1408 .bf16) (y : S512x1408.Idx) :
    ∃ pc ∈ (runReuse c i arg2 harg2 arg3 harg3 arg4 harg4 arg5 harg5 arg6 harg6 arg7 harg7 hc0 hc1 x0 xs).1, y ∈ pc.1.set :=
  View.cover_of_tiledL (runReuse c i arg2 harg2 arg3 harg3 arg4 harg4 arg5 harg5 arg6 harg6 arg7 harg7 hc0 hc1 x0 xs).1 S512x1408.size (by sl_kernel_rfl) y

/-- What a reusing point leaves in the output's staging buffer. -/
def outReuse (c : Dev nD) (i : grid0.Coords) (arg2 : Memref sig .tc .vmem S512x4096 .bf16) (harg2 : arg2.IsWhole) (arg3 : Memref sig .tc .vmem S512x1408 .i32) (harg3 : arg3.IsWhole) (arg4 : Memref sig .tc .vmem S32x1408 .i32) (harg4 : arg4.IsWhole) (arg5 : Memref sig .tc .vmem S32x1408 .f32) (harg5 : arg5.IsWhole) (arg6 : Memref sig .tc .vmem S512x1408 .f32) (harg6 : arg6.IsWhole) (arg7 : Memref sig .tc .vmem S4096x1408 .bf16) (harg7 : arg7.IsWhole)
    (hc0 : ¬ k0_cond1 i = 1#1) (hc1 : k0_cond2 i = 1#1)
    (x0 : Vec F S512x4096 .bf16) (xs : Vec F S4096x1408 .bf16) : Vec F S512x1408 .f32 :=
  outV.read (Elt F) (outV.writes (Elt F) outV.junk (runReuse c i arg2 harg2 arg3 harg3 arg4 harg4 arg5 harg5 arg6 harg6 arg7 harg7 hc0 hc1 x0 xs).1)

/-! ## Point by point -/

/-- What the output's staging buffer and the scratch hold after the body at position `n`. -/
def outsAt (c : Dev nD) : (n : ℕ) → n < cfg0.N → Vec F S512x1408 .f32 × Vec F S4096x1408 .bf16
  | 0, hn => (outFill c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) wbM (Memref.isWhole_whole _) ((fill_iff ⟨0, hn⟩).mpr (Nat.zero_mod _)) (fun h => (reuse_iff ⟨0, hn⟩).mp h (Nat.zero_mod _)) (iblk m c 0 ⟨0, hn⟩) (iblk m c 1 ⟨0, hn⟩) (iblk m c 2 ⟨0, hn⟩) (iblk m c 3 ⟨0, hn⟩), wbFill c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) wbM (Memref.isWhole_whole _) ((fill_iff ⟨0, hn⟩).mpr (Nat.zero_mod _)) (fun h => (reuse_iff ⟨0, hn⟩).mp h (Nat.zero_mod _)) (iblk m c 0 ⟨0, hn⟩) (iblk m c 1 ⟨0, hn⟩) (iblk m c 2 ⟨0, hn⟩) (iblk m c 3 ⟨0, hn⟩))
  | n + 1, hn =>
    if h0 : (n + 1) % 16 = 0 then
      (outFill c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) wbM (Memref.isWhole_whole _) ((fill_iff ⟨n + 1, hn⟩).mpr h0) (fun h => (reuse_iff ⟨n + 1, hn⟩).mp h h0) (iblk m c 0 ⟨n + 1, hn⟩) (iblk m c 1 ⟨n + 1, hn⟩) (iblk m c 2 ⟨n + 1, hn⟩) (iblk m c 3 ⟨n + 1, hn⟩), wbFill c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) wbM (Memref.isWhole_whole _) ((fill_iff ⟨n + 1, hn⟩).mpr h0) (fun h => (reuse_iff ⟨n + 1, hn⟩).mp h h0) (iblk m c 0 ⟨n + 1, hn⟩) (iblk m c 1 ⟨n + 1, hn⟩) (iblk m c 2 ⟨n + 1, hn⟩) (iblk m c 3 ⟨n + 1, hn⟩))
    else
      (outReuse c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) wbM (Memref.isWhole_whole _) (fun h => h0 ((fill_iff ⟨n + 1, hn⟩).mp h)) ((reuse_iff ⟨n + 1, hn⟩).mpr h0) (iblk m c 0 ⟨n + 1, hn⟩) (outsAt c n (Nat.lt_of_succ_lt hn)).2, (outsAt c n (Nat.lt_of_succ_lt hn)).2)

/-- At a filling point: the filling run's contents. -/
theorem outsAt_fill (c : Dev nD) (t : Fin cfg0.N) (h0 : t.val % 16 = 0) :
    outsAt m c t.val t.isLt = (outFill c (grid0.coords t) (ms0 t) (hs0 t) (ms1 t) (hs1 t) (ms2 t) (hs2 t) (ms3 t) (hs3 t) (ms4 t) (hs4 t) wbM (Memref.isWhole_whole _) ((fill_iff t).mpr h0) (fun h => (reuse_iff t).mp h h0) (iblk m c 0 t) (iblk m c 1 t) (iblk m c 2 t) (iblk m c 3 t), wbFill c (grid0.coords t) (ms0 t) (hs0 t) (ms1 t) (hs1 t) (ms2 t) (hs2 t) (ms3 t) (hs3 t) (ms4 t) (hs4 t) wbM (Memref.isWhole_whole _) ((fill_iff t).mpr h0) (fun h => (reuse_iff t).mp h h0) (iblk m c 0 t) (iblk m c 1 t) (iblk m c 2 t) (iblk m c 3 t)) := by
  obtain ⟨n, hn⟩ := t
  cases n with
  | zero => exact rfl
  | succ n => exact (dif_pos h0).trans rfl

/-- At a reusing point: the product over what the point before left in the scratch, which stays. -/
theorem outsAt_reuse (c : Dev nD) (t : Fin cfg0.N) (h0 : ¬ t.val % 16 = 0) :
    outsAt m c t.val t.isLt = (outReuse c (grid0.coords t) (ms0 t) (hs0 t) (ms1 t) (hs1 t) (ms2 t) (hs2 t) (ms3 t) (hs3 t) (ms4 t) (hs4 t) wbM (Memref.isWhole_whole _) (fun h => h0 ((fill_iff t).mp h)) ((reuse_iff t).mpr h0) (iblk m c 0 t) (outsAt m c (t.val - 1) (Nat.lt_of_le_of_lt (Nat.sub_le _ _) t.isLt)).2, (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position `n`: before the first point the scratch at anything; afterwards at
    what the point before left in it. The generator register at some state throughout. -/
def PhiS (c : Dev nD) : (n : ℕ) → n ≤ cfg0.N → sProp 𝕄
  | 0, _ => Pipeline.ΦA spec0 c
  | n + 1, hn => iprop(iprop(owns (c : Thread nD τ) wbM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) wbM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) wbM fullShare ((outsAt m c (n - 1) (by omega)).2)) ∗ (∃ r, prngReg c r)) := by
  cases n with
  | zero => exact absurd rfl hz
  | succ n => rfl

/-! ## The proof data -/

/-- The arrays as the region finds them; after the body at point `t` each input's buffer at its block and the
    output's at `outsAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_eq (c : Dev nD) (t : Fin cfg0.N) (w : Fin cfg0.W) (hl : cfg0.idle w (grid0.coords t) = false) :
    (dats m 0 c).leavesExact w t = owns (c : Thread nD τ) ((cfg0.win w).stage (cfg0.slots t w)) fullShare ((dats m 0 c).after w t) := by
  unfold Dat.leavesExact; rw [hl]; try rfl

set_option maxHeartbeats 4800000 in
/-- The body at any point: the inputs' memrefs hold their blocks; the point's position modulo 16 says which run
    applies; the invariant hands the body the scratch (at anything at a filling point, at what the point before
    left at a reusing one) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [leaves_eq m c t 0 (live0 t), leaves_eq m c t 1 (live1 t), leaves_eq m c t 2 (live2 t), leaves_eq m c t 3 (live3 t), leaves_eq m c t 4 (live4 t),
    after0, after1, after2, after3, after4]
  by_cases h0 : t.val % 16 = 0
  · rw [outsAt_fill m c t h0]
    unfold outFill wbFill; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩⟩
      iapply ((runFill c (grid0.coords t) _ _ _ _ _ _ _ _ _ _ _ _ ((fill_iff t).mpr h0) (fun h => (reuse_iff t).mp h h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (coverWbFill c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOutFill c _ _ _ _ _ _ _ _ _ _ _ _ _ _ _ _ _ _ _)
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runFill c (grid0.coords t) _ _ _ _ _ _ _ _ _ _ _ _ ((fill_iff t).mpr h0) (fun h => (reuse_iff t).mp h h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (coverWbFill c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOutFill c _ _ _ _ _ _ _ _ _ _ _ _ _ _ _ _ _ _ _)
  · rw [outsAt_reuse m c t h0]
    unfold outReuse; (try dsimp only)
    have hz : t.val ≠ 0 := fun h => h0 (by rw [h])
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩⟩
    iapply ((runReuse c (grid0.coords t) _ _ _ _ _ _ _ _ _ _ _ _ (fun h => h0 ((fill_iff t).mp h)) ((reuse_iff t).mpr h0) (iblk m c 0 t) _).2 _ _ _ Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOutReuse c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: what the scratch holds is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, and in every final state each array of the pipeline holds
    what the library computes from the proof data and every other unscoped buffer what the lines after the
    region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.Spec.lean ====
/-
  A 4-bit quantised linear layer, as mathematics.
  Eight 4-bit weights are packed in a 32-bit word: nibble n of a word q is (q >> 4n) & 15, a word in [0, 15].
  Input row k of the weight matrix takes nibble k % 8 of packed row k / 8; the rows come in groups of 128, and
  group g has, per output column, a zero point (itself a nibble: nibble o % 8 of packed column o / 8) and a
  scale. The dequantised weight is (nibble − zero point) · scale, and the layer is the product of the
  activations with the dequantised weights. Everything is read over the extended reals, where a word's
  conversion to a float is its signed value.
  Two spellings of the difference occur: the difference of the two converted words, and the conversion of the
  words' difference; for two nibbles they agree, since the difference lies in [−15, 15].
  The sums over the 4096 input rows are also taken 128 rows at a time, accumulated from zero.
-/
import Idealize.ShloMosaic.PureOps.Ideal
import Idealize.ShloMosaic.PureOps.Ideal.Laws
import Idealize.ShloMosaic.Lib.ValueIdx

noncomputable section

open scoped BigOperators

namespace QuantSpec

open Idealize.ShloMosaic Idealize.ShloMosaic.ValueIdx

/-- The shift that brings nibble `n` of a packed word down to the low four bits: 4n, as the programs compute it. -/
def shiftOf (n : ℕ) : BitVec 32 := IntOp.muli (BitVec.ofNat 32 n) 4#32

/-- Nibble `n` of a packed word. -/
def nib (q : BitVec 32) (n : ℕ) : BitVec 32 := IntOp.andi (IntOp.shrsi .host q (shiftOf n)) 15#32

/-- For the eight nibbles the shift is below the word size, so the vector unit's shift is the host's. -/
theorem nib_vector (q : BitVec 32) (n : ℕ) (hn : n < 8) :
    IntOp.andi (IntOp.shrsi .vector q (shiftOf n)) 15#32 = nib q n := by
  -- the shift amount is 4n ≤ 28, below the word size, so neither unit is at its corner
  have h : (shiftOf n).toNat < 32 := by
    unfold shiftOf IntOp.muli
    rw [BitVec.toNat_mul, BitVec.toNat_ofNat]
    have h4 : (4#32 : BitVec 32).toNat = 4 := rfl
    rw [h4]
    omega
  unfold nib IntOp.shrsi
  rw [if_pos h, if_pos h]

/-- A nibble is a word in [0, 15]. -/
theorem nib_toInt_range (q : BitVec 32) (n : ℕ) : 0 ≤ (nib q n).toInt ∧ (nib q n).toInt ≤ 15 := by
  -- masking with 15 leaves an unsigned value of at most 15, far below 2^31, so the signed value is the unsigned one
  have h : (nib q n).toNat ≤ 15 := by
    unfold nib IntOp.andi
    rw [BitVec.toNat_and]
    exact Nat.and_le_right
  have e : (nib q n).toInt = ((nib q n).toNat : ℤ) := BitVec.toInt_eq_toNat_of_lt (by omega)
  rw [e]
  omega

/-- (weight − zero point) · scale, the difference taken after the conversions. -/
def deq (w z : BitVec 32) (s : EReal) : EReal := (((w.toInt : ℝ) : EReal) - ((z.toInt : ℝ) : EReal)) * s

/-- The conversion of the difference of two nibbles is the difference of their conversions. -/
theorem deq_subi (q q' : BitVec 32) (n n' : ℕ) (s : EReal) :
    (((IntOp.subi (nib q n) (nib q' n')).toInt : ℝ) : EReal) * s = deq (nib q n) (nib q' n') s := by
  -- the integer difference of two nibbles lies in [-15, 15], so the word subtraction does not wrap
  obtain ⟨h0, h1⟩ := nib_toInt_range q n
  obtain ⟨h0', h1'⟩ := nib_toInt_range q' n'
  have e : (IntOp.subi (nib q n) (nib q' n')).toInt = (nib q n).toInt - (nib q' n').toInt := by
    unfold IntOp.subi
    rw [BitVec.toInt_sub]
    exact Int.bmod_eq_of_le (by omega) (by omega)
  unfold deq
  rw [e, Int.cast_sub, EReal.coe_sub]

/-- The quantised weight of input row `k`, output column `o`. -/
def wq (x1 : (⟨2, ![512, 11008]⟩ : Shape).Idx → BitVec 32) (k : Fin 4096) (o : Fin 11008) : BitVec 32 :=
  nib (x1 (ix2 (⟨k.val / 8, by have := k.isLt; omega⟩ : Fin 512) o)) (k.val % 8)

/-- The zero point of group `g`, output column `o`. -/
def zq (x2 : (⟨2, ![32, 1376]⟩ : Shape).Idx → BitVec 32) (g : Fin 32) (o : Fin 11008) : BitVec 32 :=
  nib (x2 (ix2 g (⟨o.val / 8, by have := o.isLt; omega⟩ : Fin 1376))) (o.val % 8)

/-- The dequantised weight matrix. -/
def W (x1 : (⟨2, ![512, 11008]⟩ : Shape).Idx → BitVec 32) (x2 : (⟨2, ![32, 1376]⟩ : Shape).Idx → BitVec 32)
    (x3 : (⟨2, ![32, 11008]⟩ : Shape).Idx → EReal) (k : Fin 4096) (o : Fin 11008) : EReal :=
  deq (wq x1 k o) (zq x2 (⟨k.val / 128, by have := k.isLt; omega⟩ : Fin 32) o)
    (x3 (ix2 (⟨k.val / 128, by have := k.isLt; omega⟩ : Fin 32) o))

/-- The layer: activations of shape [4, 2048, 4096] times the dequantised weights. -/
def G (x0 : (⟨3, ![4, 2048, 4096]⟩ : Shape).Idx → EReal) (x1 : (⟨2, ![512, 11008]⟩ : Shape).Idx → BitVec 32)
    (x2 : (⟨2, ![32, 1376]⟩ : Shape).Idx → BitVec 32) (x3 : (⟨2, ![32, 11008]⟩ : Shape).Idx → EReal) :
    (⟨3, ![4, 2048, 11008]⟩ : Shape).Idx → EReal :=
  fun i => ∑ k : Fin 4096, x0 (ix3 (⟨(i 0).val, (i 0).isLt⟩ : Fin 4) (⟨(i 1).val, (i 1).isLt⟩ : Fin 2048) k) * W x1 x2 x3 k (⟨(i 2).val, (i 2).isLt⟩ : Fin 11008)

/-! ## The tiled spelling -/

/-- The dequantised weights of `n` columns from the columns' packed words (512 × n), already-unpacked zero points
    (32 × n) and scales (32 × n): the difference taken on the words, then converted. -/
def Wn (n : ℕ) (q : (⟨2, ![512, n]⟩ : Shape).Idx → BitVec 32) (z : (⟨2, ![32, n]⟩ : Shape).Idx → BitVec 32)
    (s : (⟨2, ![32, n]⟩ : Shape).Idx → EReal) : (⟨2, ![4096, n]⟩ : Shape).Idx → EReal :=
  fun y => (((IntOp.subi (nib (q (ix2 (⟨(y 0).val / 8, by have := (y 0).isLt; change (y 0).val < 4096 at this; omega⟩ : Fin 512) (⟨(y 1).val, (y 1).isLt⟩ : Fin n))) ((y 0).val % 8))
      (z (ix2 (⟨(y 0).val / 128, by have := (y 0).isLt; change (y 0).val < 4096 at this; omega⟩ : Fin 32) (⟨(y 1).val, (y 1).isLt⟩ : Fin n)))).toInt : ℝ) : EReal)
    * s (ix2 (⟨(y 0).val / 128, by have := (y 0).isLt; change (y 0).val < 4096 at this; omega⟩ : Fin 32) (⟨(y 1).val, (y 1).isLt⟩ : Fin n))

/-- The product of an a × 4096 matrix with a 4096 × n matrix. -/
def prodMat (a n : ℕ) (x : (⟨2, ![a, 4096]⟩ : Shape).Idx → EReal) (w : (⟨2, ![4096, n]⟩ : Shape).Idx → EReal) :
    (⟨2, ![a, n]⟩ : Shape).Idx → EReal :=
  fun y => ∑ k : Fin 4096, x (ix2 (⟨(y 0).val, (y 0).isLt⟩ : Fin a) k) * w (ix2 k (⟨(y 1).val, (y 1).isLt⟩ : Fin n))

/-- Where the zero points are the unpacked nibbles, the tiled weights are the layer's. -/
theorem Wn_eq_W (n : ℕ) (q : (⟨2, ![512, n]⟩ : Shape).Idx → BitVec 32) (z : (⟨2, ![32, n]⟩ : Shape).Idx → BitVec 32)
    (s : (⟨2, ![32, n]⟩ : Shape).Idx → EReal)
    (x1 : (⟨2, ![512, 11008]⟩ : Shape).Idx → BitVec 32) (x2 : (⟨2, ![32, 1376]⟩ : Shape).Idx → BitVec 32)
    (x3 : (⟨2, ![32, 11008]⟩ : Shape).Idx → EReal) (k : Fin 4096) (o : Fin 11008) (ho : o.val < n)
    (hq : q (ix2 (⟨k.val / 8, by have := k.isLt; omega⟩ : Fin 512) (⟨o.val, ho⟩ : Fin n)) = x1 (ix2 (⟨k.val / 8, by have := k.isLt; omega⟩ : Fin 512) o))
    (hz : z (ix2 (⟨k.val / 128, by have := k.isLt; omega⟩ : Fin 32) (⟨o.val, ho⟩ : Fin n)) = zq x2 (⟨k.val / 128, by have := k.isLt; omega⟩ : Fin 32) o)
    (hs : s (ix2 (⟨k.val / 128, by have := k.isLt; omega⟩ : Fin 32) (⟨o.val, ho⟩ : Fin n)) = x3 (ix2 (⟨k.val / 128, by have := k.isLt; omega⟩ : Fin 32) o)) :
    Wn n q z s (ix2 k (⟨o.val, ho⟩ : Fin n)) = W x1 x2 x3 k o := by
  -- the coordinates of the index (k, o) are k and o; the three hypotheses turn the tile's entries into the layer's
  show (((IntOp.subi (nib (q (ix2 (⟨k.val / 8, by have := k.isLt; omega⟩ : Fin 512) (⟨o.val, ho⟩ : Fin n))) (k.val % 8))
      (z (ix2 (⟨k.val / 128, by have := k.isLt; omega⟩ : Fin 32) (⟨o.val, ho⟩ : Fin n)))).toInt : ℝ) : EReal)
    * s (ix2 (⟨k.val / 128, by have := k.isLt; omega⟩ : Fin 32) (⟨o.val, ho⟩ : Fin n)) = _
  rw [hq, hz, hs]
  unfold zq
  rw [deq_subi]
  rfl

/-- The sum over the 4096 input rows, taken 128 rows at a time from zero. -/
def chunked (f : ℕ → EReal) : ℕ → EReal
  | 0 => 0
  | g + 1 => chunked f g + ∑ k : Fin 128, f (128 * g + k.val)

theorem chunked_eq_sum (f : ℕ → EReal) : chunked f 32 = ∑ k : Fin 4096, f k.val := by
  -- after g chunks the accumulated value is the sum over the first 128 g rows
  have key : ∀ g : ℕ, chunked f g = ∑ k ∈ Finset.range (128 * g), f k := by
    intro g
    induction g with
    | zero => simp [chunked]
    | succ g ih =>
      rw [chunked, ih, Nat.mul_succ, Finset.sum_range_add, Fin.sum_univ_eq_sum_range (fun k => f (128 * g + k)) 128]
  rw [key 32, ← Fin.sum_univ_eq_sum_range f (128 * 32)]

end QuantSpec

end
-- ==== Proof.Ideal.Payload.lean ====
/-
  The kernel body's arithmetic, read at an index at the exact instance.
  Every value the body computes is one of a few shapes: the eight shift amounts; a group's 128 × 1408 nibbles
  unpacked from sixteen packed rows; a group's dequantised weights (nibble − zero point, converted, times the
  scale), from the nibbles or straight from the packed rows; the accumulator after one or two more groups (the
  matrix unit's product of 128 columns of the row block with the group's weights, added on); and the full
  product of a row block with the scratch. Each shape is read here at an index once, at one representative,
  and every other value of the same shape is that representative.
-/
import proofs.«415117_j28973849379104_3_alg».proof.Proof.Gen.KernelIdeal.Skeleton
import proofs.«415117_j28973849379104_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Cert.KernelIdeal Cert.KernelIdeal.Gen QuantSpec

/-- A dequantised weight as the kernel computes it: the words' difference, converted, times the scale. -/
def dq (w z : BitVec 32) (s : EReal) : EReal := (((IntOp.subi w z).toInt : ℝ) : EReal) * s

/-- The eight shift amounts. -/
theorem shifts_apply (n : Fin 8) : (k0_pay5 : IVec S8 32) (ix1 n) = shiftOf n.val := by
  show IntOp.muli (shapeCast S8 (iota .tc S1x8 32 [1] iota_S1x8_d1_w32) shapeCasts_S1x8_S8 (ix1 n)) 4#32 = _
  rw [shapeCast_1a_a_apply, iota_single_apply]
  rfl

/-- The unpack for any eight shift amounts: row 8a + n of the 128 is packed row a shifted right by amount n
    on the vector unit, masked to four bits. The three-axis index (a, n, c) has the row-major position of
    (8a + n, c); the packed rows are constant along the middle axis and the amounts along the outer two. -/
private theorem unpack_apply (v9 : IVec S8 32) (q : Vec Ideal S16x1408 .i32) (a : Fin 16) (n : Fin 8) (r : Fin 128)
    (hr : r.val = a.val * 8 + n.val) (cc : Fin 1408) :
    k0_pay18 (F := Ideal) v9 q (ix2 r cc) = IntOp.andi (IntOp.shrsi .vector (q (ix2 a cc)) (v9 (ix1 n))) 15#32 := by
  unfold k0_pay18
  refine (shapeCast_apply _ shapeCasts_S16x8x1408_S128x1408 (ix2 r cc) (ix3 a n cc) ?_).trans ?_
  · rw [Shape.rowMajor_val_three, Shape.rowMajor_val_two]
    show (a.val * 8 + n.val) * 1408 + cc.val = r.val * 1408 + cc.val
    rw [hr]
  · show IntOp.andi (IntOp.shrsi .vector
        (broadcastTo S16x8x1408 (shapeCast S16x1x1408 (shapeCast S16x1408 q shapeCasts_S16x1408_S16x1408) shapeCasts_S16x1408_S16x1x1408)
          broadcasts_S16x1x1408_S16x8x1408 (ix3 a n cc))
        (broadcastTo S16x8x1408 (shapeCast S1x8x1 v9 shapeCasts_S8_S1x8x1) broadcasts_S1x8x1_S16x8x1408 (ix3 a n cc))) 15#32 = _
    have hA : broadcastTo S16x8x1408 (shapeCast S16x1x1408 (shapeCast S16x1408 q shapeCasts_S16x1408_S16x1408) shapeCasts_S16x1408_S16x1x1408)
          broadcasts_S16x1x1408_S16x8x1408 (ix3 a n cc) = q (ix2 a cc) := by
      refine (broadcastTo_apply _ broadcasts_S16x1x1408_S16x8x1408 (ix3 a n cc) (ix3 a (0 : Fin 1) cc) fun ax => ?_).trans ?_
      · match ax with
        | ⟨0, _⟩ => rfl
        | ⟨1, _⟩ => rfl
        | ⟨2, _⟩ => rfl
      · refine (shapeCast_apply _ shapeCasts_S16x1408_S16x1x1408 (ix3 a (0 : Fin 1) cc) (ix2 a cc) ?_).trans ?_
        · rw [Shape.rowMajor_val_three, Shape.rowMajor_val_two]
          show a.val * 1408 + cc.val = (a.val * 1 + 0) * 1408 + cc.val
          omega
        · rw [shapeCast_self]
    have hB : broadcastTo S16x8x1408 (shapeCast S1x8x1 v9 shapeCasts_S8_S1x8x1) broadcasts_S1x8x1_S16x8x1408 (ix3 a n cc) = v9 (ix1 n) := by
      refine (broadcastTo_apply _ broadcasts_S1x8x1_S16x8x1408 (ix3 a n cc) (ix3 (0 : Fin 1) n (0 : Fin 1)) fun ax => ?_).trans ?_
      · match ax with
        | ⟨0, _⟩ => rfl
        | ⟨1, _⟩ => rfl
        | ⟨2, _⟩ => rfl
      · refine shapeCast_apply _ shapeCasts_S8_S1x8x1 (ix3 (0 : Fin 1) n (0 : Fin 1)) (ix1 n) ?_
        rw [Shape.rowMajor_val_three, Shape.rowMajor_val_one]
        show n.val = (0 * 8 + n.val) * 1 + 0
        omega
    rw [hA, hB]

/-- A group's nibbles: row r of the 128 takes nibble r % 8 of packed row r / 8. -/
theorem nib_apply (q : Vec Ideal S16x1408 .i32) (r : Fin 128) (cc : Fin 1408) :
    k0_pay18 (F := Ideal) k0_pay5 q (ix2 r cc) = nib (q (ix2 (⟨r.val / 8, by have := r.isLt; omega⟩ : Fin 16) cc)) (r.val % 8) := by
  have hn : r.val % 8 < 8 := Nat.mod_lt _ (by decide)
  rw [unpack_apply k0_pay5 q ⟨r.val / 8, by have := r.isLt; omega⟩ ⟨r.val % 8, hn⟩ r
    (by show r.val = r.val / 8 * 8 + r.val % 8; omega) cc, shifts_apply]
  exact nib_vector _ _ hn

/-- The same for the one value of this shape that computes its own shift amounts. -/
theorem nib0_apply (q : Vec Ideal S16x1408 .i32) (r : Fin 128) (cc : Fin 1408) :
    k0_pay9 (F := Ideal) q (ix2 r cc) = nib (q (ix2 (⟨r.val / 8, by have := r.isLt; omega⟩ : Fin 16) cc)) (r.val % 8) :=
  nib_apply q r cc

/-- A group's weights from its nibbles, its row of zero points and its row of scales. -/
theorem wdNib_apply (nibs : IVec S128x1408 32) (z : Vec Ideal S1x1408 .i32) (s : Vec Ideal S1x1408 .f32) (r : Fin 128) (cc : Fin 1408) :
    k0_pay10 (F := Ideal) nibs z s (ix2 r cc) = dq (nibs (ix2 r cc)) (z (ix2 (0 : Fin 1) cc)) (s (ix2 (0 : Fin 1) cc)) := by
  show (((IntOp.subi (nibs (ix2 r cc))
        (broadcastTo S128x1408 (shapeCast S1x1408 z shapeCasts_S1x1408_S1x1408) broadcasts_S1x1408_S128x1408 (ix2 r cc))).toInt : ℝ) : EReal)
      * broadcastTo S128x1408 (truncf (F := Ideal) .bf16 (shapeCast S1x1408 s shapeCasts_S1x1408_S1x1408) bitsLt_bf16_f32) broadcasts_S1x1408_S128x1408 (ix2 r cc) = _
  rw [broadcastTo_1b_ab_apply, broadcastTo_1b_ab_apply, truncf_apply, shapeCast_self, shapeCast_self]
  rfl

/-- A group's weights straight from its sixteen packed rows. -/
theorem wdRaw_apply (q : Vec Ideal S16x1408 .i32) (z : Vec Ideal S1x1408 .i32) (s : Vec Ideal S1x1408 .f32) (r : Fin 128) (cc : Fin 1408) :
    k0_pay13 (F := Ideal) k0_pay5 q z s (ix2 r cc)
      = dq (nib (q (ix2 (⟨r.val / 8, by have := r.isLt; omega⟩ : Fin 16) cc)) (r.val % 8)) (z (ix2 (0 : Fin 1) cc)) (s (ix2 (0 : Fin 1) cc)) := by
  show k0_pay10 (F := Ideal) (k0_pay18 (F := Ideal) k0_pay5 q) z s (ix2 r cc) = _
  rw [wdNib_apply, nib_apply]

/-- The same for the first group, which computes its own shift amounts. -/
theorem wdRaw0_apply (q : Vec Ideal S16x1408 .i32) (z : Vec Ideal S1x1408 .i32) (s : Vec Ideal S1x1408 .f32) (r : Fin 128) (cc : Fin 1408) :
    k0_pay6 (F := Ideal) q z s (ix2 r cc)
      = dq (nib (q (ix2 (⟨r.val / 8, by have := r.isLt; omega⟩ : Fin 16) cc)) (r.val % 8)) (z (ix2 (0 : Fin 1) cc)) (s (ix2 (0 : Fin 1) cc)) :=
  wdRaw_apply q z s r cc

/-! The matrix unit's product at an index. Its contraction shape has one axis; the sum over that shape is re-indexed
    by the axis's coordinate, and the two operand indices at output (r, c) and contraction coordinate k are (r, k)
    and (k, c), one coordinate at a time. -/

private theorem mm_lhs_0 (i : S512x1408.Idx) (p : dot_S512x128_S128x1408_S512x1408_1_0_0_1_n_n.contr.Idx) :
    (dot_S512x128_S128x1408_S512x1408_1_0_0_1_n_n.lhsIdx i p 0).val = (i 0).val := by
  unfold DotDims.lhsIdx
  rw [dif_neg (show ¬(0 : Fin S512x128.rank) ∈ dot_S512x128_S128x1408_S512x1408_1_0_0_1_n_n.lhsBatch by decide),
    dif_pos (show (0 : Fin S512x128.rank) ∈ dot_S512x128_S128x1408_S512x1408_1_0_0_1_n_n.lhsNonContracting by decide)]
  rfl
private theorem mm_lhs_1 (i : S512x1408.Idx) (p : dot_S512x128_S128x1408_S512x1408_1_0_0_1_n_n.contr.Idx) :
    (dot_S512x128_S128x1408_S512x1408_1_0_0_1_n_n.lhsIdx i p 1).val = (p ⟨0, by decide⟩).val :=
  dot_S512x128_S128x1408_S512x1408_1_0_0_1_n_n.lhsIdx_val_of_single rfl i p
private theorem mm_rhs_0 (i : S512x1408.Idx) (p : dot_S512x128_S128x1408_S512x1408_1_0_0_1_n_n.contr.Idx) :
    (dot_S512x128_S128x1408_S512x1408_1_0_0_1_n_n.rhsIdx i p 0).val = (p ⟨0, by decide⟩).val :=
  dot_S512x128_S128x1408_S512x1408_1_0_0_1_n_n.rhsIdx_val_of_single rfl i p
private theorem mm_rhs_1 (i : S512x1408.Idx) (p : dot_S512x128_S128x1408_S512x1408_1_0_0_1_n_n.contr.Idx) :
    (dot_S512x128_S128x1408_S512x1408_1_0_0_1_n_n.rhsIdx i p 1).val = (i 1).val := by
  unfold DotDims.rhsIdx
  rw [dif_neg (show ¬(1 : Fin S128x1408.rank) ∈ dot_S512x128_S128x1408_S512x1408_1_0_0_1_n_n.rhsBatch by decide),
    dif_pos (show (1 : Fin S128x1408.rank) ∈ dot_S512x128_S128x1408_S512x1408_1_0_0_1_n_n.rhsNonContracting by decide)]
  rfl

/-- A 512 × 128 block times a group's 128 × 1408 weights, into the zero accumulator, at (r, c). -/
private theorem mm_apply (x : Vec Ideal S512x128 .bf16) (wd : FVec Ideal S128x1408 .bf16) (r : Fin 512) (cc : Fin 1408) :
    matmul (F := Ideal) dot_S512x128_S128x1408_S512x1408_1_0_0_1_n_n none (shapeCast S512x128 x shapeCasts_S512x128_S512x128 : FVec Ideal S512x128 .bf16) wd
        (constant S512x1408 .f32 0x00000000#32) (ix2 r cc)
      = ∑ k : Fin 128, x (ix2 r k) * wd (ix2 k cc) := by
  simp only [matmul]
  rw [Ideal.matmul_constant_zero_apply, ← Equiv.sum_comp (contrEquiv1 dot_S512x128_S128x1408_S512x1408_1_0_0_1_n_n 128 rfl rfl).symm]
  refine Finset.sum_congr rfl fun k _ => ?_
  have hk := contrEquiv1_symm_val dot_S512x128_S128x1408_S512x1408_1_0_0_1_n_n 128 rfl rfl k
  have el : dot_S512x128_S128x1408_S512x1408_1_0_0_1_n_n.lhsIdx (ix2 r cc)
      ((contrEquiv1 dot_S512x128_S128x1408_S512x1408_1_0_0_1_n_n 128 rfl rfl).symm k) = ix2 r k := funext fun a => Fin.ext (by
    match a with
    | ⟨0, _⟩ => exact mm_lhs_0 _ _
    | ⟨1, _⟩ => exact (mm_lhs_1 _ _).trans hk)
  have er : dot_S512x128_S128x1408_S512x1408_1_0_0_1_n_n.rhsIdx (ix2 r cc)
      ((contrEquiv1 dot_S512x128_S128x1408_S512x1408_1_0_0_1_n_n 128 rfl rfl).symm k) = ix2 k cc := funext fun a => Fin.ext (by
    match a with
    | ⟨0, _⟩ => exact (mm_rhs_0 _ _).trans hk
    | ⟨1, _⟩ => exact mm_rhs_1 _ _)
  rw [el, er, shapeCast_self]

/-- The accumulator after the first group: zero plus the group's product. -/
theorem acc0_apply (q : Vec Ideal S16x1408 .i32) (z : Vec Ideal S1x1408 .i32) (s : Vec Ideal S1x1408 .f32) (x : Vec Ideal S512x128 .bf16)
    (r : Fin 512) (cc : Fin 1408) :
    k0_pay8 (F := Ideal) q z s x (ix2 r cc) = 0 + ∑ k : Fin 128, x (ix2 r k) * k0_pay6 (F := Ideal) q z s (ix2 k cc) := by
  show Ideal.ofBits .f32 0x00000000#32
      + matmul (F := Ideal) dot_S512x128_S128x1408_S512x1408_1_0_0_1_n_n none (shapeCast S512x128 x shapeCasts_S512x128_S512x128 : FVec Ideal S512x128 .bf16)
          (k0_pay6 (F := Ideal) q z s) (constant S512x1408 .f32 0x00000000#32) (ix2 r cc) = _
  rw [mm_apply, Ideal.ofBits_zero_f32]

/-- One more group, its weights from its nibbles. -/
theorem accNib_apply (acc : FVec Ideal S512x1408 .f32) (nibs : IVec S128x1408 32) (z : Vec Ideal S1x1408 .i32) (s : Vec Ideal S1x1408 .f32)
    (x : Vec Ideal S512x128 .bf16) (r : Fin 512) (cc : Fin 1408) :
    k0_pay12 (F := Ideal) acc nibs z s x (ix2 r cc) = acc (ix2 r cc) + ∑ k : Fin 128, x (ix2 r k) * k0_pay10 (F := Ideal) nibs z s (ix2 k cc) := by
  show acc (ix2 r cc)
      + matmul (F := Ideal) dot_S512x128_S128x1408_S512x1408_1_0_0_1_n_n none (shapeCast S512x128 x shapeCasts_S512x128_S512x128 : FVec Ideal S512x128 .bf16)
          (k0_pay10 (F := Ideal) nibs z s) (constant S512x1408 .f32 0x00000000#32) (ix2 r cc) = _
  rw [mm_apply]

/-- Two more groups: the first's weights given, the second's from its packed rows. -/
theorem acc2_apply (v9 : IVec S8 32) (acc : FVec Ideal S512x1408 .f32) (wd : FVec Ideal S128x1408 .bf16) (x : Vec Ideal S512x128 .bf16)
    (q : Vec Ideal S16x1408 .i32) (z : Vec Ideal S1x1408 .i32) (s : Vec Ideal S1x1408 .f32) (x' : Vec Ideal S512x128 .bf16)
    (r : Fin 512) (cc : Fin 1408) :
    k0_pay17 (F := Ideal) v9 acc wd x q z s x' (ix2 r cc)
      = (acc (ix2 r cc) + ∑ k : Fin 128, x (ix2 r k) * wd (ix2 k cc)) + ∑ k : Fin 128, x' (ix2 r k) * k0_pay13 (F := Ideal) v9 q z s (ix2 k cc) := by
  show (acc (ix2 r cc)
      + matmul (F := Ideal) dot_S512x128_S128x1408_S512x1408_1_0_0_1_n_n none (shapeCast S512x128 x shapeCasts_S512x128_S512x128 : FVec Ideal S512x128 .bf16)
          wd (constant S512x1408 .f32 0x00000000#32) (ix2 r cc))
      + matmul (F := Ideal) dot_S512x128_S128x1408_S512x1408_1_0_0_1_n_n none (shapeCast S512x128 x' shapeCasts_S512x128_S512x128 : FVec Ideal S512x128 .bf16)
          (k0_pay13 (F := Ideal) v9 q z s) (constant S512x1408 .f32 0x00000000#32) (ix2 r cc) = _
  rw [mm_apply, mm_apply]

private theorem full_lhs_0 (i : S512x1408.Idx) (p : dot_S512x4096_S4096x1408_S512x1408_1_0_0_1_n_n.contr.Idx) :
    (dot_S512x4096_S4096x1408_S512x1408_1_0_0_1_n_n.lhsIdx i p 0).val = (i 0).val := by
  unfold DotDims.lhsIdx
  rw [dif_neg (show ¬(0 : Fin S512x4096.rank) ∈ dot_S512x4096_S4096x1408_S512x1408_1_0_0_1_n_n.lhsBatch by decide),
    dif_pos (show (0 : Fin S512x4096.rank) ∈ dot_S512x4096_S4096x1408_S512x1408_1_0_0_1_n_n.lhsNonContracting by decide)]
  rfl
private theorem full_lhs_1 (i : S512x1408.Idx) (p : dot_S512x4096_S4096x1408_S512x1408_1_0_0_1_n_n.contr.Idx) :
    (dot_S512x4096_S4096x1408_S512x1408_1_0_0_1_n_n.lhsIdx i p 1).val = (p ⟨0, by decide⟩).val :=
  dot_S512x4096_S4096x1408_S512x1408_1_0_0_1_n_n.lhsIdx_val_of_single rfl i p
private theorem full_rhs_0 (i : S512x1408.Idx) (p : dot_S512x4096_S4096x1408_S512x1408_1_0_0_1_n_n.contr.Idx) :
    (dot_S512x4096_S4096x1408_S512x1408_1_0_0_1_n_n.rhsIdx i p 0).val = (p ⟨0, by decide⟩).val :=
  dot_S512x4096_S4096x1408_S512x1408_1_0_0_1_n_n.rhsIdx_val_of_single rfl i p
private theorem full_rhs_1 (i : S512x1408.Idx) (p : dot_S512x4096_S4096x1408_S512x1408_1_0_0_1_n_n.contr.Idx) :
    (dot_S512x4096_S4096x1408_S512x1408_1_0_0_1_n_n.rhsIdx i p 1).val = (i 1).val := by
  unfold DotDims.rhsIdx
  rw [dif_neg (show ¬(1 : Fin S4096x1408.rank) ∈ dot_S512x4096_S4096x1408_S512x1408_1_0_0_1_n_n.rhsBatch by decide),
    dif_pos (show (1 : Fin S4096x1408.rank) ∈ dot_S512x4096_S4096x1408_S512x1408_1_0_0_1_n_n.rhsNonContracting by decide)]
  rfl

/-- The full product of a row block with the scratch. -/
theorem full_apply (x : Vec Ideal S512x4096 .bf16) (w : Vec Ideal S4096x1408 .bf16) (r : Fin 512) (cc : Fin 1408) :
    k0_pay4 (F := Ideal) x w (ix2 r cc) = ∑ k : Fin 4096, x (ix2 r k) * w (ix2 k cc) := by
  show matmul (F := Ideal) dot_S512x4096_S4096x1408_S512x1408_1_0_0_1_n_n none (shapeCast S512x4096 x shapeCasts_S512x4096_S512x4096 : FVec Ideal S512x4096 .bf16) w
      (constant S512x1408 .f32 0x00000000#32) (ix2 r cc) = _
  simp only [matmul]
  rw [Ideal.matmul_constant_zero_apply, ← Equiv.sum_comp (contrEquiv1 dot_S512x4096_S4096x1408_S512x1408_1_0_0_1_n_n 4096 rfl rfl).symm]
  refine Finset.sum_congr rfl fun k _ => ?_
  have hk := contrEquiv1_symm_val dot_S512x4096_S4096x1408_S512x1408_1_0_0_1_n_n 4096 rfl rfl k
  have el : dot_S512x4096_S4096x1408_S512x1408_1_0_0_1_n_n.lhsIdx (ix2 r cc)
      ((contrEquiv1 dot_S512x4096_S4096x1408_S512x1408_1_0_0_1_n_n 4096 rfl rfl).symm k) = ix2 r k := funext fun a => Fin.ext (by
    match a with
    | ⟨0, _⟩ => exact full_lhs_0 _ _
    | ⟨1, _⟩ => exact (full_lhs_1 _ _).trans hk)
  have er : dot_S512x4096_S4096x1408_S512x1408_1_0_0_1_n_n.rhsIdx (ix2 r cc)
      ((contrEquiv1 dot_S512x4096_S4096x1408_S512x1408_1_0_0_1_n_n 4096 rfl rfl).symm k) = ix2 k cc := funext fun a => Fin.ext (by
    match a with
    | ⟨0, _⟩ => exact (full_rhs_0 _ _).trans hk
    | ⟨1, _⟩ => exact full_rhs_1 _ _)
  rw [el, er, shapeCast_self]

/-! ## Every other value of the body is one of the values read above

    Two values of one shape are the same sequence of operations over the same parameters, so they are equal by
    unfolding; a value stored through a reshape to its own shape is the value itself. -/

/-! Nibble unpacks: every value of this shape is the one read above. -/
theorem pay27_eq (v9 : IVec S8 32) (q : Vec Ideal S16x1408 .i32) : k0_pay27 (F := Ideal) v9 q = k0_pay18 (F := Ideal) v9 q := rfl
theorem pay36_eq (v9 : IVec S8 32) (q : Vec Ideal S16x1408 .i32) : k0_pay36 (F := Ideal) v9 q = k0_pay18 (F := Ideal) v9 q := rfl
theorem pay45_eq (v9 : IVec S8 32) (q : Vec Ideal S16x1408 .i32) : k0_pay45 (F := Ideal) v9 q = k0_pay18 (F := Ideal) v9 q := rfl
theorem pay54_eq (v9 : IVec S8 32) (q : Vec Ideal S16x1408 .i32) : k0_pay54 (F := Ideal) v9 q = k0_pay18 (F := Ideal) v9 q := rfl
theorem pay63_eq (v9 : IVec S8 32) (q : Vec Ideal S16x1408 .i32) : k0_pay63 (F := Ideal) v9 q = k0_pay18 (F := Ideal) v9 q := rfl
theorem pay72_eq (v9 : IVec S8 32) (q : Vec Ideal S16x1408 .i32) : k0_pay72 (F := Ideal) v9 q = k0_pay18 (F := Ideal) v9 q := rfl
theorem pay81_eq (v9 : IVec S8 32) (q : Vec Ideal S16x1408 .i32) : k0_pay81 (F := Ideal) v9 q = k0_pay18 (F := Ideal) v9 q := rfl
theorem pay90_eq (v9 : IVec S8 32) (q : Vec Ideal S16x1408 .i32) : k0_pay90 (F := Ideal) v9 q = k0_pay18 (F := Ideal) v9 q := rfl
theorem pay99_eq (v9 : IVec S8 32) (q : Vec Ideal S16x1408 .i32) : k0_pay99 (F := Ideal) v9 q = k0_pay18 (F := Ideal) v9 q := rfl

/-! The first group's weights, stored. -/
theorem pay7_eq (q : Vec Ideal S16x1408 .i32) (z : Vec Ideal S1x1408 .i32) (s : Vec Ideal S1x1408 .f32) : k0_pay7 (F := Ideal) q z s = k0_pay6 (F := Ideal) q z s := shapeCast_self _ _

/-! Weights from nibbles: every value of this shape is the one read above (a stored copy is the value itself). -/
theorem pay1_eq (a : IVec S128x1408 32) (z : Vec Ideal S1x1408 .i32) (s : Vec Ideal S1x1408 .f32) : k0_pay1 (F := Ideal) a z s = k0_pay10 (F := Ideal) a z s := rfl
theorem pay2_eq (a : IVec S128x1408 32) (z : Vec Ideal S1x1408 .i32) (s : Vec Ideal S1x1408 .f32) : k0_pay2 (F := Ideal) a z s = k0_pay10 (F := Ideal) a z s := shapeCast_self _ _
theorem pay11_eq (a : IVec S128x1408 32) (z : Vec Ideal S1x1408 .i32) (s : Vec Ideal S1x1408 .f32) : k0_pay11 (F := Ideal) a z s = k0_pay10 (F := Ideal) a z s := shapeCast_self _ _
theorem pay19_eq (a : IVec S128x1408 32) (z : Vec Ideal S1x1408 .i32) (s : Vec Ideal S1x1408 .f32) : k0_pay19 (F := Ideal) a z s = k0_pay10 (F := Ideal) a z s := rfl
theorem pay20_eq (a : IVec S128x1408 32) (z : Vec Ideal S1x1408 .i32) (s : Vec Ideal S1x1408 .f32) : k0_pay20 (F := Ideal) a z s = k0_pay10 (F := Ideal) a z s := shapeCast_self _ _
theorem pay28_eq (a : IVec S128x1408 32) (z : Vec Ideal S1x1408 .i32) (s : Vec Ideal S1x1408 .f32) : k0_pay28 (F := Ideal) a z s = k0_pay10 (F := Ideal) a z s := rfl
theorem pay29_eq (a : IVec S128x1408 32) (z : Vec Ideal S1x1408 .i32) (s : Vec Ideal S1x1408 .f32) : k0_pay29 (F := Ideal) a z s = k0_pay10 (F := Ideal) a z s := shapeCast_self _ _
theorem pay37_eq (a : IVec S128x1408 32) (z : Vec Ideal S1x1408 .i32) (s : Vec Ideal S1x1408 .f32) : k0_pay37 (F := Ideal) a z s = k0_pay10 (F := Ideal) a z s := rfl
theorem pay38_eq (a : IVec S128x1408 32) (z : Vec Ideal S1x1408 .i32) (s : Vec Ideal S1x1408 .f32) : k0_pay38 (F := Ideal) a z s = k0_pay10 (F := Ideal) a z s := shapeCast_self _ _
theorem pay46_eq (a : IVec S128x1408 32) (z : Vec Ideal S1x1408 .i32) (s : Vec Ideal S1x1408 .f32) : k0_pay46 (F := Ideal) a z s = k0_pay10 (F := Ideal) a z s := rfl
theorem pay47_eq (a : IVec S128x1408 32) (z : Vec Ideal S1x1408 .i32) (s : Vec Ideal S1x1408 .f32) : k0_pay47 (F := Ideal) a z s = k0_pay10 (F := Ideal) a z s := shapeCast_self _ _
theorem pay55_eq (a : IVec S128x1408 32) (z : Vec Ideal S1x1408 .i32) (s : Vec Ideal S1x1408 .f32) : k0_pay55 (F := Ideal) a z s = k0_pay10 (F := Ideal) a z s := rfl
theorem pay56_eq (a : IVec S128x1408 32) (z : Vec Ideal S1x1408 .i32) (s : Vec Ideal S1x1408 .f32) : k0_pay56 (F := Ideal) a z s = k0_pay10 (F := Ideal) a z s := shapeCast_self _ _
theorem pay64_eq (a : IVec S128x1408 32) (z : Vec Ideal S1x1408 .i32) (s : Vec Ideal S1x1408 .f32) : k0_pay64 (F := Ideal) a z s = k0_pay10 (F := Ideal) a z s := rfl
theorem pay65_eq (a : IVec S128x1408 32) (z : Vec Ideal S1x1408 .i32) (s : Vec Ideal S1x1408 .f32) : k0_pay65 (F := Ideal) a z s = k0_pay10 (F := Ideal) a z s := shapeCast_self _ _
theorem pay73_eq (a : IVec S128x1408 32) (z : Vec Ideal S1x1408 .i32) (s : Vec Ideal S1x1408 .f32) : k0_pay73 (F := Ideal) a z s = k0_pay10 (F := Ideal) a z s := rfl
theorem pay74_eq (a : IVec S128x1408 32) (z : Vec Ideal S1x1408 .i32) (s : Vec Ideal S1x1408 .f32) : k0_pay74 (F := Ideal) a z s = k0_pay10 (F := Ideal) a z s := shapeCast_self _ _
theorem pay82_eq (a : IVec S128x1408 32) (z : Vec Ideal S1x1408 .i32) (s : Vec Ideal S1x1408 .f32) : k0_pay82 (F := Ideal) a z s = k0_pay10 (F := Ideal) a z s := rfl
theorem pay83_eq (a : IVec S128x1408 32) (z : Vec Ideal S1x1408 .i32) (s : Vec Ideal S1x1408 .f32) : k0_pay83 (F := Ideal) a z s = k0_pay10 (F := Ideal) a z s := shapeCast_self _ _
theorem pay91_eq (a : IVec S128x1408 32) (z : Vec Ideal S1x1408 .i32) (s : Vec Ideal S1x1408 .f32) : k0_pay91 (F := Ideal) a z s = k0_pay10 (F := Ideal) a z s := rfl
theorem pay92_eq (a : IVec S128x1408 32) (z : Vec Ideal S1x1408 .i32) (s : Vec Ideal S1x1408 .f32) : k0_pay92 (F := Ideal) a z s = k0_pay10 (F := Ideal) a z s := shapeCast_self _ _

/-! Weights from packed rows: every value of this shape is the one read above (a stored copy is the value itself). -/
theorem pay14_eq (v9 : IVec S8 32) (q : Vec Ideal S16x1408 .i32) (z : Vec Ideal S1x1408 .i32) (s : Vec Ideal S1x1408 .f32) : k0_pay14 (F := Ideal) v9 q z s = k0_pay13 (F := Ideal) v9 q z s := shapeCast_self _ _
theorem pay15_eq (v9 : IVec S8 32) (q : Vec Ideal S16x1408 .i32) (z : Vec Ideal S1x1408 .i32) (s : Vec Ideal S1x1408 .f32) : k0_pay15 (F := Ideal) v9 q z s = k0_pay13 (F := Ideal) v9 q z s := rfl
theorem pay16_eq (v9 : IVec S8 32) (q : Vec Ideal S16x1408 .i32) (z : Vec Ideal S1x1408 .i32) (s : Vec Ideal S1x1408 .f32) : k0_pay16 (F := Ideal) v9 q z s = k0_pay13 (F := Ideal) v9 q z s := shapeCast_self _ _
theorem pay22_eq (v9 : IVec S8 32) (q : Vec Ideal S16x1408 .i32) (z : Vec Ideal S1x1408 .i32) (s : Vec Ideal S1x1408 .f32) : k0_pay22 (F := Ideal) v9 q z s = k0_pay13 (F := Ideal) v9 q z s := rfl
theorem pay23_eq (v9 : IVec S8 32) (q : Vec Ideal S16x1408 .i32) (z : Vec Ideal S1x1408 .i32) (s : Vec Ideal S1x1408 .f32) : k0_pay23 (F := Ideal) v9 q z s = k0_pay13 (F := Ideal) v9 q z s := shapeCast_self _ _
theorem pay24_eq (v9 : IVec S8 32) (q : Vec Ideal S16x1408 .i32) (z : Vec Ideal S1x1408 .i32) (s : Vec Ideal S1x1408 .f32) : k0_pay24 (F := Ideal) v9 q z s = k0_pay13 (F := Ideal) v9 q z s := rfl
theorem pay25_eq (v9 : IVec S8 32) (q : Vec Ideal S16x1408 .i32) (z : Vec Ideal S1x1408 .i32) (s : Vec Ideal S1x1408 .f32) : k0_pay25 (F := Ideal) v9 q z s = k0_pay13 (F := Ideal) v9 q z s := shapeCast_self _ _
theorem pay31_eq (v9 : IVec S8 32) (q : Vec Ideal S16x1408 .i32) (z : Vec Ideal S1x1408 .i32) (s : Vec Ideal S1x1408 .f32) : k0_pay31 (F := Ideal) v9 q z s = k0_pay13 (F := Ideal) v9 q z s := rfl
theorem pay32_eq (v9 : IVec S8 32) (q : Vec Ideal S16x1408 .i32) (z : Vec Ideal S1x1408 .i32) (s : Vec Ideal S1x1408 .f32) : k0_pay32 (F := Ideal) v9 q z s = k0_pay13 (F := Ideal) v9 q z s := shapeCast_self _ _
theorem pay33_eq (v9 : IVec S8 32) (q : Vec Ideal S16x1408 .i32) (z : Vec Ideal S1x1408 .i32) (s : Vec Ideal S1x1408 .f32) : k0_pay33 (F := Ideal) v9 q z s = k0_pay13 (F := Ideal) v9 q z s := rfl
theorem pay34_eq (v9 : IVec S8 32) (q : Vec Ideal S16x1408 .i32) (z : Vec Ideal S1x1408 .i32) (s : Vec Ideal S1x1408 .f32) : k0_pay34 (F := Ideal) v9 q z s = k0_pay13 (F := Ideal) v9 q z s := shapeCast_self _ _
theorem pay40_eq (v9 : IVec S8 32) (q : Vec Ideal S16x1408 .i32) (z : Vec Ideal S1x1408 .i32) (s : Vec Ideal S1x1408 .f32) : k0_pay40 (F := Ideal) v9 q z s = k0_pay13 (F := Ideal) v9 q z s := rfl
theorem pay41_eq (v9 : IVec S8 32) (q : Vec Ideal S16x1408 .i32) (z : Vec Ideal S1x1408 .i32) (s : Vec Ideal S1x1408 .f32) : k0_pay41 (F := Ideal) v9 q z s = k0_pay13 (F := Ideal) v9 q z s := shapeCast_self _ _
theorem pay42_eq (v9 : IVec S8 32) (q : Vec Ideal S16x1408 .i32) (z : Vec Ideal S1x1408 .i32) (s : Vec Ideal S1x1408 .f32) : k0_pay42 (F := Ideal) v9 q z s = k0_pay13 (F := Ideal) v9 q z s := rfl
theorem pay43_eq (v9 : IVec S8 32) (q : Vec Ideal S16x1408 .i32) (z : Vec Ideal S1x1408 .i32) (s : Vec Ideal S1x1408 .f32) : k0_pay43 (F := Ideal) v9 q z s = k0_pay13 (F := Ideal) v9 q z s := shapeCast_self _ _
theorem pay49_eq (v9 : IVec S8 32) (q : Vec Ideal S16x1408 .i32) (z : Vec Ideal S1x1408 .i32) (s : Vec Ideal S1x1408 .f32) : k0_pay49 (F := Ideal) v9 q z s = k0_pay13 (F := Ideal) v9 q z s := rfl
theorem pay50_eq (v9 : IVec S8 32) (q : Vec Ideal S16x1408 .i32) (z : Vec Ideal S1x1408 .i32) (s : Vec Ideal S1x1408 .f32) : k0_pay50 (F := Ideal) v9 q z s = k0_pay13 (F := Ideal) v9 q z s := shapeCast_self _ _
theorem pay51_eq (v9 : IVec S8 32) (q : Vec Ideal S16x1408 .i32) (z : Vec Ideal S1x1408 .i32) (s : Vec Ideal S1x1408 .f32) : k0_pay51 (F := Ideal) v9 q z s = k0_pay13 (F := Ideal) v9 q z s := rfl
theorem pay52_eq (v9 : IVec S8 32) (q : Vec Ideal S16x1408 .i32) (z : Vec Ideal S1x1408 .i32) (s : Vec Ideal S1x1408 .f32) : k0_pay52 (F := Ideal) v9 q z s = k0_pay13 (F := Ideal) v9 q z s := shapeCast_self _ _
theorem pay58_eq (v9 : IVec S8 32) (q : Vec Ideal S16x1408 .i32) (z : Vec Ideal S1x1408 .i32) (s : Vec Ideal S1x1408 .f32) : k0_pay58 (F := Ideal) v9 q z s = k0_pay13 (F := Ideal) v9 q z s := rfl
theorem pay59_eq (v9 : IVec S8 32) (q : Vec Ideal S16x1408 .i32) (z : Vec Ideal S1x1408 .i32) (s : Vec Ideal S1x1408 .f32) : k0_pay59 (F := Ideal) v9 q z s = k0_pay13 (F := Ideal) v9 q z s := shapeCast_self _ _
theorem pay60_eq (v9 : IVec S8 32) (q : Vec Ideal S16x1408 .i32) (z : Vec Ideal S1x1408 .i32) (s : Vec Ideal S1x1408 .f32) : k0_pay60 (F := Ideal) v9 q z s = k0_pay13 (F := Ideal) v9 q z s := rfl
theorem pay61_eq (v9 : IVec S8 32) (q : Vec Ideal S16x1408 .i32) (z : Vec Ideal S1x1408 .i32) (s : Vec Ideal S1x1408 .f32) : k0_pay61 (F := Ideal) v9 q z s = k0_pay13 (F := Ideal) v9 q z s := shapeCast_self _ _
theorem pay67_eq (v9 : IVec S8 32) (q : Vec Ideal S16x1408 .i32) (z : Vec Ideal S1x1408 .i32) (s : Vec Ideal S1x1408 .f32) : k0_pay67 (F := Ideal) v9 q z s = k0_pay13 (F := Ideal) v9 q z s := rfl
theorem pay68_eq (v9 : IVec S8 32) (q : Vec Ideal S16x1408 .i32) (z : Vec Ideal S1x1408 .i32) (s : Vec Ideal S1x1408 .f32) : k0_pay68 (F := Ideal) v9 q z s = k0_pay13 (F := Ideal) v9 q z s := shapeCast_self _ _
theorem pay69_eq (v9 : IVec S8 32) (q : Vec Ideal S16x1408 .i32) (z : Vec Ideal S1x1408 .i32) (s : Vec Ideal S1x1408 .f32) : k0_pay69 (F := Ideal) v9 q z s = k0_pay13 (F := Ideal) v9 q z s := rfl
theorem pay70_eq (v9 : IVec S8 32) (q : Vec Ideal S16x1408 .i32) (z : Vec Ideal S1x1408 .i32) (s : Vec Ideal S1x1408 .f32) : k0_pay70 (F := Ideal) v9 q z s = k0_pay13 (F := Ideal) v9 q z s := shapeCast_self _ _
theorem pay76_eq (v9 : IVec S8 32) (q : Vec Ideal S16x1408 .i32) (z : Vec Ideal S1x1408 .i32) (s : Vec Ideal S1x1408 .f32) : k0_pay76 (F := Ideal) v9 q z s = k0_pay13 (F := Ideal) v9 q z s := rfl
theorem pay77_eq (v9 : IVec S8 32) (q : Vec Ideal S16x1408 .i32) (z : Vec Ideal S1x1408 .i32) (s : Vec Ideal S1x1408 .f32) : k0_pay77 (F := Ideal) v9 q z s = k0_pay13 (F := Ideal) v9 q z s := shapeCast_self _ _
theorem pay78_eq (v9 : IVec S8 32) (q : Vec Ideal S16x1408 .i32) (z : Vec Ideal S1x1408 .i32) (s : Vec Ideal S1x1408 .f32) : k0_pay78 (F := Ideal) v9 q z s = k0_pay13 (F := Ideal) v9 q z s := rfl
theorem pay79_eq (v9 : IVec S8 32) (q : Vec Ideal S16x1408 .i32) (z : Vec Ideal S1x1408 .i32) (s : Vec Ideal S1x1408 .f32) : k0_pay79 (F := Ideal) v9 q z s = k0_pay13 (F := Ideal) v9 q z s := shapeCast_self _ _
theorem pay85_eq (v9 : IVec S8 32) (q : Vec Ideal S16x1408 .i32) (z : Vec Ideal S1x1408 .i32) (s : Vec Ideal S1x1408 .f32) : k0_pay85 (F := Ideal) v9 q z s = k0_pay13 (F := Ideal) v9 q z s := rfl
theorem pay86_eq (v9 : IVec S8 32) (q : Vec Ideal S16x1408 .i32) (z : Vec Ideal S1x1408 .i32) (s : Vec Ideal S1x1408 .f32) : k0_pay86 (F := Ideal) v9 q z s = k0_pay13 (F := Ideal) v9 q z s := shapeCast_self _ _
theorem pay87_eq (v9 : IVec S8 32) (q : Vec Ideal S16x1408 .i32) (z : Vec Ideal S1x1408 .i32) (s : Vec Ideal S1x1408 .f32) : k0_pay87 (F := Ideal) v9 q z s = k0_pay13 (F := Ideal) v9 q z s := rfl
theorem pay88_eq (v9 : IVec S8 32) (q : Vec Ideal S16x1408 .i32) (z : Vec Ideal S1x1408 .i32) (s : Vec Ideal S1x1408 .f32) : k0_pay88 (F := Ideal) v9 q z s = k0_pay13 (F := Ideal) v9 q z s := shapeCast_self _ _
theorem pay94_eq (v9 : IVec S8 32) (q : Vec Ideal S16x1408 .i32) (z : Vec Ideal S1x1408 .i32) (s : Vec Ideal S1x1408 .f32) : k0_pay94 (F := Ideal) v9 q z s = k0_pay13 (F := Ideal) v9 q z s := rfl
theorem pay95_eq (v9 : IVec S8 32) (q : Vec Ideal S16x1408 .i32) (z : Vec Ideal S1x1408 .i32) (s : Vec Ideal S1x1408 .f32) : k0_pay95 (F := Ideal) v9 q z s = k0_pay13 (F := Ideal) v9 q z s := shapeCast_self _ _
theorem pay96_eq (v9 : IVec S8 32) (q : Vec Ideal S16x1408 .i32) (z : Vec Ideal S1x1408 .i32) (s : Vec Ideal S1x1408 .f32) : k0_pay96 (F := Ideal) v9 q z s = k0_pay13 (F := Ideal) v9 q z s := rfl
theorem pay97_eq (v9 : IVec S8 32) (q : Vec Ideal S16x1408 .i32) (z : Vec Ideal S1x1408 .i32) (s : Vec Ideal S1x1408 .f32) : k0_pay97 (F := Ideal) v9 q z s = k0_pay13 (F := Ideal) v9 q z s := shapeCast_self _ _

/-! One more group from its nibbles: every value of this shape is the one read above. -/
theorem pay3_eq (acc : FVec Ideal S512x1408 .f32) (a : IVec S128x1408 32) (z : Vec Ideal S1x1408 .i32) (s : Vec Ideal S1x1408 .f32) (x : Vec Ideal S512x128 .bf16) : k0_pay3 (F := Ideal) acc a z s x = k0_pay12 (F := Ideal) acc a z s x := rfl
theorem pay21_eq (acc : FVec Ideal S512x1408 .f32) (a : IVec S128x1408 32) (z : Vec Ideal S1x1408 .i32) (s : Vec Ideal S1x1408 .f32) (x : Vec Ideal S512x128 .bf16) : k0_pay21 (F := Ideal) acc a z s x = k0_pay12 (F := Ideal) acc a z s x := rfl
theorem pay30_eq (acc : FVec Ideal S512x1408 .f32) (a : IVec S128x1408 32) (z : Vec Ideal S1x1408 .i32) (s : Vec Ideal S1x1408 .f32) (x : Vec Ideal S512x128 .bf16) : k0_pay30 (F := Ideal) acc a z s x = k0_pay12 (F := Ideal) acc a z s x := rfl
theorem pay39_eq (acc : FVec Ideal S512x1408 .f32) (a : IVec S128x1408 32) (z : Vec Ideal S1x1408 .i32) (s : Vec Ideal S1x1408 .f32) (x : Vec Ideal S512x128 .bf16) : k0_pay39 (F := Ideal) acc a z s x = k0_pay12 (F := Ideal) acc a z s x := rfl
theorem pay48_eq (acc : FVec Ideal S512x1408 .f32) (a : IVec S128x1408 32) (z : Vec Ideal S1x1408 .i32) (s : Vec Ideal S1x1408 .f32) (x : Vec Ideal S512x128 .bf16) : k0_pay48 (F := Ideal) acc a z s x = k0_pay12 (F := Ideal) acc a z s x := rfl
theorem pay57_eq (acc : FVec Ideal S512x1408 .f32) (a : IVec S128x1408 32) (z : Vec Ideal S1x1408 .i32) (s : Vec Ideal S1x1408 .f32) (x : Vec Ideal S512x128 .bf16) : k0_pay57 (F := Ideal) acc a z s x = k0_pay12 (F := Ideal) acc a z s x := rfl
theorem pay66_eq (acc : FVec Ideal S512x1408 .f32) (a : IVec S128x1408 32) (z : Vec Ideal S1x1408 .i32) (s : Vec Ideal S1x1408 .f32) (x : Vec Ideal S512x128 .bf16) : k0_pay66 (F := Ideal) acc a z s x = k0_pay12 (F := Ideal) acc a z s x := rfl
theorem pay75_eq (acc : FVec Ideal S512x1408 .f32) (a : IVec S128x1408 32) (z : Vec Ideal S1x1408 .i32) (s : Vec Ideal S1x1408 .f32) (x : Vec Ideal S512x128 .bf16) : k0_pay75 (F := Ideal) acc a z s x = k0_pay12 (F := Ideal) acc a z s x := rfl
theorem pay84_eq (acc : FVec Ideal S512x1408 .f32) (a : IVec S128x1408 32) (z : Vec Ideal S1x1408 .i32) (s : Vec Ideal S1x1408 .f32) (x : Vec Ideal S512x128 .bf16) : k0_pay84 (F := Ideal) acc a z s x = k0_pay12 (F := Ideal) acc a z s x := rfl
theorem pay93_eq (acc : FVec Ideal S512x1408 .f32) (a : IVec S128x1408 32) (z : Vec Ideal S1x1408 .i32) (s : Vec Ideal S1x1408 .f32) (x : Vec Ideal S512x128 .bf16) : k0_pay93 (F := Ideal) acc a z s x = k0_pay12 (F := Ideal) acc a z s x := rfl

/-! Two more groups: every value of this shape is the one read above. -/
theorem pay26_eq (v9 : IVec S8 32) (acc : FVec Ideal S512x1408 .f32) (wd : FVec Ideal S128x1408 .bf16) (x : Vec Ideal S512x128 .bf16) (q : Vec Ideal S16x1408 .i32) (z : Vec Ideal S1x1408 .i32) (s : Vec Ideal S1x1408 .f32) (x' : Vec Ideal S512x128 .bf16) : k0_pay26 (F := Ideal) v9 acc wd x q z s x' = k0_pay17 (F := Ideal) v9 acc wd x q z s x' := rfl
theorem pay35_eq (v9 : IVec S8 32) (acc : FVec Ideal S512x1408 .f32) (wd : FVec Ideal S128x1408 .bf16) (x : Vec Ideal S512x128 .bf16) (q : Vec Ideal S16x1408 .i32) (z : Vec Ideal S1x1408 .i32) (s : Vec Ideal S1x1408 .f32) (x' : Vec Ideal S512x128 .bf16) : k0_pay35 (F := Ideal) v9 acc wd x q z s x' = k0_pay17 (F := Ideal) v9 acc wd x q z s x' := rfl
theorem pay44_eq (v9 : IVec S8 32) (acc : FVec Ideal S512x1408 .f32) (wd : FVec Ideal S128x1408 .bf16) (x : Vec Ideal S512x128 .bf16) (q : Vec Ideal S16x1408 .i32) (z : Vec Ideal S1x1408 .i32) (s : Vec Ideal S1x1408 .f32) (x' : Vec Ideal S512x128 .bf16) : k0_pay44 (F := Ideal) v9 acc wd x q z s x' = k0_pay17 (F := Ideal) v9 acc wd x q z s x' := rfl
theorem pay53_eq (v9 : IVec S8 32) (acc : FVec Ideal S512x1408 .f32) (wd : FVec Ideal S128x1408 .bf16) (x : Vec Ideal S512x128 .bf16) (q : Vec Ideal S16x1408 .i32) (z : Vec Ideal S1x1408 .i32) (s : Vec Ideal S1x1408 .f32) (x' : Vec Ideal S512x128 .bf16) : k0_pay53 (F := Ideal) v9 acc wd x q z s x' = k0_pay17 (F := Ideal) v9 acc wd x q z s x' := rfl
theorem pay62_eq (v9 : IVec S8 32) (acc : FVec Ideal S512x1408 .f32) (wd : FVec Ideal S128x1408 .bf16) (x : Vec Ideal S512x128 .bf16) (q : Vec Ideal S16x1408 .i32) (z : Vec Ideal S1x1408 .i32) (s : Vec Ideal S1x1408 .f32) (x' : Vec Ideal S512x128 .bf16) : k0_pay62 (F := Ideal) v9 acc wd x q z s x' = k0_pay17 (F := Ideal) v9 acc wd x q z s x' := rfl
theorem pay71_eq (v9 : IVec S8 32) (acc : FVec Ideal S512x1408 .f32) (wd : FVec Ideal S128x1408 .bf16) (x : Vec Ideal S512x128 .bf16) (q : Vec Ideal S16x1408 .i32) (z : Vec Ideal S1x1408 .i32) (s : Vec Ideal S1x1408 .f32) (x' : Vec Ideal S512x128 .bf16) : k0_pay71 (F := Ideal) v9 acc wd x q z s x' = k0_pay17 (F := Ideal) v9 acc wd x q z s x' := rfl
theorem pay80_eq (v9 : IVec S8 32) (acc : FVec Ideal S512x1408 .f32) (wd : FVec Ideal S128x1408 .bf16) (x : Vec Ideal S512x128 .bf16) (q : Vec Ideal S16x1408 .i32) (z : Vec Ideal S1x1408 .i32) (s : Vec Ideal S1x1408 .f32) (x' : Vec Ideal S512x128 .bf16) : k0_pay80 (F := Ideal) v9 acc wd x q z s x' = k0_pay17 (F := Ideal) v9 acc wd x q z s x' := rfl
theorem pay89_eq (v9 : IVec S8 32) (acc : FVec Ideal S512x1408 .f32) (wd : FVec Ideal S128x1408 .bf16) (x : Vec Ideal S512x128 .bf16) (q : Vec Ideal S16x1408 .i32) (z : Vec Ideal S1x1408 .i32) (s : Vec Ideal S1x1408 .f32) (x' : Vec Ideal S512x128 .bf16) : k0_pay89 (F := Ideal) v9 acc wd x q z s x' = k0_pay17 (F := Ideal) v9 acc wd x q z s x' := rfl
theorem pay98_eq (v9 : IVec S8 32) (acc : FVec Ideal S512x1408 .f32) (wd : FVec Ideal S128x1408 .bf16) (x : Vec Ideal S512x128 .bf16) (q : Vec Ideal S16x1408 .i32) (z : Vec Ideal S1x1408 .i32) (s : Vec Ideal S1x1408 .f32) (x' : Vec Ideal S512x128 .bf16) : k0_pay98 (F := Ideal) v9 acc wd x q z s x' = k0_pay17 (F := Ideal) v9 acc wd x q z s x' := rfl

end Cert.KernelIdeal.Hand

end
-- ==== Proof.Ideal.Loads.lean ====
/-
  Loads through literal rectangles, and one group of the filling body, at the exact instance.
  A load of a whole buffer through a unit-stride rectangle reads the buffer's contents at the rectangle's
  offsets plus the local index. With that, a group's 128 dequantised rows — computed from sixteen packed rows
  at row offset 16g, the zero-point row g and the scale row g — are rows 128g … 128g + 127 of the column
  tile's dequantised weights, and the group's product with columns 128g … of the row block is the group's
  share of the sum over the 4096 input rows.
-/
import proofs.«415117_j28973849379104_3_alg».proof.Proof.Ideal.Payload
import proofs.«415117_j28973849379104_3_alg».proof.Proof.Gen.KernelIdeal.Frame
import Idealize.ShloMosaic.Lib.Pipeline.FrameBody

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.Sem
open Cert.KernelIdeal Cert.KernelIdeal.Gen QuantSpec

variable {sg : RefSig} {κ : Kind} {sp : Space}

/-- A load through a unit-stride rectangle reads the contents at offset + local index. -/
theorem readAt_unit {s : Shape} {e : EltTy} (mr : Memref sig .tc .vmem s e) (h : mr.IsWhole) (X : s.Idx → Elt Ideal e)
    (off size : Fin s.rank → ℕ) (inb : ∀ a, off a + size a ≤ s.size a)
    (y : (Rect.unit (s := s) off size inb).shape.Idx) (i : s.Idx) (hi : ∀ a, (i a).val = off a + (y a).val) :
    View.readAt (Elt Ideal) mr.view (Rect.unit (s := s) off size inb).toLoadRect (h.unread X) y = X i := by
  show mr.view.read (Elt Ideal) (h.unread X) _ = X i
  rw [h.read_unread]
  congr 1
  funext a
  apply Fin.ext
  rw [hi a]
  show off a + 1 * (y a).val = _
  omega

/-- The summand of the product at input row `n`, for a fixed output entry (row r of the row block, column cc of
    the column tile); zero past the 4096 rows. -/
def term (x0 : Vec Ideal S512x4096 .bf16) (x1 : Vec Ideal S512x1408 .i32) (x2 : Vec Ideal S32x1408 .i32) (x3 : Vec Ideal S32x1408 .f32)
    (r : Fin 512) (cc : Fin 1408) (n : ℕ) : EReal :=
  if h : n < 4096 then x0 (ix2 r (⟨n, h⟩ : Fin 4096)) * Wn 1408 x1 x2 x3 (ix2 (⟨n, h⟩ : Fin 4096) cc) else 0

/-- The sum of the summands over the 4096 rows is the product's entry. -/
theorem sum_term (x0 : Vec Ideal S512x4096 .bf16) (x1 : Vec Ideal S512x1408 .i32) (x2 : Vec Ideal S32x1408 .i32) (x3 : Vec Ideal S32x1408 .f32)
    (r : Fin 512) (cc : Fin 1408) :
    chunked (term x0 x1 x2 x3 r cc) 32 = prodMat 512 1408 x0 (Wn 1408 x1 x2 x3) (ix2 r cc) := by
  rw [chunked_eq_sum]
  unfold prodMat
  refine Finset.sum_congr rfl fun k _ => ?_
  unfold term
  rw [dif_pos k.isLt]

/-- Row 128g + r of a column tile's weights, from group g's loads: the entry the kernel computes from packed row
    r / 8 of the group's sixteen, with the group's zero point and scale. -/
theorem wn_entry (x1 : Vec Ideal S512x1408 .i32) (x2 : Vec Ideal S32x1408 .i32) (x3 : Vec Ideal S32x1408 .f32)
    (g : ℕ) (hg : g < 32) (r : Fin 128) (cc : Fin 1408) (y : S4096x1408.Idx)
    (hy0 : (y 0).val = 128 * g + r.val) (hy1 : (y 1).val = cc.val)
    (wq zz : BitVec 32) (ss : EReal)
    (hw : wq = x1 (ix2 (⟨16 * g + r.val / 8, by have := r.isLt; omega⟩ : Fin 512) cc))
    (hz : zz = x2 (ix2 (⟨g, hg⟩ : Fin 32) cc)) (hs : ss = x3 (ix2 (⟨g, hg⟩ : Fin 32) cc)) :
    dq (nib wq (r.val % 8)) zz ss = Wn 1408 x1 x2 x3 y := by
  subst hw hz hs
  unfold Wn dq
  have e8 : (y 0).val / 8 = 16 * g + r.val / 8 := by rw [hy0]; omega
  have e128 : (y 0).val / 128 = g := by rw [hy0]; have := r.isLt; omega
  have em : (y 0).val % 8 = r.val % 8 := by rw [hy0]; omega
  have i8 : (ix2 (⟨(y 0).val / 8, by have := (y 0).isLt; change (y 0).val < 4096 at this; omega⟩ : Fin 512) (⟨(y 1).val, (y 1).isLt⟩ : Fin 1408) : (⟨2, ![512, 1408]⟩ : Shape).Idx)
      = ix2 (⟨16 * g + r.val / 8, by have := r.isLt; omega⟩ : Fin 512) cc := by
    funext a; apply Fin.ext
    match a with
    | ⟨0, _⟩ => exact e8
    | ⟨1, _⟩ => exact hy1
  have i128 : (ix2 (⟨(y 0).val / 128, by have := (y 0).isLt; change (y 0).val < 4096 at this; omega⟩ : Fin 32) (⟨(y 1).val, (y 1).isLt⟩ : Fin 1408) : (⟨2, ![32, 1408]⟩ : Shape).Idx)
      = ix2 (⟨g, hg⟩ : Fin 32) cc := by
    funext a; apply Fin.ext
    match a with
    | ⟨0, _⟩ => exact e128
    | ⟨1, _⟩ => exact hy1
  rw [i8, i128, em]

end Cert.KernelIdeal.Hand

end
-- ==== Proof.Ideal.Group.lean ====
/-
  One group of the filling body at the exact instance: the group's weights are its 128 rows of the column
  tile's weights (three spellings, as the body computes them from its loads), and the accumulator after the
  group is the sum over the input rows taken 128 at a time, one group further.
-/
import proofs.«415117_j28973849379104_3_alg».proof.Proof.Ideal.Loads

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.Sem
open Cert.KernelIdeal Cert.KernelIdeal.Gen QuantSpec

variable (arg2 : Memref sig .tc .vmem S512x4096 .bf16) (harg2 : arg2.IsWhole) (arg3 : Memref sig .tc .vmem S512x1408 .i32) (harg3 : arg3.IsWhole)
  (arg4 : Memref sig .tc .vmem S32x1408 .i32) (harg4 : arg4.IsWhole) (arg5 : Memref sig .tc .vmem S32x1408 .f32) (harg5 : arg5.IsWhole)
  (x0 : Vec Ideal S512x4096 .bf16) (x1 : Vec Ideal S512x1408 .i32) (x2 : Vec Ideal S32x1408 .i32) (x3 : Vec Ideal S32x1408 .f32)

/-- Entry (r, cc) of group oz's weights from the group's loaded rows, the packed rows at offset 16·oz. -/
theorem group_entry (oq oz os : ℕ) (inbq : ∀ a, (![oq, 0] : Fin 2 → ℕ) a + S16x1408.size a ≤ S512x1408.size a) (inbz : ∀ a, (![oz, 0] : Fin 2 → ℕ) a + S1x1408.size a ≤ S32x1408.size a) (inbs : ∀ a, (![os, 0] : Fin 2 → ℕ) a + S1x1408.size a ≤ S32x1408.size a)
    (hg : oz < 32) (h1 : oq = 16 * oz) (h3 : oz = os) (r : Fin 128) (cc : Fin 1408) (y : S4096x1408.Idx)
    (hy0 : (y 0).val = 128 * oz + r.val) (hy1 : (y 1).val = cc.val) :
    dq (nib ((View.readAt (Elt Ideal) arg3.view (Rect.unit (s := S512x1408) ![oq, 0] S16x1408.size inbq).toLoadRect (harg3.unread x1)) (ix2 (⟨r.val / 8, by have := r.isLt; omega⟩ : Fin 16) cc)) (r.val % 8))
       ((View.readAt (Elt Ideal) arg4.view (Rect.unit (s := S32x1408) ![oz, 0] S1x1408.size inbz).toLoadRect (harg4.unread x2)) (ix2 (0 : Fin 1) cc)) ((View.readAt (Elt Ideal) arg5.view (Rect.unit (s := S32x1408) ![os, 0] S1x1408.size inbs).toLoadRect (harg5.unread x3)) (ix2 (0 : Fin 1) cc))
      = Wn 1408 x1 x2 x3 y := by
  subst h1 h3
  refine wn_entry x1 x2 x3 oz hg r cc y hy0 hy1 _ _ _ ?_ ?_ ?_
  · exact readAt_unit arg3 harg3 x1 _ _ _ _ _ (fun a => by
      match a with
      | ⟨0, _⟩ => rfl
      | ⟨1, _⟩ => show cc.val = 0 + cc.val; omega)
  · exact readAt_unit arg4 harg4 x2 _ _ _ _ _ (fun a => by
      match a with
      | ⟨0, _⟩ => show oz = oz + 0; omega
      | ⟨1, _⟩ => show cc.val = 0 + cc.val; omega)
  · exact readAt_unit arg5 harg5 x3 _ _ _ _ _ (fun a => by
      match a with
      | ⟨0, _⟩ => show oz = oz + 0; omega
      | ⟨1, _⟩ => show cc.val = 0 + cc.val; omega)

/-- The three spellings of a group's weights at (r, cc), each row 128·oz + r of the tile's weights. -/
theorem wdRaw_entry (oq oz os : ℕ) (inbq : ∀ a, (![oq, 0] : Fin 2 → ℕ) a + S16x1408.size a ≤ S512x1408.size a) (inbz : ∀ a, (![oz, 0] : Fin 2 → ℕ) a + S1x1408.size a ≤ S32x1408.size a) (inbs : ∀ a, (![os, 0] : Fin 2 → ℕ) a + S1x1408.size a ≤ S32x1408.size a)
    (hg : oz < 32) (h1 : oq = 16 * oz) (h3 : oz = os) (r : Fin 128) (cc : Fin 1408) (y : S4096x1408.Idx)
    (hy0 : (y 0).val = 128 * oz + r.val) (hy1 : (y 1).val = cc.val) :
    k0_pay13 (F := Ideal) k0_pay5 (View.readAt (Elt Ideal) arg3.view (Rect.unit (s := S512x1408) ![oq, 0] S16x1408.size inbq).toLoadRect (harg3.unread x1)) (View.readAt (Elt Ideal) arg4.view (Rect.unit (s := S32x1408) ![oz, 0] S1x1408.size inbz).toLoadRect (harg4.unread x2)) (View.readAt (Elt Ideal) arg5.view (Rect.unit (s := S32x1408) ![os, 0] S1x1408.size inbs).toLoadRect (harg5.unread x3)) (ix2 r cc) = Wn 1408 x1 x2 x3 y :=
  (wdRaw_apply _ _ _ r cc).trans (group_entry arg3 harg3 arg4 harg4 arg5 harg5 x1 x2 x3 oq oz os inbq inbz inbs hg h1 h3 r cc y hy0 hy1)

theorem wdRaw0_entry (oq oz os : ℕ) (inbq : ∀ a, (![oq, 0] : Fin 2 → ℕ) a + S16x1408.size a ≤ S512x1408.size a) (inbz : ∀ a, (![oz, 0] : Fin 2 → ℕ) a + S1x1408.size a ≤ S32x1408.size a) (inbs : ∀ a, (![os, 0] : Fin 2 → ℕ) a + S1x1408.size a ≤ S32x1408.size a)
    (hg : oz < 32) (h1 : oq = 16 * oz) (h3 : oz = os) (r : Fin 128) (cc : Fin 1408) (y : S4096x1408.Idx)
    (hy0 : (y 0).val = 128 * oz + r.val) (hy1 : (y 1).val = cc.val) :
    k0_pay6 (F := Ideal) (View.readAt (Elt Ideal) arg3.view (Rect.unit (s := S512x1408) ![oq, 0] S16x1408.size inbq).toLoadRect (harg3.unread x1)) (View.readAt (Elt Ideal) arg4.view (Rect.unit (s := S32x1408) ![oz, 0] S1x1408.size inbz).toLoadRect (harg4.unread x2)) (View.readAt (Elt Ideal) arg5.view (Rect.unit (s := S32x1408) ![os, 0] S1x1408.size inbs).toLoadRect (harg5.unread x3)) (ix2 r cc) = Wn 1408 x1 x2 x3 y :=
  (wdRaw0_apply _ _ _ r cc).trans (group_entry arg3 harg3 arg4 harg4 arg5 harg5 x1 x2 x3 oq oz os inbq inbz inbs hg h1 h3 r cc y hy0 hy1)

theorem wdNib_entry (oq oz os : ℕ) (inbq : ∀ a, (![oq, 0] : Fin 2 → ℕ) a + S16x1408.size a ≤ S512x1408.size a) (inbz : ∀ a, (![oz, 0] : Fin 2 → ℕ) a + S1x1408.size a ≤ S32x1408.size a) (inbs : ∀ a, (![os, 0] : Fin 2 → ℕ) a + S1x1408.size a ≤ S32x1408.size a)
    (hg : oz < 32) (h1 : oq = 16 * oz) (h3 : oz = os) (r : Fin 128) (cc : Fin 1408) (y : S4096x1408.Idx)
    (hy0 : (y 0).val = 128 * oz + r.val) (hy1 : (y 1).val = cc.val) :
    k0_pay10 (F := Ideal) (k0_pay18 (F := Ideal) k0_pay5 (View.readAt (Elt Ideal) arg3.view (Rect.unit (s := S512x1408) ![oq, 0] S16x1408.size inbq).toLoadRect (harg3.unread x1))) (View.readAt (Elt Ideal) arg4.view (Rect.unit (s := S32x1408) ![oz, 0] S1x1408.size inbz).toLoadRect (harg4.unread x2)) (View.readAt (Elt Ideal) arg5.view (Rect.unit (s := S32x1408) ![os, 0] S1x1408.size inbs).toLoadRect (harg5.unread x3)) (ix2 r cc) = Wn 1408 x1 x2 x3 y := by
  rw [wdNib_apply, nib_apply]
  exact group_entry arg3 harg3 arg4 harg4 arg5 harg5 x1 x2 x3 oq oz os inbq inbz inbs hg h1 h3 r cc y hy0 hy1

theorem wdNib0_entry (oq oz os : ℕ) (inbq : ∀ a, (![oq, 0] : Fin 2 → ℕ) a + S16x1408.size a ≤ S512x1408.size a) (inbz : ∀ a, (![oz, 0] : Fin 2 → ℕ) a + S1x1408.size a ≤ S32x1408.size a) (inbs : ∀ a, (![os, 0] : Fin 2 → ℕ) a + S1x1408.size a ≤ S32x1408.size a)
    (hg : oz < 32) (h1 : oq = 16 * oz) (h3 : oz = os) (r : Fin 128) (cc : Fin 1408) (y : S4096x1408.Idx)
    (hy0 : (y 0).val = 128 * oz + r.val) (hy1 : (y 1).val = cc.val) :
    k0_pay10 (F := Ideal) (k0_pay9 (F := Ideal) (View.readAt (Elt Ideal) arg3.view (Rect.unit (s := S512x1408) ![oq, 0] S16x1408.size inbq).toLoadRect (harg3.unread x1))) (View.readAt (Elt Ideal) arg4.view (Rect.unit (s := S32x1408) ![oz, 0] S1x1408.size inbz).toLoadRect (harg4.unread x2)) (View.readAt (Elt Ideal) arg5.view (Rect.unit (s := S32x1408) ![os, 0] S1x1408.size inbs).toLoadRect (harg5.unread x3)) (ix2 r cc) = Wn 1408 x1 x2 x3 y := by
  rw [wdNib_apply, nib0_apply]
  exact group_entry arg3 harg3 arg4 harg4 arg5 harg5 x1 x2 x3 oq oz os inbq inbz inbs hg h1 h3 r cc y hy0 hy1

/-- A group's product is the group's share of the sum: its 128 summands. -/
theorem group_sum (r : Fin 512) (cc : Fin 1408) (n ox : ℕ) (hn : n < 32) (h4 : ox = 128 * n)
    (inbx : ∀ a, (![0, ox] : Fin 2 → ℕ) a + S512x128.size a ≤ S512x4096.size a)
    (wd : FVec Ideal S128x1408 .bf16)
    (hwd : ∀ (k : Fin 128) (y : S4096x1408.Idx), (y 0).val = 128 * n + k.val → (y 1).val = cc.val → wd (ix2 k cc) = Wn 1408 x1 x2 x3 y) :
    ∑ k : Fin 128, (View.readAt (Elt Ideal) arg2.view (Rect.unit (s := S512x4096) ![0, ox] S512x128.size inbx).toLoadRect (harg2.unread x0)) (ix2 r k) * wd (ix2 k cc) = ∑ k : Fin 128, term x0 x1 x2 x3 r cc (128 * n + k.val) := by
  subst h4
  refine Finset.sum_congr rfl fun k _ => ?_
  have hk : 128 * n + k.val < 4096 := by have := k.isLt; omega
  unfold term
  rw [dif_pos hk]
  congr 1
  · exact readAt_unit arg2 harg2 x0 _ _ _ _ _ (fun a => by
      match a with
      | ⟨0, _⟩ => show r.val = 0 + r.val; omega
      | ⟨1, _⟩ => rfl)
  · exact hwd k _ rfl rfl

end Cert.KernelIdeal.Hand

end
-- ==== Proof.Ideal.Steps.lean ====
/-
  What a filling point and a reusing point leave, at the exact instance.
  At a filling point the thirty-two stored slabs of the scratch are rows 128g … 128g + 127 of the column tile's
  dequantised weights, so the scratch ends at those weights whole; the accumulator, one or two groups at a time,
  runs through the sums over the first 128, 256, … input rows and ends at the product of the row block with
  the weights. At a reusing point the one stored piece is the product of the row block with what the scratch
  holds.
-/
import proofs.«415117_j28973849379104_3_alg».proof.Proof.Ideal.Group
import proofs.«415117_j28973849379104_3_alg».proof.Proof.Ideal.Frame

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.Sem
open Cert.KernelIdeal Cert.KernelIdeal.Gen QuantSpec

variable (arg2 : Memref sig .tc .vmem S512x4096 .bf16) (harg2 : arg2.IsWhole) (arg3 : Memref sig .tc .vmem S512x1408 .i32) (harg3 : arg3.IsWhole)
  (arg4 : Memref sig .tc .vmem S32x1408 .i32) (harg4 : arg4.IsWhole) (arg5 : Memref sig .tc .vmem S32x1408 .f32) (harg5 : arg5.IsWhole)
  (x0 : Vec Ideal S512x4096 .bf16) (x1 : Vec Ideal S512x1408 .i32) (x2 : Vec Ideal S32x1408 .i32) (x3 : Vec Ideal S32x1408 .f32)

/-! ## The scratch's slabs -/

theorem slabRaw (oq oz os ow : ℕ) (inbq : ∀ a, (![oq, 0] : Fin 2 → ℕ) a + S16x1408.size a ≤ S512x1408.size a) (inbz : ∀ a, (![oz, 0] : Fin 2 → ℕ) a + S1x1408.size a ≤ S32x1408.size a) (inbs : ∀ a, (![os, 0] : Fin 2 → ℕ) a + S1x1408.size a ≤ S32x1408.size a) (inbw : ∀ a, (![ow, 0] : Fin 2 → ℕ) a + S128x1408.size a ≤ S4096x1408.size a)
    (hg : oz < 32) (h1 : oq = 16 * oz) (h3 : oz = os) (h4 : ow = 128 * oz)
    (x : (Rect.unit (s := S4096x1408) ![ow, 0] S128x1408.size inbw).shape.Idx) :
    k0_pay13 (F := Ideal) k0_pay5 (View.readAt (Elt Ideal) arg3.view (Rect.unit (s := S512x1408) ![oq, 0] S16x1408.size inbq).toLoadRect (harg3.unread x1)) (View.readAt (Elt Ideal) arg4.view (Rect.unit (s := S32x1408) ![oz, 0] S1x1408.size inbz).toLoadRect (harg4.unread x2)) (View.readAt (Elt Ideal) arg5.view (Rect.unit (s := S32x1408) ![os, 0] S1x1408.size inbs).toLoadRect (harg5.unread x3)) x
      = Wn 1408 x1 x2 x3 ((Rect.unit (s := S4096x1408) ![ow, 0] S128x1408.size inbw).emb x) := by
  obtain ⟨r, cc, rfl⟩ : ∃ (r : Fin 128) (cc : Fin 1408), x = ix2 r cc := ⟨x 0, x 1, eq_ix2 x⟩
  exact wdRaw_entry arg3 harg3 arg4 harg4 arg5 harg5 x1 x2 x3 oq oz os inbq inbz inbs hg h1 h3 r cc _ (by subst h4; show 128 * oz + 1 * r.val = _; omega) (show 0 + 1 * cc.val = cc.val by omega)

theorem slabRaw0 (oq oz os ow : ℕ) (inbq : ∀ a, (![oq, 0] : Fin 2 → ℕ) a + S16x1408.size a ≤ S512x1408.size a) (inbz : ∀ a, (![oz, 0] : Fin 2 → ℕ) a + S1x1408.size a ≤ S32x1408.size a) (inbs : ∀ a, (![os, 0] : Fin 2 → ℕ) a + S1x1408.size a ≤ S32x1408.size a) (inbw : ∀ a, (![ow, 0] : Fin 2 → ℕ) a + S128x1408.size a ≤ S4096x1408.size a)
    (hg : oz < 32) (h1 : oq = 16 * oz) (h3 : oz = os) (h4 : ow = 128 * oz)
    (x : (Rect.unit (s := S4096x1408) ![ow, 0] S128x1408.size inbw).shape.Idx) :
    k0_pay6 (F := Ideal) (View.readAt (Elt Ideal) arg3.view (Rect.unit (s := S512x1408) ![oq, 0] S16x1408.size inbq).toLoadRect (harg3.unread x1)) (View.readAt (Elt Ideal) arg4.view (Rect.unit (s := S32x1408) ![oz, 0] S1x1408.size inbz).toLoadRect (harg4.unread x2)) (View.readAt (Elt Ideal) arg5.view (Rect.unit (s := S32x1408) ![os, 0] S1x1408.size inbs).toLoadRect (harg5.unread x3)) x
      = Wn 1408 x1 x2 x3 ((Rect.unit (s := S4096x1408) ![ow, 0] S128x1408.size inbw).emb x) := by
  obtain ⟨r, cc, rfl⟩ : ∃ (r : Fin 128) (cc : Fin 1408), x = ix2 r cc := ⟨x 0, x 1, eq_ix2 x⟩
  exact wdRaw0_entry arg3 harg3 arg4 harg4 arg5 harg5 x1 x2 x3 oq oz os inbq inbz inbs hg h1 h3 r cc _ (by subst h4; show 128 * oz + 1 * r.val = _; omega) (show 0 + 1 * cc.val = cc.val by omega)

theorem slabNib (oq oz os ow : ℕ) (inbq : ∀ a, (![oq, 0] : Fin 2 → ℕ) a + S16x1408.size a ≤ S512x1408.size a) (inbz : ∀ a, (![oz, 0] : Fin 2 → ℕ) a + S1x1408.size a ≤ S32x1408.size a) (inbs : ∀ a, (![os, 0] : Fin 2 → ℕ) a + S1x1408.size a ≤ S32x1408.size a) (inbw : ∀ a, (![ow, 0] : Fin 2 → ℕ) a + S128x1408.size a ≤ S4096x1408.size a)
    (hg : oz < 32) (h1 : oq = 16 * oz) (h3 : oz = os) (h4 : ow = 128 * oz)
    (x : (Rect.unit (s := S4096x1408) ![ow, 0] S128x1408.size inbw).shape.Idx) :
    k0_pay10 (F := Ideal) (k0_pay18 (F := Ideal) k0_pay5 (View.readAt (Elt Ideal) arg3.view (Rect.unit (s := S512x1408) ![oq, 0] S16x1408.size inbq).toLoadRect (harg3.unread x1))) (View.readAt (Elt Ideal) arg4.view (Rect.unit (s := S32x1408) ![oz, 0] S1x1408.size inbz).toLoadRect (harg4.unread x2)) (View.readAt (Elt Ideal) arg5.view (Rect.unit (s := S32x1408) ![os, 0] S1x1408.size inbs).toLoadRect (harg5.unread x3)) x
      = Wn 1408 x1 x2 x3 ((Rect.unit (s := S4096x1408) ![ow, 0] S128x1408.size inbw).emb x) := by
  obtain ⟨r, cc, rfl⟩ : ∃ (r : Fin 128) (cc : Fin 1408), x = ix2 r cc := ⟨x 0, x 1, eq_ix2 x⟩
  exact wdNib_entry arg3 harg3 arg4 harg4 arg5 harg5 x1 x2 x3 oq oz os inbq inbz inbs hg h1 h3 r cc _ (by subst h4; show 128 * oz + 1 * r.val = _; omega) (show 0 + 1 * cc.val = cc.val by omega)

theorem slabNib0 (oq oz os ow : ℕ) (inbq : ∀ a, (![oq, 0] : Fin 2 → ℕ) a + S16x1408.size a ≤ S512x1408.size a) (inbz : ∀ a, (![oz, 0] : Fin 2 → ℕ) a + S1x1408.size a ≤ S32x1408.size a) (inbs : ∀ a, (![os, 0] : Fin 2 → ℕ) a + S1x1408.size a ≤ S32x1408.size a) (inbw : ∀ a, (![ow, 0] : Fin 2 → ℕ) a + S128x1408.size a ≤ S4096x1408.size a)
    (hg : oz < 32) (h1 : oq = 16 * oz) (h3 : oz = os) (h4 : ow = 128 * oz)
    (x : (Rect.unit (s := S4096x1408) ![ow, 0] S128x1408.size inbw).shape.Idx) :
    k0_pay10 (F := Ideal) (k0_pay9 (F := Ideal) (View.readAt (Elt Ideal) arg3.view (Rect.unit (s := S512x1408) ![oq, 0] S16x1408.size inbq).toLoadRect (harg3.unread x1))) (View.readAt (Elt Ideal) arg4.view (Rect.unit (s := S32x1408) ![oz, 0] S1x1408.size inbz).toLoadRect (harg4.unread x2)) (View.readAt (Elt Ideal) arg5.view (Rect.unit (s := S32x1408) ![os, 0] S1x1408.size inbs).toLoadRect (harg5.unread x3)) x
      = Wn 1408 x1 x2 x3 ((Rect.unit (s := S4096x1408) ![ow, 0] S128x1408.size inbw).emb x) := by
  obtain ⟨r, cc, rfl⟩ : ∃ (r : Fin 128) (cc : Fin 1408), x = ix2 r cc := ⟨x 0, x 1, eq_ix2 x⟩
  exact wdNib0_entry arg3 harg3 arg4 harg4 arg5 harg5 x1 x2 x3 oq oz os inbq inbz inbs hg h1 h3 r cc _ (by subst h4; show 128 * oz + 1 * r.val = _; omega) (show 0 + 1 * cc.val = cc.val by omega)

/-! ## The accumulator, group by group -/

theorem chunked_succ (f : ℕ → EReal) (n : ℕ) : chunked f (n + 1) = chunked f n + ∑ k : Fin 128, f (128 * n + k.val) := rfl

/-- After the first group. -/
theorem step0 (r : Fin 512) (cc : Fin 1408) (oq oz os ox : ℕ) (inbq : ∀ a, (![oq, 0] : Fin 2 → ℕ) a + S16x1408.size a ≤ S512x1408.size a) (inbz : ∀ a, (![oz, 0] : Fin 2 → ℕ) a + S1x1408.size a ≤ S32x1408.size a) (inbs : ∀ a, (![os, 0] : Fin 2 → ℕ) a + S1x1408.size a ≤ S32x1408.size a) (inbx : ∀ a, (![0, ox] : Fin 2 → ℕ) a + S512x128.size a ≤ S512x4096.size a)
    (h0 : oz = 0) (h1 : oq = 16 * oz) (h3 : oz = os) (h4 : ox = 128 * oz) :
    k0_pay8 (F := Ideal) (View.readAt (Elt Ideal) arg3.view (Rect.unit (s := S512x1408) ![oq, 0] S16x1408.size inbq).toLoadRect (harg3.unread x1)) (View.readAt (Elt Ideal) arg4.view (Rect.unit (s := S32x1408) ![oz, 0] S1x1408.size inbz).toLoadRect (harg4.unread x2)) (View.readAt (Elt Ideal) arg5.view (Rect.unit (s := S32x1408) ![os, 0] S1x1408.size inbs).toLoadRect (harg5.unread x3)) (View.readAt (Elt Ideal) arg2.view (Rect.unit (s := S512x4096) ![0, ox] S512x128.size inbx).toLoadRect (harg2.unread x0)) (ix2 r cc)
      = chunked (term x0 x1 x2 x3 r cc) 1 := by
  subst h0
  rw [acc0_apply, chunked_succ]
  refine congrArg₂ (· + ·) rfl ?_
  exact group_sum arg2 harg2 x0 x1 x2 x3 r cc 0 ox (by decide) h4 inbx _
    (fun k y hy0 hy1 => wdRaw0_entry arg3 harg3 arg4 harg4 arg5 harg5 x1 x2 x3 oq 0 os inbq inbz inbs (by decide) h1 h3 k cc y hy0 hy1)

/-- One more group, its weights from its nibbles. -/
theorem stepNib (r : Fin 512) (cc : Fin 1408) (n : ℕ) (acc : FVec Ideal S512x1408 .f32) (hacc : acc (ix2 r cc) = chunked (term x0 x1 x2 x3 r cc) n)
    (oq oz os ox : ℕ) (inbq : ∀ a, (![oq, 0] : Fin 2 → ℕ) a + S16x1408.size a ≤ S512x1408.size a) (inbz : ∀ a, (![oz, 0] : Fin 2 → ℕ) a + S1x1408.size a ≤ S32x1408.size a) (inbs : ∀ a, (![os, 0] : Fin 2 → ℕ) a + S1x1408.size a ≤ S32x1408.size a) (inbx : ∀ a, (![0, ox] : Fin 2 → ℕ) a + S512x128.size a ≤ S512x4096.size a)
    (hn : oz < 32) (h0 : oz = n) (h1 : oq = 16 * oz) (h3 : oz = os) (h4 : ox = 128 * oz) :
    k0_pay12 (F := Ideal) acc (k0_pay18 (F := Ideal) k0_pay5 (View.readAt (Elt Ideal) arg3.view (Rect.unit (s := S512x1408) ![oq, 0] S16x1408.size inbq).toLoadRect (harg3.unread x1))) (View.readAt (Elt Ideal) arg4.view (Rect.unit (s := S32x1408) ![oz, 0] S1x1408.size inbz).toLoadRect (harg4.unread x2)) (View.readAt (Elt Ideal) arg5.view (Rect.unit (s := S32x1408) ![os, 0] S1x1408.size inbs).toLoadRect (harg5.unread x3)) (View.readAt (Elt Ideal) arg2.view (Rect.unit (s := S512x4096) ![0, ox] S512x128.size inbx).toLoadRect (harg2.unread x0)) (ix2 r cc)
      = chunked (term x0 x1 x2 x3 r cc) (n + 1) := by
  subst h0
  rw [accNib_apply, hacc, chunked_succ]
  refine congrArg₂ (· + ·) rfl ?_
  exact group_sum arg2 harg2 x0 x1 x2 x3 r cc oz ox hn h4 inbx _
    (fun k y hy0 hy1 => wdNib_entry arg3 harg3 arg4 harg4 arg5 harg5 x1 x2 x3 oq oz os inbq inbz inbs hn h1 h3 k cc y hy0 hy1)

/-- The same where the nibbles were unpacked with the body's first shift amounts. -/
theorem stepNib0 (r : Fin 512) (cc : Fin 1408) (n : ℕ) (acc : FVec Ideal S512x1408 .f32) (hacc : acc (ix2 r cc) = chunked (term x0 x1 x2 x3 r cc) n)
    (oq oz os ox : ℕ) (inbq : ∀ a, (![oq, 0] : Fin 2 → ℕ) a + S16x1408.size a ≤ S512x1408.size a) (inbz : ∀ a, (![oz, 0] : Fin 2 → ℕ) a + S1x1408.size a ≤ S32x1408.size a) (inbs : ∀ a, (![os, 0] : Fin 2 → ℕ) a + S1x1408.size a ≤ S32x1408.size a) (inbx : ∀ a, (![0, ox] : Fin 2 → ℕ) a + S512x128.size a ≤ S512x4096.size a)
    (hn : oz < 32) (h0 : oz = n) (h1 : oq = 16 * oz) (h3 : oz = os) (h4 : ox = 128 * oz) :
    k0_pay12 (F := Ideal) acc (k0_pay9 (F := Ideal) (View.readAt (Elt Ideal) arg3.view (Rect.unit (s := S512x1408) ![oq, 0] S16x1408.size inbq).toLoadRect (harg3.unread x1))) (View.readAt (Elt Ideal) arg4.view (Rect.unit (s := S32x1408) ![oz, 0] S1x1408.size inbz).toLoadRect (harg4.unread x2)) (View.readAt (Elt Ideal) arg5.view (Rect.unit (s := S32x1408) ![os, 0] S1x1408.size inbs).toLoadRect (harg5.unread x3)) (View.readAt (Elt Ideal) arg2.view (Rect.unit (s := S512x4096) ![0, ox] S512x128.size inbx).toLoadRect (harg2.unread x0)) (ix2 r cc)
      = chunked (term x0 x1 x2 x3 r cc) (n + 1) := by
  subst h0
  rw [accNib_apply, hacc, chunked_succ]
  refine congrArg₂ (· + ·) rfl ?_
  exact group_sum arg2 harg2 x0 x1 x2 x3 r cc oz ox hn h4 inbx _
    (fun k y hy0 hy1 => wdNib0_entry arg3 harg3 arg4 harg4 arg5 harg5 x1 x2 x3 oq oz os inbq inbz inbs hn h1 h3 k cc y hy0 hy1)

/-- Two more groups: the first's weights computed before, the second's within the step. -/
theorem step2 (r : Fin 512) (cc : Fin 1408) (n : ℕ) (acc : FVec Ideal S512x1408 .f32) (hacc : acc (ix2 r cc) = chunked (term x0 x1 x2 x3 r cc) n)
    (oq oz os ox : ℕ) (inbq : ∀ a, (![oq, 0] : Fin 2 → ℕ) a + S16x1408.size a ≤ S512x1408.size a) (inbz : ∀ a, (![oz, 0] : Fin 2 → ℕ) a + S1x1408.size a ≤ S32x1408.size a) (inbs : ∀ a, (![os, 0] : Fin 2 → ℕ) a + S1x1408.size a ≤ S32x1408.size a) (inbx : ∀ a, (![0, ox] : Fin 2 → ℕ) a + S512x128.size a ≤ S512x4096.size a) (oq' oz' os' ox' : ℕ) (inbq' : ∀ a, (![oq', 0] : Fin 2 → ℕ) a + S16x1408.size a ≤ S512x1408.size a) (inbz' : ∀ a, (![oz', 0] : Fin 2 → ℕ) a + S1x1408.size a ≤ S32x1408.size a) (inbs' : ∀ a, (![os', 0] : Fin 2 → ℕ) a + S1x1408.size a ≤ S32x1408.size a) (inbx' : ∀ a, (![0, ox'] : Fin 2 → ℕ) a + S512x128.size a ≤ S512x4096.size a)
    (hn : oz' < 32) (h0 : oz = n) (h0' : oz' = n + 1) (h1 : oq = 16 * oz) (h3 : oz = os) (h4 : ox = 128 * oz)
    (h1' : oq' = 16 * oz') (h3' : oz' = os') (h4' : ox' = 128 * oz') :
    k0_pay17 (F := Ideal) k0_pay5 acc (k0_pay13 (F := Ideal) k0_pay5 (View.readAt (Elt Ideal) arg3.view (Rect.unit (s := S512x1408) ![oq, 0] S16x1408.size inbq).toLoadRect (harg3.unread x1)) (View.readAt (Elt Ideal) arg4.view (Rect.unit (s := S32x1408) ![oz, 0] S1x1408.size inbz).toLoadRect (harg4.unread x2)) (View.readAt (Elt Ideal) arg5.view (Rect.unit (s := S32x1408) ![os, 0] S1x1408.size inbs).toLoadRect (harg5.unread x3))) (View.readAt (Elt Ideal) arg2.view (Rect.unit (s := S512x4096) ![0, ox] S512x128.size inbx).toLoadRect (harg2.unread x0))
        (View.readAt (Elt Ideal) arg3.view (Rect.unit (s := S512x1408) ![oq', 0] S16x1408.size inbq').toLoadRect (harg3.unread x1)) (View.readAt (Elt Ideal) arg4.view (Rect.unit (s := S32x1408) ![oz', 0] S1x1408.size inbz').toLoadRect (harg4.unread x2)) (View.readAt (Elt Ideal) arg5.view (Rect.unit (s := S32x1408) ![os', 0] S1x1408.size inbs').toLoadRect (harg5.unread x3)) (View.readAt (Elt Ideal) arg2.view (Rect.unit (s := S512x4096) ![0, ox'] S512x128.size inbx').toLoadRect (harg2.unread x0)) (ix2 r cc)
      = chunked (term x0 x1 x2 x3 r cc) (n + 2) := by
  subst h0 h0'
  rw [acc2_apply, hacc, show oz + 2 = (oz + 1) + 1 from rfl, chunked_succ, chunked_succ]
  refine congrArg₂ (· + ·) (congrArg₂ (· + ·) rfl ?_) ?_
  · exact group_sum arg2 harg2 x0 x1 x2 x3 r cc oz ox (by omega) h4 inbx _
      (fun k y hy0 hy1 => wdRaw_entry arg3 harg3 arg4 harg4 arg5 harg5 x1 x2 x3 oq oz os inbq inbz inbs (by omega) h1 h3 k cc y hy0 hy1)
  · exact group_sum arg2 harg2 x0 x1 x2 x3 r cc (oz + 1) ox' hn h4' inbx' _
      (fun k y hy0 hy1 => wdRaw_entry arg3 harg3 arg4 harg4 arg5 harg5 x1 x2 x3 oq' (oz + 1) os' inbq' inbz' inbs' hn h1' h3' k cc y hy0 hy1)

end Cert.KernelIdeal.Hand

end
-- ==== Proof.Ideal.CaseValue.lean ====
/-
  What each kind of point leaves, at the exact instance: a filling point leaves the column tile's dequantised
  weights in the scratch and the product of the row block with them in the output's buffer; a reusing point
  leaves the product of the row block with whatever the scratch holds.
-/
import proofs.«415117_j28973849379104_3_alg».proof.Proof.Ideal.Steps

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.Sem
open Cert.KernelIdeal Cert.KernelIdeal.Gen QuantSpec

theorem zero_off2 : (![0, 0] : Fin 2 → ℕ) = fun _ => 0 := by
  funext a; fin_cases a <;> rfl

/-- A reusing point: the product with the scratch's contents. -/
theorem outReuse_eq (c : Dev nD) (i : grid0.Coords) (arg2 : Memref sig .tc .vmem S512x4096 .bf16) (harg2 : arg2.IsWhole) (arg3 : Memref sig .tc .vmem S512x1408 .i32) (harg3 : arg3.IsWhole) (arg4 : Memref sig .tc .vmem S32x1408 .i32) (harg4 : arg4.IsWhole) (arg5 : Memref sig .tc .vmem S32x1408 .f32) (harg5 : arg5.IsWhole) (arg6 : Memref sig .tc .vmem S512x1408 .f32) (harg6 : arg6.IsWhole) (arg7 : Memref sig .tc .vmem S4096x1408 .bf16) (harg7 : arg7.IsWhole)
    (hc0 : ¬ k0_cond1 i = 1#1) (hc1 : k0_cond2 i = 1#1)
    (x0 : Vec Ideal S512x4096 .bf16) (xs : Vec Ideal S4096x1408 .bf16) :
    outReuse (F := Ideal) c i arg2 harg2 arg3 harg3 arg4 harg4 arg5 harg5 arg6 harg6 arg7 harg7 hc0 hc1 x0 xs = prodMat 512 1408 x0 xs := by
  unfold outReuse
  rw [View.read_writes_eq_canon _ _ _ (coverOutReuse c i arg2 harg2 arg3 harg3 arg4 harg4 arg5 harg5 arg6 harg6 arg7 harg7 hc0 hc1 x0 xs)]
  unfold runReuse
  dsimp only
  rw [View.canon_unit_zero zero_off2]
  funext y
  obtain ⟨r, cc, rfl⟩ : ∃ (r : Fin 512) (cc : Fin 1408), y = ix2 r cc := ⟨y 0, y 1, eq_ix2 y⟩
  rw [full_apply]
  unfold prodMat
  refine Finset.sum_congr rfl fun k _ => ?_
  refine congrArg₂ (· * ·) ?_ ?_
  · exact readAt_unit arg2 harg2 x0 _ _ _ _ _ (fun a => by
      match a with
      | ⟨0, _⟩ => show r.val = 0 + r.val; omega
      | ⟨1, _⟩ => show k.val = 0 + k.val; omega)
  · exact readAt_unit arg7 harg7 xs _ _ _ _ _ (fun a => by
      match a with
      | ⟨0, _⟩ => show k.val = 0 + k.val; omega
      | ⟨1, _⟩ => show cc.val = 0 + cc.val; omega)

set_option maxHeartbeats 4000000 in
/-- A filling point leaves the column tile's dequantised weights in the scratch. -/
theorem wbFill_eq (c : Dev nD) (i : grid0.Coords) (arg2 : Memref sig .tc .vmem S512x4096 .bf16) (harg2 : arg2.IsWhole) (arg3 : Memref sig .tc .vmem S512x1408 .i32) (harg3 : arg3.IsWhole) (arg4 : Memref sig .tc .vmem S32x1408 .i32) (harg4 : arg4.IsWhole) (arg5 : Memref sig .tc .vmem S32x1408 .f32) (harg5 : arg5.IsWhole) (arg6 : Memref sig .tc .vmem S512x1408 .f32) (harg6 : arg6.IsWhole) (arg7 : Memref sig .tc .vmem S4096x1408 .bf16) (harg7 : arg7.IsWhole)
    (hc0 : k0_cond1 i = 1#1) (hc1 : ¬ k0_cond2 i = 1#1)
    (x0 : Vec Ideal S512x4096 .bf16) (x1 : Vec Ideal S512x1408 .i32) (x2 : Vec Ideal S32x1408 .i32) (x3 : Vec Ideal S32x1408 .f32) :
    wbFill (F := Ideal) c i arg2 harg2 arg3 harg3 arg4 harg4 arg5 harg5 arg6 harg6 arg7 harg7 hc0 hc1 x0 x1 x2 x3 = Wn 1408 x1 x2 x3 := by
  unfold wbFill
  rw [View.read_writes_eq_canon _ _ _ (coverWbFill c i arg2 harg2 arg3 harg3 arg4 harg4 arg5 harg5 arg6 harg6 arg7 harg7 hc0 hc1 x0 x1 x2 x3)]
  funext y
  refine View.canon_apply_of_pieces (Wn 1408 x1 x2 x3) _ ?_ y (coverWbFill c i arg2 harg2 arg3 harg3 arg4 harg4 arg5 harg5 arg6 harg6 arg7 harg7 hc0 hc1 x0 x1 x2 x3 y)
  unfold runFill
  dsimp only
  sl_unfold_run_names
  simp only [pay1_eq, pay2_eq, pay3_eq, pay7_eq, pay11_eq, pay14_eq, pay15_eq, pay16_eq, pay19_eq, pay20_eq, pay21_eq, pay22_eq, pay23_eq, pay24_eq, pay25_eq, pay26_eq, pay27_eq, pay28_eq, pay29_eq, pay30_eq, pay31_eq, pay32_eq, pay33_eq, pay34_eq, pay35_eq, pay36_eq, pay37_eq, pay38_eq, pay39_eq, pay40_eq, pay41_eq, pay42_eq, pay43_eq, pay44_eq, pay45_eq, pay46_eq, pay47_eq, pay48_eq, pay49_eq, pay50_eq, pay51_eq, pay52_eq, pay53_eq, pay54_eq, pay55_eq, pay56_eq, pay57_eq, pay58_eq, pay59_eq, pay60_eq, pay61_eq, pay62_eq, pay63_eq, pay64_eq, pay65_eq, pay66_eq, pay67_eq, pay68_eq, pay69_eq, pay70_eq, pay71_eq, pay72_eq, pay73_eq, pay74_eq, pay75_eq, pay76_eq, pay77_eq, pay78_eq, pay79_eq, pay80_eq, pay81_eq, pay82_eq, pay83_eq, pay84_eq, pay85_eq, pay86_eq, pay87_eq, pay88_eq, pay89_eq, pay90_eq, pay91_eq, pay92_eq, pay93_eq, pay94_eq, pay95_eq, pay96_eq, pay97_eq, pay98_eq, pay99_eq]
  intro p hp
  simp only [List.mem_cons, List.not_mem_nil, or_false] at hp
  repeat' (rcases hp with rfl | hp)
  all_goals (try subst hp)
  all_goals
    dsimp only
    intro x
    first
      | exact slabRaw arg3 harg3 arg4 harg4 arg5 harg5 x1 x2 x3 _ _ _ _ _ _ _ _ (by decide) (by decide) (by decide) (by decide) x
      | exact slabNib arg3 harg3 arg4 harg4 arg5 harg5 x1 x2 x3 _ _ _ _ _ _ _ _ (by decide) (by decide) (by decide) (by decide) x
      | exact slabNib0 arg3 harg3 arg4 harg4 arg5 harg5 x1 x2 x3 _ _ _ _ _ _ _ _ (by decide) (by decide) (by decide) (by decide) x
      | exact slabRaw0 arg3 harg3 arg4 harg4 arg5 harg5 x1 x2 x3 _ _ _ _ _ _ _ _ (by decide) (by decide) (by decide) (by decide) x

set_option maxHeartbeats 4000000 in
/-- A filling point leaves the product of the row block with those weights in the output's buffer. -/
theorem outFill_eq (c : Dev nD) (i : grid0.Coords) (arg2 : Memref sig .tc .vmem S512x4096 .bf16) (harg2 : arg2.IsWhole) (arg3 : Memref sig .tc .vmem S512x1408 .i32) (harg3 : arg3.IsWhole) (arg4 : Memref sig .tc .vmem S32x1408 .i32) (harg4 : arg4.IsWhole) (arg5 : Memref sig .tc .vmem S32x1408 .f32) (harg5 : arg5.IsWhole) (arg6 : Memref sig .tc .vmem S512x1408 .f32) (harg6 : arg6.IsWhole) (arg7 : Memref sig .tc .vmem S4096x1408 .bf16) (harg7 : arg7.IsWhole)
    (hc0 : k0_cond1 i = 1#1) (hc1 : ¬ k0_cond2 i = 1#1)
    (x0 : Vec Ideal S512x4096 .bf16) (x1 : Vec Ideal S512x1408 .i32) (x2 : Vec Ideal S32x1408 .i32) (x3 : Vec Ideal S32x1408 .f32) :
    outFill (F := Ideal) c i arg2 harg2 arg3 harg3 arg4 harg4 arg5 harg5 arg6 harg6 arg7 harg7 hc0 hc1 x0 x1 x2 x3 = prodMat 512 1408 x0 (Wn 1408 x1 x2 x3) := by
  unfold outFill
  rw [View.read_writes_eq_canon _ _ _ (coverOutFill c i arg2 harg2 arg3 harg3 arg4 harg4 arg5 harg5 arg6 harg6 arg7 harg7 hc0 hc1 x0 x1 x2 x3)]
  unfold runFill
  dsimp only
  rw [View.canon_unit_zero zero_off2]
  funext y
  obtain ⟨r, cc, rfl⟩ : ∃ (r : Fin 512) (cc : Fin 1408), y = ix2 r cc := ⟨y 0, y 1, eq_ix2 y⟩
  rw [← sum_term]
  sl_unfold_run_names
  simp only [pay1_eq, pay2_eq, pay3_eq, pay7_eq, pay11_eq, pay14_eq, pay15_eq, pay16_eq, pay19_eq, pay20_eq, pay21_eq, pay22_eq, pay23_eq, pay24_eq, pay25_eq, pay26_eq, pay27_eq, pay28_eq, pay29_eq, pay30_eq, pay31_eq, pay32_eq, pay33_eq, pay34_eq, pay35_eq, pay36_eq, pay37_eq, pay38_eq, pay39_eq, pay40_eq, pay41_eq, pay42_eq, pay43_eq, pay44_eq, pay45_eq, pay46_eq, pay47_eq, pay48_eq, pay49_eq, pay50_eq, pay51_eq, pay52_eq, pay53_eq, pay54_eq, pay55_eq, pay56_eq, pay57_eq, pay58_eq, pay59_eq, pay60_eq, pay61_eq, pay62_eq, pay63_eq, pay64_eq, pay65_eq, pay66_eq, pay67_eq, pay68_eq, pay69_eq, pay70_eq, pay71_eq, pay72_eq, pay73_eq, pay74_eq, pay75_eq, pay76_eq, pay77_eq, pay78_eq, pay79_eq, pay80_eq, pay81_eq, pay82_eq, pay83_eq, pay84_eq, pay85_eq, pay86_eq, pay87_eq, pay88_eq, pay89_eq, pay90_eq, pay91_eq, pay92_eq, pay93_eq, pay94_eq, pay95_eq, pay96_eq, pay97_eq, pay98_eq, pay99_eq]
  repeat (first
    | exact step0 arg2 harg2 arg3 harg3 arg4 harg4 arg5 harg5 x0 x1 x2 x3 r cc _ _ _ _ _ _ _ _ (by decide) (by decide) (by decide) (by decide)
    | refine stepNib arg2 harg2 arg3 harg3 arg4 harg4 arg5 harg5 x0 x1 x2 x3 r cc _ _ ?_ _ _ _ _ _ _ _ _ (by decide) (by decide) (by decide) (by decide) (by decide)
    | refine stepNib0 arg2 harg2 arg3 harg3 arg4 harg4 arg5 harg5 x0 x1 x2 x3 r cc _ _ ?_ _ _ _ _ _ _ _ _ (by decide) (by decide) (by decide) (by decide) (by decide)
    | refine step2 arg2 harg2 arg3 harg3 arg4 harg4 arg5 harg5 x0 x1 x2 x3 r cc _ _ ?_ _ _ _ _ _ _ _ _ _ _ _ _ _ _ _ _ (by decide) (by decide) (by decide) (by decide) (by decide) (by decide) (by decide) (by decide) (by decide))

end Cert.KernelIdeal.Hand

end
-- ==== Proof.Ideal.ArrayValue.lean ====
/-
  From the per-point blocks to the whole output array, at the exact instance.
  Point t of the grid is column tile t / 16 and row tile t % 16. Its row block is rows 512 (t % 16) … of the
  activations; its packed-weight, zero-point and scale blocks are columns 1408 (t / 16) … of those arrays (so
  they do not change inside a column tile); its output block is rows 512 (t % 16) …, columns 1408 (t / 16) … of
  the output. If every point leaves in its output block the product of its row block with the dequantised
  weights of its column blocks, the blocks being restrictions of whole arrays and covering the output, the
  output array ends at the product of the activations with the dequantised weights of the whole (padded)
  arrays.
-/
import proofs.«415117_j28973849379104_3_alg».proof.Proof.Ideal.Frame
import proofs.«415117_j28973849379104_3_alg».proof.Proof.Spec
import Idealize.ShloMosaic.Lib.ValueIdx
import Idealize.ShloMosaic.Lib.Pipeline.Value

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.Sem
open Cert.KernelIdeal Cert.KernelIdeal.Gen QuantSpec

variable (m : (ℓ : Loc nD τ sig) → Buf (Elt Ideal) ℓ)

/-- The block indices at point t, decided once over the 128 points of the grid: the row block is block t % 16 of
    the activations' rows; the three weight-side blocks are block t / 16 of their arrays' columns; the output block is
    block (t % 16, t / 16). -/
theorem tile_index : ∀ t : Fin cfg0.N,
    win0_0.index t (0 : Fin 2) = t.val % 16 ∧ win0_0.index t (1 : Fin 2) = 0
    ∧ win0_1.index t (0 : Fin 2) = 0 ∧ win0_1.index t (1 : Fin 2) = t.val / 16
    ∧ win0_2.index t (0 : Fin 2) = 0 ∧ win0_2.index t (1 : Fin 2) = t.val / 16
    ∧ win0_3.index t (0 : Fin 2) = 0 ∧ win0_3.index t (1 : Fin 2) = t.val / 16
    ∧ win0_4.index t (0 : Fin 2) = t.val % 16 ∧ win0_4.index t (1 : Fin 2) = t.val / 16 :=
  (by decide +kernel : ∀ t : Fin grid0.N, _)

/-- The row block at point t, read off the activations. -/
theorem blk0_apply (c : Dev nD) (t : Fin cfg0.N) (r : Fin 512) (k : Fin 4096) :
    (iblk m c 0 t : S512x4096.Idx → EReal) (ix2 r k)
      = (V m c main_v15 : S8192x4096.Idx → EReal) (ix2 (⟨512 * (t.val % 16) + r.val, by have := r.isLt; omega⟩ : Fin 8192) k) := by
  obtain ⟨e0, e1, -⟩ := tile_index t
  unfold iblk
  show V m c main_v15 (((cfg0.win 0).blk t).view.emb (ix2 r k)) = V m c main_v15 _
  congr 1
  funext a
  apply Fin.ext
  match a with
  | ⟨0, _⟩ => show win0_0.index t (0 : Fin 2) * 512 + 1 * r.val = 512 * (t.val % 16) + r.val; rw [e0]; omega
  | ⟨1, _⟩ => show win0_0.index t (1 : Fin 2) * 4096 + 1 * k.val = k.val; rw [e1]; omega

/-- The packed-weight block at point t. -/
theorem blk1_apply (c : Dev nD) (t : Fin cfg0.N) (p : Fin 512) (cc : Fin 1408) :
    (iblk m c 1 t : S512x1408.Idx → BitVec 32) (ix2 p cc)
      = (V m c main_v11 : S512x11264.Idx → BitVec 32) (ix2 p (⟨1408 * (t.val / 16) + cc.val, by have := cc.isLt; have := lt_of_lt_of_eq t.isLt (show cfg0.N = 128 from N_0); omega⟩ : Fin 11264)) := by
  obtain ⟨-, -, e0, e1, -⟩ := tile_index t
  unfold iblk
  show V m c main_v11 (((cfg0.win 1).blk t).view.emb (ix2 p cc)) = V m c main_v11 _
  congr 1
  funext a
  apply Fin.ext
  match a with
  | ⟨0, _⟩ => show win0_1.index t (0 : Fin 2) * 512 + 1 * p.val = p.val; rw [e0]; omega
  | ⟨1, _⟩ => show win0_1.index t (1 : Fin 2) * 1408 + 1 * cc.val = 1408 * (t.val / 16) + cc.val; rw [e1]; omega

/-- The zero-point block at point t. -/
theorem blk2_apply (c : Dev nD) (t : Fin cfg0.N) (g : Fin 32) (cc : Fin 1408) :
    (iblk m c 2 t : S32x1408.Idx → BitVec 32) (ix2 g cc)
      = (V m c main_v12 : S32x11264.Idx → BitVec 32) (ix2 g (⟨1408 * (t.val / 16) + cc.val, by have := cc.isLt; have := lt_of_lt_of_eq t.isLt (show cfg0.N = 128 from N_0); omega⟩ : Fin 11264)) := by
  obtain ⟨-, -, -, -, e0, e1, -⟩ := tile_index t
  unfold iblk
  show V m c main_v12 (((cfg0.win 2).blk t).view.emb (ix2 g cc)) = V m c main_v12 _
  congr 1
  funext a
  apply Fin.ext
  match a with
  | ⟨0, _⟩ => show win0_2.index t (0 : Fin 2) * 32 + 1 * g.val = g.val; rw [e0]; omega
  | ⟨1, _⟩ => show win0_2.index t (1 : Fin 2) * 1408 + 1 * cc.val = 1408 * (t.val / 16) + cc.val; rw [e1]; omega

/-- The scale block at point t. -/
theorem blk3_apply (c : Dev nD) (t : Fin cfg0.N) (g : Fin 32) (cc : Fin 1408) :
    (iblk m c 3 t : S32x1408.Idx → EReal) (ix2 g cc)
      = (V m c main_v13 : S32x11264.Idx → EReal) (ix2 g (⟨1408 * (t.val / 16) + cc.val, by have := cc.isLt; have := lt_of_lt_of_eq t.isLt (show cfg0.N = 128 from N_0); omega⟩ : Fin 11264)) := by
  obtain ⟨-, -, -, -, -, -, e0, e1, -⟩ := tile_index t
  unfold iblk
  show V m c main_v13 (((cfg0.win 3).blk t).view.emb (ix2 g cc)) = V m c main_v13 _
  congr 1
  funext a
  apply Fin.ext
  match a with
  | ⟨0, _⟩ => show win0_3.index t (0 : Fin 2) * 32 + 1 * g.val = g.val; rw [e0]; omega
  | ⟨1, _⟩ => show win0_3.index t (1 : Fin 2) * 1408 + 1 * cc.val = 1408 * (t.val / 16) + cc.val; rw [e1]; omega

/-- Inside a column tile the three weight-side blocks do not change from one point to the next. -/
theorem blk1_same (c : Dev nD) (t : Fin cfg0.N) (h0 : ¬ t.val % 16 = 0) :
    (iblk m c 1 t : S512x1408.Idx → BitVec 32) = (iblk m c 1 (⟨t.val - 1, Nat.lt_of_le_of_lt (Nat.sub_le _ _) t.isLt⟩ : Fin cfg0.N) : S512x1408.Idx → BitVec 32) := by
  funext y
  obtain ⟨p, cc, rfl⟩ : ∃ (p : Fin 512) (cc : Fin 1408), y = ix2 p cc := ⟨y 0, y 1, eq_ix2 y⟩
  rw [blk1_apply, blk1_apply]
  -- the point before lies in the same column tile
  refine congrArg (V m c main_v11 : S512x11264.Idx → BitVec 32) (congrArg (ix2 p) (Fin.ext ?_))
  show 1408 * (t.val / 16) + cc.val = 1408 * ((t.val - 1) / 16) + cc.val
  omega
theorem blk2_same (c : Dev nD) (t : Fin cfg0.N) (h0 : ¬ t.val % 16 = 0) :
    (iblk m c 2 t : S32x1408.Idx → BitVec 32) = (iblk m c 2 (⟨t.val - 1, Nat.lt_of_le_of_lt (Nat.sub_le _ _) t.isLt⟩ : Fin cfg0.N) : S32x1408.Idx → BitVec 32) := by
  funext y
  obtain ⟨p, cc, rfl⟩ : ∃ (p : Fin 32) (cc : Fin 1408), y = ix2 p cc := ⟨y 0, y 1, eq_ix2 y⟩
  rw [blk2_apply, blk2_apply]
  -- the point before lies in the same column tile
  refine congrArg (V m c main_v12 : S32x11264.Idx → BitVec 32) (congrArg (ix2 p) (Fin.ext ?_))
  show 1408 * (t.val / 16) + cc.val = 1408 * ((t.val - 1) / 16) + cc.val
  omega
theorem blk3_same (c : Dev nD) (t : Fin cfg0.N) (h0 : ¬ t.val % 16 = 0) :
    (iblk m c 3 t : S32x1408.Idx → EReal) = (iblk m c 3 (⟨t.val - 1, Nat.lt_of_le_of_lt (Nat.sub_le _ _) t.isLt⟩ : Fin cfg0.N) : S32x1408.Idx → EReal) := by
  funext y
  obtain ⟨p, cc, rfl⟩ : ∃ (p : Fin 32) (cc : Fin 1408), y = ix2 p cc := ⟨y 0, y 1, eq_ix2 y⟩
  rw [blk3_apply, blk3_apply]
  -- the point before lies in the same column tile
  refine congrArg (V m c main_v13 : S32x11264.Idx → EReal) (congrArg (ix2 p) (Fin.ext ?_))
  show 1408 * (t.val / 16) + cc.val = 1408 * ((t.val - 1) / 16) + cc.val
  omega

/-- Where local index (r, cc) of point t's output block sits in the output array. -/
theorem out_emb (t : Fin cfg0.N) (r : Fin 512) (cc : Fin 1408) :
    (((cfg0.win 4).blk t).view.emb (ix2 r cc) : S8192x11264.Idx)
      = ix2 (⟨512 * (t.val % 16) + r.val, by have := r.isLt; omega⟩ : Fin 8192)
          (⟨1408 * (t.val / 16) + cc.val, by have := cc.isLt; have := lt_of_lt_of_eq t.isLt (show cfg0.N = 128 from N_0); omega⟩ : Fin 11264) := by
  obtain ⟨-, -, -, -, -, -, -, -, e0, e1⟩ := tile_index t
  funext a
  apply Fin.ext
  match a with
  | ⟨0, _⟩ => show win0_4.index t (0 : Fin 2) * 512 + 1 * r.val = 512 * (t.val % 16) + r.val; rw [e0]; omega
  | ⟨1, _⟩ => show win0_4.index t (1 : Fin 2) * 1408 + 1 * cc.val = 1408 * (t.val / 16) + cc.val; rw [e1]; omega

/-- The dequantised weights of point t's column blocks are those of the whole arrays at the tile's columns: the row
    index k is the same on both sides, local column cc is column 1408 (t / 16) + cc. -/
theorem dequant_tile (c : Dev nD) (t : Fin cfg0.N) (k : Fin 4096) (cc : Fin 1408) :
    Wn 1408 (iblk m c 1 t) (iblk m c 2 t) (iblk m c 3 t) (ix2 k cc)
      = Wn 11264 (V m c main_v11) (V m c main_v12) (V m c main_v13)
          (ix2 k (⟨1408 * (t.val / 16) + cc.val, by have := cc.isLt; have := lt_of_lt_of_eq t.isLt (show cfg0.N = 128 from N_0); omega⟩ : Fin 11264)) := by
  unfold Wn
  rw [blk1_apply, blk2_apply, blk3_apply]

/-- What point t writes back is block t of the product of the activations with the dequantised weights. -/
theorem flushed_eq (c : Dev nD)
    (hout : ∀ t : Fin cfg0.N, (outsAt (F := Ideal) m c t.val t.isLt).1
      = prodMat 512 1408 (iblk m c 0 t) (Wn 1408 (iblk m c 1 t) (iblk m c 2 t) (iblk m c 3 t)))
    (t : Fin cfg0.N) :
    (dats (F := Ideal) m 0 c).flushed 4 t = ((cfg0.win 4).blk t).view.read (Elt Ideal)
      (prodMat 8192 11264 (V m c main_v15) (Wn 11264 (V m c main_v11) (V m c main_v12) (V m c main_v13))) := by
  show (cfg0.win 4).cut (grid0.coords t) ((dats (F := Ideal) m 0 c).after 4 t) = _
  rw [after4, hout t]
  funext y
  obtain ⟨r, cc, rfl⟩ : ∃ (r : Fin 512) (cc : Fin 1408), y = ix2 r cc := ⟨y 0, y 1, eq_ix2 y⟩
  show prodMat 512 1408 (iblk m c 0 t) (Wn 1408 (iblk m c 1 t) (iblk m c 2 t) (iblk m c 3 t)) (ix2 r cc)
    = prodMat 8192 11264 (V m c main_v15) (Wn 11264 (V m c main_v11) (V m c main_v12) (V m c main_v13))
        (((cfg0.win 4).blk t).view.emb (ix2 r cc))
  rw [out_emb]
  unfold prodMat
  refine Finset.sum_congr rfl fun k _ => ?_
  -- row r of the block is row 512 (t % 16) + r of the activations; the weights as in the tile lemma
  exact congrArg₂ (fun a b : EReal => a * b) (blk0_apply m c t r k) (dequant_tile m c t k cc)

/-- An index of the output array is in point t's block iff each coordinate is in the block's range on its axis. -/
theorem mem_out_blk (t : Fin cfg0.N) (i : S8192x11264.Idx) :
    i ∈ ((cfg0.win 4).blk t).view.set ↔ ∀ a : Fin 2, win0_4.index t a * S512x1408.size a ≤ (i a).val ∧ (i a).val < win0_4.index t a * S512x1408.size a + S512x1408.size a := by
  show i ∈ ((View.whole main_v16).slice (win0_4.rect t)).set ↔ _
  rw [View.set_slice_whole, Rect.mem_set_unit]
  exact Iff.rfl

/-- Every index (R, C) of the output array is in the block of the point 16 (C / 1408) + R / 512. -/
theorem out_cover (i : S8192x11264.Idx) :
    ∃ t : Fin cfg0.N, (cfg0.win 4).flush t = true ∧ i ∈ ((cfg0.win 4).blk t).view.set := by
  have hN : cfg0.N = 128 := N_0
  have hi0 : (i 0).val < 8192 := (i 0).isLt
  have hi1 : (i 1).val < 11264 := (i 1).isLt
  obtain ⟨t, ht⟩ : ∃ t : Fin cfg0.N, t.val = 16 * ((i 1).val / 1408) + (i 0).val / 512 := ⟨⟨_, by omega⟩, rfl⟩
  refine ⟨t, flush0_4 t, ?_⟩
  rw [mem_out_blk]
  obtain ⟨-, -, -, -, -, -, -, -, e0, e1⟩ := tile_index t
  intro a
  match a with
  | ⟨0, _⟩ =>
    show win0_4.index t (0 : Fin 2) * 512 ≤ (i 0).val ∧ (i 0).val < win0_4.index t (0 : Fin 2) * 512 + 512
    rw [e0]; omega
  | ⟨1, _⟩ =>
    show win0_4.index t (1 : Fin 2) * 1408 ≤ (i 1).val ∧ (i 1).val < win0_4.index t (1 : Fin 2) * 1408 + 1408
    rw [e1]; omega

/-- The output array after the launch, from what every point leaves in its output block. -/
theorem final_array (c : Dev nD)
    (hout : ∀ t : Fin cfg0.N, (outsAt (F := Ideal) m c t.val t.isLt).1
      = prodMat 512 1408 (iblk m c 0 t) (Wn 1408 (iblk m c 1 t) (iblk m c 2 t) (iblk m c 3 t))) :
    ((dats (F := Ideal) m 0 c).arrAt 4 cfg0.N : S8192x11264.Idx → EReal)
      = prodMat 8192 11264 (V m c main_v15) (Wn 11264 (V m c main_v11) (V m c main_v12) (V m c main_v13)) := by
  exact (dats (F := Ideal) m 0 c).arrAt_eq_of_cover 4
    (prodMat 8192 11264 (V m c main_v15) (Wn 11264 (V m c main_v11) (V m c main_v12) (V m c main_v13)))
    (fun t _ => flushed_eq m c hout t) out_cover

end Cert.KernelIdeal.Hand

end
-- ==== Proof.Ideal.PointValue.lean ====
/-
  Point by point, at the exact instance: after every point the scratch holds the dequantised weights of the
  point's column blocks, and the output's buffer the product of the point's row block with them. At a filling
  point both are what the filling body leaves; at any other point the scratch is as the point before left it,
  whose column blocks are this point's (inside a column tile they do not change), and the output's buffer is
  the product with it.
-/
import proofs.«415117_j28973849379104_3_alg».proof.Proof.Ideal.CaseValue
import proofs.«415117_j28973849379104_3_alg».proof.Proof.Ideal.ArrayValue

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.Sem
open Cert.KernelIdeal Cert.KernelIdeal.Gen QuantSpec

variable (m : (ℓ : Loc nD τ sig) → Buf (Elt Ideal) ℓ)

/-- The column tile's weights at point `t`, from the point's blocks. -/
abbrev tileW (c : Dev nD) (t : Fin cfg0.N) : (⟨2, ![4096, 1408]⟩ : Shape).Idx → EReal :=
  Wn 1408 (iblk m c 1 t) (iblk m c 2 t) (iblk m c 3 t)

theorem tileW_prev (c : Dev nD) (t : Fin cfg0.N) (h0 : ¬ t.val % 16 = 0) :
    tileW m c (⟨t.val - 1, Nat.lt_of_le_of_lt (Nat.sub_le _ _) t.isLt⟩ : Fin cfg0.N) = tileW m c t := by
  unfold tileW
  rw [← blk1_same m c t h0, ← blk2_same m c t h0, ← blk3_same m c t h0]

set_option maxHeartbeats 2000000 in
/-- After point `n`: the scratch and the output's buffer. -/
theorem point_value (c : Dev nD) (n : ℕ) : ∀ (hn : n < cfg0.N),
    (outsAt (F := Ideal) m c n hn).2 = tileW m c ⟨n, hn⟩
    ∧ (outsAt (F := Ideal) m c n hn).1 = prodMat 512 1408 (iblk m c 0 ⟨n, hn⟩) (tileW m c ⟨n, hn⟩) := by
  induction n with
  | zero =>
    intro hn
    have h0 : (⟨0, hn⟩ : Fin cfg0.N).val % 16 = 0 := Nat.zero_mod _
    rw [outsAt_fill m c ⟨0, hn⟩ h0]
    dsimp only
    exact ⟨wbFill_eq c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) wbM (Memref.isWhole_whole _) ((fill_iff ⟨0, hn⟩).mpr h0) (fun h => (reuse_iff ⟨0, hn⟩).mp h h0)
        (iblk m c 0 ⟨0, hn⟩) (iblk m c 1 ⟨0, hn⟩) (iblk m c 2 ⟨0, hn⟩) (iblk m c 3 ⟨0, hn⟩),
      outFill_eq c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) wbM (Memref.isWhole_whole _) ((fill_iff ⟨0, hn⟩).mpr h0) (fun h => (reuse_iff ⟨0, hn⟩).mp h h0)
        (iblk m c 0 ⟨0, hn⟩) (iblk m c 1 ⟨0, hn⟩) (iblk m c 2 ⟨0, hn⟩) (iblk m c 3 ⟨0, hn⟩)⟩
  | succ k ih =>
    intro hn
    by_cases h0 : (⟨k + 1, hn⟩ : Fin cfg0.N).val % 16 = 0
    · rw [outsAt_fill m c ⟨k + 1, hn⟩ h0]
      dsimp only
      exact ⟨wbFill_eq c (grid0.coords ⟨k + 1, hn⟩) (ms0 ⟨k + 1, hn⟩) (hs0 ⟨k + 1, hn⟩) (ms1 ⟨k + 1, hn⟩) (hs1 ⟨k + 1, hn⟩) (ms2 ⟨k + 1, hn⟩) (hs2 ⟨k + 1, hn⟩) (ms3 ⟨k + 1, hn⟩) (hs3 ⟨k + 1, hn⟩) (ms4 ⟨k + 1, hn⟩) (hs4 ⟨k + 1, hn⟩) wbM (Memref.isWhole_whole _) ((fill_iff ⟨k + 1, hn⟩).mpr h0) (fun h => (reuse_iff ⟨k + 1, hn⟩).mp h h0)
          (iblk m c 0 ⟨k + 1, hn⟩) (iblk m c 1 ⟨k + 1, hn⟩) (iblk m c 2 ⟨k + 1, hn⟩) (iblk m c 3 ⟨k + 1, hn⟩),
        outFill_eq c (grid0.coords ⟨k + 1, hn⟩) (ms0 ⟨k + 1, hn⟩) (hs0 ⟨k + 1, hn⟩) (ms1 ⟨k + 1, hn⟩) (hs1 ⟨k + 1, hn⟩) (ms2 ⟨k + 1, hn⟩) (hs2 ⟨k + 1, hn⟩) (ms3 ⟨k + 1, hn⟩) (hs3 ⟨k + 1, hn⟩) (ms4 ⟨k + 1, hn⟩) (hs4 ⟨k + 1, hn⟩) wbM (Memref.isWhole_whole _) ((fill_iff ⟨k + 1, hn⟩).mpr h0) (fun h => (reuse_iff ⟨k + 1, hn⟩).mp h h0)
          (iblk m c 0 ⟨k + 1, hn⟩) (iblk m c 1 ⟨k + 1, hn⟩) (iblk m c 2 ⟨k + 1, hn⟩) (iblk m c 3 ⟨k + 1, hn⟩)⟩
    · have ihk := ih (Nat.lt_of_succ_lt hn)
      have hprev : (outsAt (F := Ideal) m c ((⟨k + 1, hn⟩ : Fin cfg0.N).val - 1) (Nat.lt_of_le_of_lt (Nat.sub_le _ _) (⟨k + 1, hn⟩ : Fin cfg0.N).isLt)).2
          = tileW m c ⟨k + 1, hn⟩ := by
        rw [← tileW_prev m c ⟨k + 1, hn⟩ h0]
        exact ihk.1
      rw [outsAt_reuse m c ⟨k + 1, hn⟩ h0]
      dsimp only
      refine ⟨hprev, ?_⟩
      rw [outReuse_eq c (grid0.coords ⟨k + 1, hn⟩) (ms0 ⟨k + 1, hn⟩) (hs0 ⟨k + 1, hn⟩) (ms1 ⟨k + 1, hn⟩) (hs1 ⟨k + 1, hn⟩) (ms2 ⟨k + 1, hn⟩) (hs2 ⟨k + 1, hn⟩) (ms3 ⟨k + 1, hn⟩) (hs3 ⟨k + 1, hn⟩) (ms4 ⟨k + 1, hn⟩) (hs4 ⟨k + 1, hn⟩) wbM (Memref.isWhole_whole _) (fun h => h0 ((fill_iff ⟨k + 1, hn⟩).mp h)) ((reuse_iff ⟨k + 1, hn⟩).mpr h0)
        (iblk m c 0 ⟨k + 1, hn⟩) _, hprev]

/-- What every point leaves in its output block: the hypothesis the array-level statement takes. -/
theorem out_at (c : Dev nD) (t : Fin cfg0.N) :
    (outsAt (F := Ideal) m c t.val t.isLt).1
      = prodMat 512 1408 (iblk m c 0 t) (Wn 1408 (iblk m c 1 t) (iblk m c 2 t) (iblk m c 3 t)) :=
  (point_value m c t.val t.isLt).2

end Cert.KernelIdeal.Hand

end
-- ==== Proof.Ideal.HostValue.lean ====
/-
  The host lines around the kernel launch, read at an index at the exact instance.
  Before the launch the program regroups the activations' leading two axes into rows (and narrows them, the
  identity here), pads the packed weights, the unpacked zero points and the scales with 256 more columns, and
  unpacks the zero points with the same operations the reference uses. After it, it keeps the first 11008
  columns and regroups the rows.
-/
import proofs.«415117_j28973849379104_3_alg».proof.Proof.Gen.KernelIdeal.Frame
import proofs.«415117_j28973849379104_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The activations as the launch finds them: row 2048 b + s of the 8192 is position (b, s). -/
theorem acts_apply (c : Dev nD) (b : Fin 4) (s : Fin 2048) (k : Fin 4096) :
    (V m c main_v15 : S8192x4096.Idx → EReal) (ix2 (⟨2048 * b.val + s.val, by have := b.isLt; have := s.isLt; omega⟩ : Fin 8192) k)
      = (m ((c : Thread nD τ).loc main_arg0) : S4x2048x4096.Idx → EReal) (ix3 b s k) := by
  -- the buffer holds the regrouped activations, narrowed
  have e : (V m c main_v15 : S8192x4096.Idx → EReal)
      = (truncf (F := Ideal) .bf16 (shapeCast S8192x4096 (m ((c : Thread nD τ).loc main_arg0) : S4x2048x4096.Idx → EReal)
          shapeCasts_S4x2048x4096_S8192x4096) bitsLt_bf16_f32 : S8192x4096.Idx → EReal) := by
    dsimp only [Gen.V, Gen.V0]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results
    rfl
  refine (congrFun e _).trans ?_
  -- narrowing is the identity over the extended reals; the regrouping keeps the row-major position
  refine (truncf_apply _ bitsLt_bf16_f32 _).trans ?_
  refine shapeCast_apply _ shapeCasts_S4x2048x4096_S8192x4096 _ (ix3 b s k) ?_
  rw [Shape.rowMajor_val_three, Shape.rowMajor_val_two]
  show (b.val * 2048 + s.val) * 4096 + k.val = (2048 * b.val + s.val) * 4096 + k.val
  omega

/-- The packed weights as the launch finds them, in the original columns. -/
theorem packed_apply (c : Dev nD) (p : Fin 512) (o : Fin 11008) :
    (V m c main_v11 : S512x11264.Idx → BitVec 32) (ix2 p (⟨o.val, by have := o.isLt; omega⟩ : Fin 11264))
      = (m ((c : Thread nD τ).loc main_arg1) : S512x11008.Idx → BitVec 32) (ix2 p o) := by
  -- the buffer holds the packed weights with 256 columns of the padding word appended
  have e : (V m c main_v11 : S512x11264.Idx → BitVec 32)
      = (pad S512x11264 ![0, 0] ![0, 256] ![0, 0] (m ((c : Thread nD τ).loc main_arg1) : S512x11008.Idx → BitVec 32)
          (constantI S_ 32 0#32 : S_.Idx → BitVec 32) pads_S512x11008_S512x11264_000_02560 h_S_ : S512x11264.Idx → BitVec 32) := by
    dsimp only [Gen.V, Gen.V0]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results
    rfl
  refine (congrFun e _).trans ?_
  -- a column below 11008 lies inside the operand: no low padding, no interior padding
  refine pad_apply_of_inside ![0, 0] ![0, 256] ![0, 0] _ _ pads_S512x11008_S512x11264_000_02560 h_S_ _ (ix2 p o) ?_
  intro a
  match a with
  | ⟨0, _⟩ => show p.val = 0 + p.val * (0 + 1); omega
  | ⟨1, _⟩ => show o.val = 0 + o.val * (0 + 1); omega

/-- The zero points as the launch finds them, in the original columns: the unpacked nibbles. -/
theorem zeros_apply (c : Dev nD) (g : Fin 32) (o : Fin 11008) :
    (V m c main_v12 : S32x11264.Idx → BitVec 32) (ix2 g (⟨o.val, by have := o.isLt; omega⟩ : Fin 11264))
      = QuantSpec.zq (m ((c : Thread nD τ).loc main_arg2) : S32x1376.Idx → BitVec 32) g o := by
  -- column o takes word o / 8 of its row and nibble o % 8 of that word
  have ho : o.val < 11008 := o.isLt
  have hq : o.val / 8 < 1376 := by omega
  have hr : o.val % 8 < 8 := by omega
  -- the buffer holds the unpacked nibbles, regrouped to 11008 columns, with 256 columns of the padding word appended
  have e : (V m c main_v12 : S32x11264.Idx → BitVec 32)
      = (pad S32x11264 ![0, 0] ![0, 256] ![0, 0]
          (shapeCast S32x11008
            (andi
              (Host.shrsi
                (broadcastInDim S32x1376x8 ![0, 1, 2] bcast_S32x1376x1_S32x1376x8_0_1_2
                  (broadcastInDim S32x1376x1 ![0, 1] bcast_S32x1376_S32x1376x1_0_1
                    (m ((c : Thread nD τ).loc main_arg2) : S32x1376.Idx → BitVec 32)))
                (broadcastInDim S32x1376x8 ![0, 1, 2] bcast_S1x1x8_S32x1376x8_0_1_2
                  (broadcastInDim S1x1x8 ![2] bcast_S8_S1x1x8_2
                    (muli (iotaInDim S8 32 0) (broadcastInDim S8 ![] bcast_S_S8 (constantI S_ 32 4#32))))))
              (broadcastInDim S32x1376x8 ![] bcast_S_S32x1376x8 (constantI S_ 32 15#32)))
            shapeCasts_S32x1376x8_S32x11008 : S32x11008.Idx → BitVec 32)
          (constantI S_ 32 0#32 : S_.Idx → BitVec 32) pads_S32x11008_S32x11264_000_02560 h_S_ : S32x11264.Idx → BitVec 32) := by
    dsimp only [Gen.V, Gen.V0]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results
    rfl
  refine (congrFun e _).trans ?_
  -- a column below 11008 lies inside the padded operand
  refine (pad_apply_of_inside ![0, 0] ![0, 256] ![0, 0] _ _ pads_S32x11008_S32x11264_000_02560 h_S_ _ (ix2 g o) ?_).trans ?_
  · intro a
    match a with
    | ⟨0, _⟩ => show g.val = 0 + g.val * (0 + 1); omega
    | ⟨1, _⟩ => show o.val = 0 + o.val * (0 + 1); omega
  -- the regrouping [32, 1376, 8] → [32, 11008] keeps the row-major position: (g, o / 8, o % 8) ↦ (g, o)
  refine (shapeCast_apply _ shapeCasts_S32x1376x8_S32x11008 (ix2 g o)
    (ix3 g (⟨o.val / 8, hq⟩ : Fin 1376) (⟨o.val % 8, hr⟩ : Fin 8)) ?_).trans ?_
  · rw [Shape.rowMajor_val_three, Shape.rowMajor_val_two]
    show (g.val * 1376 + o.val / 8) * 8 + o.val % 8 = g.val * 11008 + o.val
    omega
  -- the word: broadcast along a new unit axis, then along the eight nibbles
  have hw : broadcastInDim S32x1376x8 ![0, 1, 2] bcast_S32x1376x1_S32x1376x8_0_1_2
        (broadcastInDim S32x1376x1 ![0, 1] bcast_S32x1376_S32x1376x1_0_1
          (m ((c : Thread nD τ).loc main_arg2) : S32x1376.Idx → BitVec 32))
        (ix3 g (⟨o.val / 8, hq⟩ : Fin 1376) (⟨o.val % 8, hr⟩ : Fin 8))
      = (m ((c : Thread nD τ).loc main_arg2) : S32x1376.Idx → BitVec 32) (ix2 g (⟨o.val / 8, hq⟩ : Fin 1376)) := by
    refine (broadcastInDim_apply _ bcast_S32x1376x1_S32x1376x8_0_1_2 _ _
      (ix3 g (⟨o.val / 8, hq⟩ : Fin 1376) (⟨0, Nat.one_pos⟩ : Fin 1)) ?_).trans ?_
    · intro a
      match a with
      | ⟨0, _⟩ => show g.val = if (32 : Nat) = 1 then 0 else g.val; rw [if_neg (by decide)]
      | ⟨1, _⟩ => show o.val / 8 = if (1376 : Nat) = 1 then 0 else o.val / 8; rw [if_neg (by decide)]
      | ⟨2, _⟩ => show 0 = if (1 : Nat) = 1 then 0 else o.val % 8; rw [if_pos rfl]
    refine broadcastInDim_apply _ bcast_S32x1376_S32x1376x1_0_1 _ _ (ix2 g (⟨o.val / 8, hq⟩ : Fin 1376)) ?_
    intro a
    match a with
    | ⟨0, _⟩ => show g.val = if (32 : Nat) = 1 then 0 else g.val; rw [if_neg (by decide)]
    | ⟨1, _⟩ => show o.val / 8 = if (1376 : Nat) = 1 then 0 else o.val / 8; rw [if_neg (by decide)]
  -- the shift amount: the nibble's number times four, broadcast along the rows and the words
  have hs : broadcastInDim S32x1376x8 ![0, 1, 2] bcast_S1x1x8_S32x1376x8_0_1_2
        (broadcastInDim S1x1x8 ![2] bcast_S8_S1x1x8_2
          (muli (iotaInDim S8 32 0) (broadcastInDim S8 ![] bcast_S_S8 (constantI S_ 32 4#32))))
        (ix3 g (⟨o.val / 8, hq⟩ : Fin 1376) (⟨o.val % 8, hr⟩ : Fin 8))
      = QuantSpec.shiftOf (o.val % 8) := by
    refine (broadcastInDim_apply _ bcast_S1x1x8_S32x1376x8_0_1_2 _ _
      (ix3 (⟨0, Nat.one_pos⟩ : Fin 1) (⟨0, Nat.one_pos⟩ : Fin 1) (⟨o.val % 8, hr⟩ : Fin 8)) ?_).trans ?_
    · intro a
      match a with
      | ⟨0, _⟩ => show 0 = if (1 : Nat) = 1 then 0 else g.val; rw [if_pos rfl]
      | ⟨1, _⟩ => show 0 = if (1 : Nat) = 1 then 0 else o.val / 8; rw [if_pos rfl]
      | ⟨2, _⟩ => show o.val % 8 = if (8 : Nat) = 1 then 0 else o.val % 8; rw [if_neg (by decide)]
    refine (broadcastInDim_apply _ bcast_S8_S1x1x8_2 _ _ (ix1 (⟨o.val % 8, hr⟩ : Fin 8)) ?_).trans ?_
    · intro a
      match a with
      | ⟨0, _⟩ => show o.val % 8 = if (8 : Nat) = 1 then 0 else o.val % 8; rw [if_neg (by decide)]
    show IntOp.muli (BitVec.ofNat 32 (o.val % 8))
      (broadcastInDim S8 ![] bcast_S_S8 (constantI S_ 32 4#32) (ix1 (⟨o.val % 8, hr⟩ : Fin 8))) = _
    rw [broadcastInDim_apply _ bcast_S_S8 (constantI S_ 32 4#32) (ix1 (⟨o.val % 8, hr⟩ : Fin 8)) ix0 (fun a => a.elim0)]
    rfl
  -- the mask
  have hc : broadcastInDim S32x1376x8 ![] bcast_S_S32x1376x8 (constantI S_ 32 15#32)
        (ix3 g (⟨o.val / 8, hq⟩ : Fin 1376) (⟨o.val % 8, hr⟩ : Fin 8)) = 15#32 :=
    broadcastInDim_apply _ bcast_S_S32x1376x8 (constantI S_ 32 15#32) _ ix0 (fun a => a.elim0)
  -- shift right and mask, word by word: the nibble
  exact congrArg₂ IntOp.andi (congrArg₂ (IntOp.shrsi .host) hw hs) hc

/-- The scales as the launch finds them, in the original columns. -/
theorem scales_apply (c : Dev nD) (g : Fin 32) (o : Fin 11008) :
    (V m c main_v13 : S32x11264.Idx → EReal) (ix2 g (⟨o.val, by have := o.isLt; omega⟩ : Fin 11264))
      = (m ((c : Thread nD τ).loc main_arg3) : S32x11008.Idx → EReal) (ix2 g o) := by
  -- the buffer holds the scales with 256 columns of the converted padding word appended
  have e : (V m c main_v13 : S32x11264.Idx → EReal)
      = (pad S32x11264 ![0, 0] ![0, 256] ![0, 0] (m ((c : Thread nD τ).loc main_arg3) : S32x11008.Idx → EReal)
          (sitofp (F := Ideal) .f32 (constantI S_ 32 0#32 : S_.Idx → BitVec 32) : S_.Idx → EReal) pads_S32x11008_S32x11264_000_02560 h_S_ : S32x11264.Idx → EReal) := by
    dsimp only [Gen.V, Gen.V0]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results
    rfl
  refine (congrFun e _).trans ?_
  -- a column below 11008 lies inside the operand
  refine pad_apply_of_inside ![0, 0] ![0, 256] ![0, 0] _ _ pads_S32x11008_S32x11264_000_02560 h_S_ _ (ix2 g o) ?_
  intro a
  match a with
  | ⟨0, _⟩ => show g.val = 0 + g.val * (0 + 1); omega
  | ⟨1, _⟩ => show o.val = 0 + o.val * (0 + 1); omega

/-- The program's result from the array the launch leaves: column o of row 2048 b + s. -/
theorem result_apply (dats : (p : Fin 1) → (c : Dev nD) → Pipeline.Dat τ (Elt Ideal) Unit ℕ (UR sig nD τ) ℕ (cfgs p) c) (c : Dev nD)
    (A : S8192x11264.Idx → EReal) (hA : (dats 0 c).arrAt 4 cfg0.N = A) (i : S4x2048x11008.Idx) :
    (Pipeline.afterTail₀ cfgs dats 0 (V0 m) [hostOps1] c main_v18 : S4x2048x11008.Idx → EReal) i
      = A (ix2 (⟨2048 * (i 0).val + (i 1).val, by have h0 : (i 0).val < 4 := (i 0).isLt; have h1 : (i 1).val < 2048 := (i 1).isLt; omega⟩ : Fin 8192)
              (⟨(i 2).val, by have h2 : (i 2).val < 11008 := (i 2).isLt; omega⟩ : Fin 11264)) := by
  have h0 : (i 0).val < 4 := (i 0).isLt
  have h1 : (i 1).val < 2048 := (i 1).isLt
  have h2 : (i 2).val < 11008 := (i 2).isLt
  -- the buffer the later lines read is the launch's fifth array, which the launch leaves at A
  have hW : Pipeline.withArrays spec0 c (V0 m c) (fun w => (dats 0 c).arrAt w cfg0.N) (Proc.devRef .tc main_v16) = A :=
    (Pipeline.withArrays_arr spec0 launch0.win.arr_inj c _ _ 4).trans hA
  -- the result is that array cut to its first 11008 columns, its rows regrouped
  have e : (Pipeline.afterTail₀ cfgs dats 0 (V0 m) [hostOps1] c main_v18 : S4x2048x11008.Idx → EReal)
      = (shapeCast S4x2048x11008
          (extractStridedSlice S8192x11008 ![0, 0]
            (Pipeline.withArrays spec0 c (V0 m c) (fun w => (dats 0 c).arrAt w cfg0.N) (Proc.devRef .tc main_v16) : S8192x11264.Idx → EReal)
            slices_S8192x11264_S8192x11008_0_0)
          shapeCasts_S8192x11008_S4x2048x11008 : S4x2048x11008.Idx → EReal) := by
    unfold Pipeline.afterTail₀
    simp only [Gen.hostOps1, List.flatten_cons, List.flatten_nil, List.append_nil, List.cons_append, List.nil_append]
    after_results
    rfl
  rw [hW] at e
  refine (congrFun e i).trans ?_
  -- the regrouping [8192, 11008] → [4, 2048, 11008] keeps the row-major position: row 2048 b + s ↦ (b, s)
  refine (shapeCast_apply _ shapeCasts_S8192x11008_S4x2048x11008 i
    (ix2 (⟨2048 * (i 0).val + (i 1).val, by omega⟩ : Fin 8192) (⟨(i 2).val, h2⟩ : Fin 11008)) ?_).trans ?_
  · rw [Shape.rowMajor_val_two, Shape.rowMajor_val_three]
    show (2048 * (i 0).val + (i 1).val) * 11008 + (i 2).val = ((i 0).val * 2048 + (i 1).val) * 11008 + (i 2).val
    omega
  -- the cut starts at the origin: same row, same column
  refine extractStridedSlice_apply ![0, 0] A slices_S8192x11264_S8192x11008_0_0 _ _ ?_
  intro a
  match a with
  | ⟨0, _⟩ => show 2048 * (i 0).val + (i 1).val = 0 + (2048 * (i 0).val + (i 1).val); omega
  | ⟨1, _⟩ => show (i 2).val = 0 + (i 2).val; omega

end Cert.KernelIdeal.Hand

end
-- ==== Proof.Ideal.KernelValue.lean ====
/-
  The idealized kernel program computes the layer. Its run ends with the launch's output array at the product
  of the activations' rows with the dequantised weights of the padded arrays; the lines after the launch keep
  the original 11008 columns and regroup the rows; and in the original columns the padded arrays are the
  arguments (the zero points unpacked), so the kept entries are the layer's.
-/
import proofs.«415117_j28973849379104_3_alg».proof.Proof.Ideal.PointValue
import proofs.«415117_j28973849379104_3_alg».proof.Proof.Ideal.HostValue

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.Sem
open Cert.KernelIdeal Cert.KernelIdeal.Gen QuantSpec

variable (m : (ℓ : Loc nD τ sig) → Buf (Elt Ideal) ℓ) (ρ : Dev nD → PrngReg)

/-- The program's result buffer as the lines after the launch leave it: the layer of the four arguments. -/
theorem result_is_layer (c : Dev nD) :
    (Pipeline.afterTail₀ cfgs (dats (F := Ideal) m) 0 (V0 m) [hostOps1] c main_v18 : S4x2048x11008.Idx → EReal)
      = G (m ((c : Thread nD τ).loc main_arg0)) (m ((c : Thread nD τ).loc main_arg1)) (m ((c : Thread nD τ).loc main_arg2)) (m ((c : Thread nD τ).loc main_arg3)) := by
  funext i
  rw [result_apply m (dats (F := Ideal) m) c _ (final_array m c (out_at m c)) i]
  unfold prodMat G
  change (_ : EReal) = _
  refine Finset.sum_congr rfl fun k _ => ?_
  change (_ : EReal) * _ = _ * _
  refine congrArg₂ (· * ·) ?_ ?_
  · exact acts_apply m c (⟨(i 0).val, (i 0).isLt⟩ : Fin 4) (⟨(i 1).val, (i 1).isLt⟩ : Fin 2048) k
  · exact Wn_eq_W 11264 _ _ _ _ _ _ k (⟨(i 2).val, (i 2).isLt⟩ : Fin 11008) (by have h2 : (i 2).val < 11008 := (i 2).isLt; show (i 2).val < 11264; omega)
      (packed_apply m c _ _) (zeros_apply m c _ _) (scales_apply m c _ _)

/-- Every weakly fair execution of the idealized kernel program terminates with the layer in its result buffer
    and its arguments unchanged. -/
theorem kernel_run : θ_run defs (onTc (τ := τ) (main (F := Ideal))) ⟨m, fun _ => 0, ρ⟩ (fun r => ∀ c : Dev nD,
      r.2.mem ((c.tc : Thread nD τ).loc main_v18)
        = G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v18 (Pipeline.mem_restRefs_of main_v18 (by decide) (by decide))).trans (result_is_layer m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.Hand

end
-- ==== Proof.RefValue.lean ====
/-
  The reference computes the layer: read one operation at a time, its result at an index is the sum over the
  4096 input rows of the activation times (converted nibble − converted zero point) · scale.
-/
import proofs.«415117_j28973849379104_3_alg».proof.Proof.Gen.ReferenceIdeal.Read
import proofs.«415117_j28973849379104_3_alg».proof.Proof.Spec

noncomputable section

open scoped BigOperators

namespace Cert.ReferenceIdeal.RefValue

open Cert.ReferenceIdeal Cert.ReferenceIdeal.Gen Idealize.ShloMosaic Idealize.ShloMosaic.TcCoe Idealize.ShloMosaic.ValueIdx

/-- The unpacked weight at row `k`, column `o`. Row-major position k · 11008 + o of the 4096 × 11008 array is
    position (k / 8, k % 8, o) of the 512 × 8 × 11008 array, whose entry is nibble k % 8 of packed word (k / 8, o). -/
theorem weight_at (x1 : (⟨S512x11008, .i32⟩ : BufTy).Contents (Elt Ideal)) (k : Fin 4096) (o : Fin 11008) :
    Read.val_main_v10 (F := Ideal) x1 (ix2 k o) = QuantSpec.wq x1 k o := by
  have hk := k.isLt
  have ho := o.isLt
  rw [Read.val_main_v10_apply, Read.val_main_v9_apply, Read.val_main_v7_apply, Read.val_main_v8_apply,
    Read.val_main_c_0_apply, Read.val_main_v5_apply, Read.val_main_v3_apply, Read.val_main_v6_apply,
    Read.val_main_v4_apply, Read.val_main_v2_apply, Read.val_main_v0_apply, Read.val_main_v1_apply,
    Read.val_main_c_apply]
  have e1 : Read.idx_main_v3 (Read.idx_main_v5 (Read.idx_main_v10 (ix2 k o)))
      = ix2 (⟨k.val / 8, by omega⟩ : Fin 512) o := by
    funext a
    refine Fin.ext ?_
    match a with
    | ⟨0, _⟩ => show (k.val * 11008 + o.val) / 88064 = k.val / 8; omega
    | ⟨1, _⟩ => show (k.val * 11008 + o.val) % 11008 = o.val; omega
  have e2 : ((Read.idx_main_v4 (Read.idx_main_v6 (Read.idx_main_v10 (ix2 k o)))) 0).val = k.val % 8 := by
    show (k.val * 11008 + o.val) / 11008 % 8 = k.val % 8; omega
  rw [e1, e2]
  rfl

/-- The unpacked zero point of group `g`, column `o`. Row-major position g · 11008 + o of the 32 × 11008 array is
    position (g, o / 8, o % 8) of the 32 × 1376 × 8 array, whose entry is nibble o % 8 of packed word (g, o / 8). -/
theorem zero_at (x2 : (⟨S32x1376, .i32⟩ : BufTy).Contents (Elt Ideal)) (g : Fin 32) (o : Fin 11008) :
    Read.val_main_v22 (F := Ideal) x2 (ix2 g o) = QuantSpec.zq x2 g o := by
  have hg := g.isLt
  have ho := o.isLt
  rw [Read.val_main_v22_apply, Read.val_main_v21_apply, Read.val_main_v19_apply, Read.val_main_v20_apply,
    Read.val_main_c_2_apply, Read.val_main_v17_apply, Read.val_main_v15_apply, Read.val_main_v18_apply,
    Read.val_main_v16_apply, Read.val_main_v14_apply, Read.val_main_v12_apply, Read.val_main_v13_apply,
    Read.val_main_c_1_apply]
  have e1 : Read.idx_main_v15 (Read.idx_main_v17 (Read.idx_main_v22 (ix2 g o)))
      = ix2 g (⟨o.val / 8, by omega⟩ : Fin 1376) := by
    funext a
    refine Fin.ext ?_
    match a with
    | ⟨0, _⟩ => show (g.val * 11008 + o.val) / 11008 = g.val; omega
    | ⟨1, _⟩ => show (g.val * 11008 + o.val) / 8 % 1376 = o.val / 8; omega
  have e2 : ((Read.idx_main_v16 (Read.idx_main_v18 (Read.idx_main_v22 (ix2 g o)))) 0).val = o.val % 8 := by
    show (g.val * 11008 + o.val) % 8 = o.val % 8; omega
  rw [e1, e2]
  rfl

/-- The zero points spread over the 128 rows of each group: row `k` reads group k / 128. -/
theorem zero_row_at (x2 : (⟨S32x1376, .i32⟩ : BufTy).Contents (Elt Ideal)) (k : Fin 4096) (o : Fin 11008) :
    Read.val_main_v25 (F := Ideal) x2 (ix2 k o)
      = (((QuantSpec.zq x2 (⟨k.val / 128, by have := k.isLt; omega⟩ : Fin 32) o).toInt : ℝ) : EReal) := by
  have hk := k.isLt
  have ho := o.isLt
  rw [Read.val_main_v25_apply, Read.val_main_v24_apply, Read.val_main_v23_apply]
  have e : Read.idx_main_v24 (Read.idx_main_v25 (ix2 k o)) = ix2 (⟨k.val / 128, by omega⟩ : Fin 32) o := by
    funext a
    refine Fin.ext ?_
    match a with
    | ⟨0, _⟩ => show (k.val * 11008 + o.val) / 1409024 = k.val / 128; omega
    | ⟨1, _⟩ => show (k.val * 11008 + o.val) % 11008 = o.val; omega
  rw [e, zero_at]
  rfl

/-- The scales spread over the 128 rows of each group in the same way. -/
theorem scale_at (x3 : (⟨S32x11008, .f32⟩ : BufTy).Contents (Elt Ideal)) (k : Fin 4096) (o : Fin 11008) :
    Read.val_main_v27 (F := Ideal) x3 (ix2 k o) = x3 (ix2 (⟨k.val / 128, by have := k.isLt; omega⟩ : Fin 32) o) := by
  have hk := k.isLt
  have ho := o.isLt
  rw [Read.val_main_v27_apply, Read.val_main_v26_apply]
  have e : Read.idx_main_v26 (Read.idx_main_v27 (ix2 k o)) = ix2 (⟨k.val / 128, by omega⟩ : Fin 32) o := by
    funext a
    refine Fin.ext ?_
    match a with
    | ⟨0, _⟩ => show (k.val * 11008 + o.val) / 1409024 = k.val / 128; omega
    | ⟨1, _⟩ => show (k.val * 11008 + o.val) % 11008 = o.val; omega
  rw [e]

/-- The dequantised weight at (k, o): converted nibble minus converted zero point, times the scale. -/
theorem dequant_at (x1 : (⟨S512x11008, .i32⟩ : BufTy).Contents (Elt Ideal)) (x2 : (⟨S32x1376, .i32⟩ : BufTy).Contents (Elt Ideal))
    (x3 : (⟨S32x11008, .f32⟩ : BufTy).Contents (Elt Ideal)) (k : Fin 4096) (o : Fin 11008) :
    Read.val_main_v29 (F := Ideal) x1 x2 x3 (ix2 k o) = QuantSpec.W x1 x2 x3 k o := by
  rw [Read.val_main_v29_apply, Read.val_main_v28_apply, Read.val_main_v11_apply, weight_at, zero_row_at, scale_at]
  rfl

/-- The reference's result, as a function of the four arguments, is the layer of the specification. -/
theorem ref_is_layer (x0 : (⟨S4x2048x4096, .f32⟩ : BufTy).Contents (Elt Ideal)) (x1 : (⟨S512x11008, .i32⟩ : BufTy).Contents (Elt Ideal))
    (x2 : (⟨S32x1376, .i32⟩ : BufTy).Contents (Elt Ideal)) (x3 : (⟨S32x11008, .f32⟩ : BufTy).Contents (Elt Ideal)) :
    Cert.ReferenceIdeal.Read.val_main_v30 (F := Ideal) x0 x1 x2 x3 = QuantSpec.G x0 x1 x2 x3 := by
  funext i
  rw [Read.val_main_v30_apply]
  unfold QuantSpec.G
  refine Finset.sum_congr rfl fun k _ => ?_
  -- the contraction reads the activations at (i 0, i 1, k) and the dequantised weights at (k, i 2)
  have el : Read.lidx_main_v30 i k
      = ix3 (⟨(i 0).val, (i 0).isLt⟩ : Fin 4) (⟨(i 1).val, (i 1).isLt⟩ : Fin 2048) k := by
    funext a
    refine Fin.ext ?_
    match a with
    | ⟨0, _⟩ => rfl
    | ⟨1, _⟩ => rfl
    | ⟨2, _⟩ => rfl
  have er : Read.ridx_main_v30 i k = ix2 k (⟨(i 2).val, (i 2).isLt⟩ : Fin 11008) := by
    funext a
    refine Fin.ext ?_
    match a with
    | ⟨0, _⟩ => rfl
    | ⟨1, _⟩ => rfl
  rw [el, er, dequant_at]

end Cert.ReferenceIdeal.RefValue

end
-- ==== Proof.lean ====
/-
  The certificate of a 4-bit quantised linear layer. The kernel multiplies the activations, one block of 512
  rows at a time, by weights it unpacks from packed nibbles and dequantises one tile of 1408 output columns at a
  time: at the first row block of a column tile it fills a scratch with the tile's dequantised weights, 128
  input rows at a time, accumulating the product as it goes, and at the other fifteen row blocks it multiplies
  by the scratch. The reference dequantises the whole weight matrix and contracts once.
  The three programs run to the end, faulting nowhere and leaving their arguments as they were. Nothing was
  rewritten by the idealization. And over the extended reals both results are, entry by entry, the same sum
  over the 4096 input rows of activation × (nibble − zero point) × scale: the kernel converts the difference
  of the two nibbles, the reference subtracts the two conversions, which agree because a nibble lies in
  [0, 15]; the kernel's grouping of the sum 128 rows at a time changes nothing; its narrowing of the operands is
  the identity; and its 256 padding columns are cut off again.
-/
import proofs.«415117_j28973849379104_3_alg».proof.Defs
import proofs.«415117_j28973849379104_3_alg».proof.Proof.Gen.Kernel
import proofs.«415117_j28973849379104_3_alg».proof.Proof.Gen.KernelIdeal
import proofs.«415117_j28973849379104_3_alg».proof.Proof.Gen.ReferenceIdeal
import proofs.«415117_j28973849379104_3_alg».proof.Proof.Gen.Pre_finite_inputs
import proofs.«415117_j28973849379104_3_alg».proof.Proof.Gen.ReferenceIdeal.Run
import proofs.«415117_j28973849379104_3_alg».proof.Proof.Gen.ReferenceIdeal.Read
import proofs.«415117_j28973849379104_3_alg».proof.Proof.Bits.Frame
import proofs.«415117_j28973849379104_3_alg».proof.Proof.Ideal.Frame
import proofs.«415117_j28973849379104_3_alg».proof.Proof.Ideal.KernelValue
import proofs.«415117_j28973849379104_3_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : @Cert.frame_Kernel Cert.Kernel.Gen.facts Cert.Pre_finite_inputs.Gen.facts :=
  fun m ρ _ => Cert.Kernel.Hand.frame m ρ

/-- So does the idealized kernel. -/
theorem frame_ki : @Cert.frame_KernelIdeal Cert.KernelIdeal.Gen.facts Cert.Pre_finite_inputs.Gen.facts :=
  fun m ρ _ => Cert.KernelIdeal.Hand.frame m ρ

/-- And the reference: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the arguments both idealized programs end with the layer of those arguments in
    their result buffers. The precondition is not used: every step is an equation that holds at infinite
    entries too. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.ref_is_layer,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
